-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S2x2048x4096 .f32) (main_arg1 : IVec S512x11008 32) (main_arg2 : IVec S32x1376 32) (main_arg3 : FVec F S32x11008 .f32) (main_arg4 : FVec F S11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S2x2048x4096 : Shape := ⟨3, ![2, 2048, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S4096x4096 : Shape := ⟨2, ![4096, 4096]⟩
abbrev S8 : Shape := ⟨1, ![8]⟩
abbrev S_ : Shape := ⟨0, ![]⟩
abbrev S32x1376x1 : Shape := ⟨3, ![32, 1376, 1]⟩
abbrev S1x1x8 : Shape := ⟨3, ![1, 1, 8]⟩
abbrev S32x1376x8 : Shape := ⟨3, ![32, 1376, 8]⟩
abbrev S1x11008 : Shape := ⟨2, ![1, 11008]⟩
abbrev S512x11264 : Shape := ⟨2, ![512, 11264]⟩
abbrev S32x11264 : Shape := ⟨2, ![32, 11264]⟩
abbrev S1x11264 : Shape := ⟨2, ![1, 11264]⟩
abbrev S4096x11264 : Shape := ⟨2, ![4096, 11264]⟩
abbrev S1024x1024 : Shape := ⟨2, ![1024, 1024]⟩
abbrev S128x1024 : Shape := ⟨2, ![128, 1024]⟩
abbrev S8x1024 : Shape := ⟨2, ![8, 1024]⟩
abbrev S1x1024 : Shape := ⟨2, ![1, 1024]⟩
abbrev S4096x1024 : Shape := ⟨2, ![4096, 1024]⟩
abbrev S1x8x1 : Shape := ⟨3, ![1, 8, 1]⟩
abbrev S128x1x1024 : Shape := ⟨3, ![128, 1, 1024]⟩
abbrev S128x8x1024 : Shape := ⟨3, ![128, 8, 1024]⟩
abbrev S8x128x1024 : Shape := ⟨3, ![8, 128, 1024]⟩
abbrev S8x1x1024 : Shape := ⟨3, ![8, 1, 1024]⟩
abbrev S4096x11008 : Shape := ⟨2, ![4096, 11008]⟩
abbrev S2x2048x11008 : Shape := ⟨3, ![2, 2048, 11008]⟩

abbrev nBuf : Space → Nat
  | .hbm => 40
  | .vmem => 14
  | .smem => 0
  | _ => 0

abbrev bufTy : (tb : Table) → Fin (tcTables nBuf tb) → BufTy
  | .hbm, ⟨0, _⟩ => ⟨S2x2048x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S2x2048x4096, .bf16⟩
  | .hbm, ⟨6, _⟩ => ⟨S4096x4096, .bf16⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S32x1376x1, .i32⟩
  | .hbm, ⟨15, _⟩ => ⟨S1x1x8, .i32⟩
  | .hbm, ⟨16, _⟩ => ⟨S32x1376x8, .i32⟩
  | .hbm, ⟨17, _⟩ => ⟨S32x1376x8, .i32⟩
  | .hbm, ⟨18, _⟩ => ⟨S32x1376x8, .i32⟩
  | .hbm, ⟨19, _⟩ => ⟨S_, .i32⟩
  | .hbm, ⟨20, _⟩ => ⟨S32x1376x8, .i32⟩
  | .hbm, ⟨21, _⟩ => ⟨S32x1376x8, .i32⟩
  | .hbm, ⟨22, _⟩ => ⟨S32x11008, .i32⟩
  | .hbm, ⟨23, _⟩ => ⟨S32x11008, .f32⟩
  | .hbm, ⟨24, _⟩ => ⟨S1x11008, .f32⟩
  | .hbm, ⟨25, _⟩ => ⟨S_, .i32⟩
  | .hbm, ⟨26, _⟩ => ⟨S_, .i32⟩
  | .hbm, ⟨27, _⟩ => ⟨S512x11264, .i32⟩
  | .hbm, ⟨28, _⟩ => ⟨S_, .i32⟩
  | .hbm, ⟨29, _⟩ => ⟨S_, .f32⟩
  | .hbm, ⟨30, _⟩ => ⟨S32x11264, .f32⟩
  | .hbm, ⟨31, _⟩ => ⟨S_, .f32⟩
  | .hbm, ⟨32, _⟩ => ⟨S_, .f32⟩
  | .hbm, ⟨33, _⟩ => ⟨S32x11264, .f32⟩
  | .hbm, ⟨34, _⟩ => ⟨S_, .i32⟩
  | .hbm, ⟨35, _⟩ => ⟨S_, .f32⟩
  | .hbm, ⟨36, _⟩ => ⟨S1x11264, .f32⟩
  | .hbm, ⟨37, _⟩ => ⟨S4096x11264, .f32⟩
  | .hbm, ⟨38, _⟩ => ⟨S4096x11008, .f32⟩
  | .hbm, ⟨39, _⟩ => ⟨S2x2048x11008, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .i32⟩
  | .local _ .vmem, ⟨3, _⟩ => ⟨S128x1024, .i32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S4096x1024, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_call0_v0 : Ref sig .tc := ⟨.hbm, 26, rfl⟩
abbrev main_v17 : Ref sig .tc := ⟨.hbm, 27, rfl⟩
abbrev main_c_3 : Ref sig .tc := ⟨.hbm, 28, rfl⟩
abbrev main_call1_v0 : Ref sig .tc := ⟨.hbm, 29, rfl⟩
abbrev main_v18 : Ref sig .tc := ⟨.hbm, 30, rfl⟩
abbrev main_cst : Ref sig .tc := ⟨.hbm, 31, rfl⟩
abbrev main_call2_v0 : Ref sig .tc := ⟨.hbm, 32, rfl⟩
abbrev main_v19 : Ref sig .tc := ⟨.hbm, 33, rfl⟩
abbrev main_c_4 : Ref sig .tc := ⟨.hbm, 34, rfl⟩
abbrev main_call3_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![11, 4, 4], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg2 : BitVec 32 := BitVec.ofNat 32 (i 2).val
  let c1024_i32_16 : BitVec 32 := 1024#32
  let v48 : BitVec 32 := Scalar.muli arg2 c1024_i32_16
  v48
def k0_off1 (i : grid0.Coords) : Fin 2 → Nat :=
  let arg2 : BitVec 32 := BitVec.ofNat 32 (i 2).val
  let c1024_i32_16 : BitVec 32 := 1024#32
  let v48 : BitVec 32 := Scalar.muli arg2 c1024_i32_16
  let v49 : BitVec 32 := v48
  let v50 : Index := Scalar.indexCast v49
  let c0_17 : Index := 0#32
  ![v50.toNat, 0]
def k0_mult2 (i : grid0.Coords) : BitVec 32 :=
  let arg2 : BitVec 32 := BitVec.ofNat 32 (i 2).val
  let c1024_i32 : BitVec 32 := 1024#32
  let v6 : BitVec 32 := Scalar.muli arg2 c1024_i32
  v6
def k0_off2 (i : grid0.Coords) : Fin 2 → Nat :=
  let arg2 : BitVec 32 := BitVec.ofNat 32 (i 2).val
  let c1024_i32 : BitVec 32 := 1024#32
  let v6 : BitVec 32 := Scalar.muli arg2 c1024_i32
  let v7 : BitVec 32 := v6
  let v8 : Index := Scalar.indexCast v7
  let c0 : Index := 0#32
  ![v8.toNat, 0]
def k0_cond3 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  shapeCasts_S2x2048x4096_S4096x4096 : S2x2048x4096.ShapeCasts S4096x4096
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  shapeCasts_S11008_S1x11008 : S11008.ShapeCasts S1x11008
  pads_S512x11008_S512x11264_000_02560 : S512x11008.Pads (![0, 0] : Fin 2 → Nat) ![0, 256] ![0, 0] S512x11264
  h_S_ : 0 < S_.numel
  pads_S32x11008_S32x11264_000_02560 : S32x11008.Pads (![0, 0] : Fin 2 → Nat) ![0, 256] ![0, 0] S32x11264
  pads_S1x11008_S1x11264_000_02560 : S1x11008.Pads (![0, 0] : Fin 2 → Nat) ![0, 256] ![0, 0] S1x11264
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  iota_S1x8x1_d1_w32 : S1x8x1.Iotas .tc 32 [1]
  shapeCasts_S128x1024_S128x1x1024 : S128x1024.ShapeCasts S128x1x1024
  broadcasts_S128x1x1024_S128x8x1024 : S128x1x1024.Broadcasts S128x8x1024
  broadcasts_S1x8x1_S128x8x1024 : S1x8x1.Broadcasts S128x8x1024
  shapeCasts_S128x8x1024_S1024x1024 : S128x8x1024.ShapeCasts S1024x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S1024x1024_S8x128x1024 : S1024x1024.ShapeCasts S8x128x1024
  shapeCasts_S8x1024_S8x1x1024 : S8x1024.ShapeCasts S8x1x1024
  broadcasts_S8x1x1024_S8x128x1024 : S8x1x1024.Broadcasts S8x128x1024
  shapeCasts_S8x128x1024_S1024x1024 : S8x128x1024.ShapeCasts S1024x1024
  h_S1024x1024 : 0 < S1024x1024.numel
  shapeCasts_S1024x1024_S1024x1024 : S1024x1024.ShapeCasts S1024x1024
  inb_S1024x1024_S1024x1024_0_0 : ∀ a, (![0, 0] : Fin 2 → Nat) a + S1024x1024.size a ≤ S1024x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S4096x11264_S4096x11008_0_0 : S4096x11264.Slices ![0, 0] S4096x11008
  shapeCasts_S4096x11008_S2x2048x11008 : S4096x11008.ShapeCasts S2x2048x11008
  dot_S1024x1024_S1024x1024_S1024x1024_1_0_0_1_n_n_wf : DotDims.WF S1024x1024 S1024x1024 S1024x1024 [1] [0] [0] [1] [] []
  hrank0 : 0 < grid0.rank
  k0_mult1_dvd : ∀ i : grid0.Coords, ∀ (k0_h1 : k0_cond1 i = 1#1), 1024 ∣ (k0_mult1 i).toNat
  k0_off1_inb : ∀ i : grid0.Coords, ∀ (k0_h1 : k0_cond1 i = 1#1), ∀ a, (k0_off1 i) a + S1024x1024.size a ≤ S4096x1024.size a
  k0_off1_packedbf16 : ∀ i : grid0.Coords, ∀ (k0_h1 : k0_cond1 i = 1#1), (Rect.unit (s := S4096x1024) (k0_off1 i) S1024x1024.size (k0_off1_inb i k0_h1)).PackedRows (EltTy.packing .bf16)
  k0_mult2_dvd : ∀ i : grid0.Coords, 1024 ∣ (k0_mult2 i).toNat
  k0_off2_inb : ∀ i : grid0.Coords, ∀ a, (k0_off2 i) a + S1024x1024.size a ≤ S4096x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S512x11264.size a
  hwx0_1 : ∀ i : grid0.Coords, EltTy.bits .i32 = 32 ∨ (Rect.block (s := S512x11264) S128x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x11264.size a
  hwx0_2 : ∀ i : grid0.Coords, EltTy.bits .f32 = 32 ∨ (Rect.block (s := S32x11264) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x11264.size a
  hwx0_3 : ∀ i : grid0.Coords, EltTy.bits .f32 = 32 ∨ (Rect.block (s := S32x11264) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x11264.size a
  hwx0_4 : ∀ i : grid0.Coords, EltTy.bits .f32 = 32 ∨ (Rect.block (s := S1x11264) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x11264.size a
  hwx0_5 : ∀ i : grid0.Coords, EltTy.bits .f32 = 32 ∨ (Rect.block (s := S4096x11264) S1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x1376x1 : Shape := ⟨3, ![32, 1376, 1]⟩
abbrev S1x1x8 : Shape := ⟨3, ![1, 1, 8]⟩
abbrev S32x1376x8 : Shape := ⟨3, ![32, 1376, 8]⟩
abbrev S4096 : Shape := ⟨1, ![4096]⟩
abbrev S4096x1 : Shape := ⟨2, ![4096, 1]⟩
abbrev S4096x4096 : Shape := ⟨2, ![4096, 4096]⟩
abbrev S1x11008 : Shape := ⟨2, ![1, 11008]⟩
abbrev S2x2048x11008 : Shape := ⟨3, ![2, 2048, 11008]⟩

abbrev nBuf : Space → Nat
  | .hbm => 77
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S512x1x11008, .i32⟩
  | .hbm, ⟨13, _⟩ => ⟨S1x8x1, .i32⟩
  | .hbm, ⟨14, _⟩ => ⟨S512x8x11008, .i32⟩
  | .hbm, ⟨15, _⟩ => ⟨S512x8x11008, .i32⟩
  | .hbm, ⟨16, _⟩ => ⟨S512x8x11008, .i32⟩
  | .hbm, ⟨17, _⟩ => ⟨S_, .i32⟩
  | .hbm, ⟨18, _⟩ => ⟨S512x8x11008, .i32⟩
  | .hbm, ⟨19, _⟩ => ⟨S512x8x11008, .i32⟩
  | .hbm, ⟨20, _⟩ => ⟨S4096x11008, .i32⟩
  | .hbm, ⟨21, _⟩ => ⟨S4096x11008, .f32⟩
  | .hbm, ⟨22, _⟩ => ⟨S32x1376x1, .i32⟩
  | .hbm, ⟨23, _⟩ => ⟨S1x1x8, .i32⟩
  | .hbm, ⟨24, _⟩ => ⟨S32x1376x8, .i32⟩
  | .hbm, ⟨25, _⟩ => ⟨S32x1376x8, .i32⟩
  | .hbm, ⟨26, _⟩ => ⟨S32x1376x8, .i32⟩
  | .hbm, ⟨27, _⟩ => ⟨S_, .i32⟩
  | .hbm, ⟨28, _⟩ => ⟨S32x1376x8, .i32⟩
  | .hbm, ⟨29, _⟩ => ⟨S32x1376x8, .i32⟩
  | .hbm, ⟨30, _⟩ => ⟨S32x11008, .i32⟩
  | .hbm, ⟨31, _⟩ => ⟨S32x11008, .f32⟩
  | .hbm, ⟨32, _⟩ => ⟨S4096, .i32⟩
  | .hbm, ⟨33, _⟩ => ⟨S_, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S4096x11008, .f32⟩
  | .hbm, ⟨60, _⟩ => ⟨S4096x11008, .f32⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096x1, .i32⟩
  | .hbm, ⟨69, _⟩ => ⟨S4096x11008, .f32⟩
  | .hbm, ⟨70, _⟩ => ⟨S4096x11008, .f32⟩
  | .hbm, ⟨71, _⟩ => ⟨S4096x4096, .f32⟩
  | .hbm, ⟨72, _⟩ => ⟨S4096x11008, .f32⟩
  | .hbm, ⟨73, _⟩ => ⟨S1x11008, .f32⟩
  | .hbm, ⟨74, _⟩ => ⟨S4096x11008, .f32⟩
  | .hbm, ⟨75, _⟩ => ⟨S4096x11008, .f32⟩
  | .hbm, ⟨76, _⟩ => ⟨S2x2048x11008, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_6 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S4096 : S_.BroadcastsInDim S4096 (![] : Fin 0 → Fin S4096.rank)
  bcast_S4096_S4096x1_0 : S4096.BroadcastsInDim S4096x1 (![0] : Fin 1 → Fin S4096x1.rank)
  shapeCasts_S2x2048x4096_S4096x4096 : S2x2048x4096.ShapeCasts S4096x4096
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  shapeCasts_S4096x11008_S2x2048x11008 : S4096x11008.ShapeCasts S2x2048x11008
  gather_S32x11008_S4096x1_S4096x11008_1_0_n_n_0_1_111008_wf : GatherDims.WF S32x11008 S4096x1 S4096x11008 [1] [0] [] [0] [] 1 ![1, 11008]
  dot_S4096x4096_S4096x11008_S4096x11008_1_0_0_1_n_n_wf : DotDims.WF S4096x4096 S4096x11008 S4096x11008 [1] [0] [0] [1] [] []

variable [Facts₀]

def gather_S32x11008_S4096x1_S4096x11008_1_0_n_n_0_1_111008 : GatherDims S32x11008 S4096x1 S4096x11008 where
  offsetDims := [1]
  collapsedSliceDims := [0]
  operandBatchingDims := []
  startIndicesBatchingDims := []
  startIndexMap := [0]
  indexVectorDim := 1
  sliceSizes := ![1, 11008]
  wf := gather_S32x11008_S4096x1_S4096x11008_1_0_n_n_0_1_111008_wf
def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.KConds.lean ====
/-
  The schedule of the one pallas_call, decided over its grid of 11 · 4 · 4 points (n outermost, then m, then k):
  point t has n = t / 16, m = (t / 4) mod 4, k = t mod 4. The body's three branches are taken where m = 0 (the weight
  tile is dequantized into the cache), where k = 0 (the accumulator is cleared) and where k = 3 (the accumulator plus
  the bias goes to the output block); the cache rows touched at a point start at 1024 · k.
-/
import proofs.«410261_j36936718745876_3_alg».proof.Proof.Gen.Kernel.Frame
import proofs.«410261_j36936718745876_3_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body dequantizes the weight tile at this point: m = 0. -/
abbrev condM (i : grid0.Coords) : Prop := k0_cond1 i = 1#1
/-- The body clears the accumulator at this point: k = 0. -/
abbrev condK0 (i : grid0.Coords) : Prop :=
  (Scalar.cmpi .ne (Scalar.extui (Scalar.cmpi .eq (BitVec.ofNat 32 (i 2).val) 0#32)) 0#32) = 1#1
/-- The body writes the output block at this point: k = 3. -/
abbrev condK3 (i : grid0.Coords) : Prop := k0_cond3 i = 1#1

theorem hcondM : ∀ t : Fin cfg0.N, condM (grid0.coords t) ↔ (t.val / 4) % 4 = 0 :=
  (by decide +kernel : ∀ t : Fin grid0.N, condM (grid0.coords t) ↔ (t.val / 4) % 4 = 0)
theorem hcondK0 : ∀ t : Fin cfg0.N, condK0 (grid0.coords t) ↔ t.val % 4 = 0 :=
  (by decide +kernel : ∀ t : Fin grid0.N, condK0 (grid0.coords t) ↔ t.val % 4 = 0)
theorem hcondK3 : ∀ t : Fin cfg0.N, condK3 (grid0.coords t) ↔ t.val % 4 = 3 :=
  (by decide +kernel : ∀ t : Fin grid0.N, condK3 (grid0.coords t) ↔ t.val % 4 = 3)

/-- The rows of the weight cache the body stores (under m = 0) start at 1024 · k. -/
theorem off1_eq : ∀ t : Fin cfg0.N, k0_off1 (grid0.coords t) = ![1024 * (t.val % 4), 0] :=
  (by decide +kernel : ∀ t : Fin grid0.N, k0_off1 (grid0.coords t) = ![1024 * (t.val % 4), 0])
/-- The rows it loads for the product start there too. -/
theorem off2_eq : ∀ t : Fin cfg0.N, k0_off2 (grid0.coords t) = ![1024 * (t.val % 4), 0] :=
  (by decide +kernel : ∀ t : Fin grid0.N, k0_off2 (grid0.coords t) = ![1024 * (t.val % 4), 0])

/-- The input windows are never idle. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
/-- Off k = 3 the output window is idle and not written back. -/
theorem idleAt5 : ∀ t : Fin cfg0.N, ¬condK3 (grid0.coords t) → cfg0.idle 5 (grid0.coords t) = true := by decide +kernel
theorem noFlush5 : ∀ t : Fin cfg0.N, ¬condK3 (grid0.coords t) → (cfg0.win 5).flush t = false := by decide +kernel
/-- At k = 3 it is live. -/
theorem liveAt5 : ∀ t : Fin cfg0.N, condK3 (grid0.coords t) → cfg0.idle 5 (grid0.coords t) = false := by decide +kernel

end Cert.Kernel.Hand

end
-- ==== Proof.KBodyDefs.lean ====
/-
  One run of the kernel body, at any grid point and on any contents of its eight buffers.

  The body reads the activation block x, the packed weight tile q with its zero points z and scales s, the bias row b,
  the accumulator a and the weight cache w. Where m = 0 it stores the dequantized tile into rows 1024·k … 1024·k + 1023 of
  the cache; where k = 0 it clears the accumulator; it then adds to the accumulator the product of x with those rows of the
  cache; where k = 3 it stores the accumulator plus the bias into the output block. The theorem names what each buffer
  holds afterwards: the inputs as they were, the accumulator at `accNew`, the output block at `accNew + bias` where
  k = 3 and untouched elsewhere, and the cache changed on exactly the stored rows.
-/
import proofs.«410261_j36936718745876_3_alg».proof.Proof.KConds
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Classical in
/-- The rows of the weight cache the product reads at a point. -/
def wRead (i : grid0.Coords) (w : Vec F S4096x1024 .bf16) : Vec F S1024x1024 .bf16 :=
  View.ld w (Rect.unit (s := S4096x1024) (k0_off2 i) S1024x1024.size (k0_off2_inb i))

open Classical in
/-- The weight tile the product uses: the one just dequantized where m = 0, else the cached rows. -/
def wUsed (i : grid0.Coords) (q : Vec F S128x1024 .i32) (z s : Vec F S8x1024 .f32) (w : Vec F S4096x1024 .bf16) :
    Vec F S1024x1024 .bf16 :=
  if condM i then k0_pay1 q z s else wRead i w

open Classical in
/-- The accumulator after the body: cleared first where k = 0, then the product added. -/
def accNew (i : grid0.Coords) (q : Vec F S128x1024 .i32) (z s : Vec F S8x1024 .f32) (x0 : Vec F S1024x1024 .bf16)
    (a : Vec F S1024x1024 .f32) (w : Vec F S4096x1024 .bf16) : Vec F S1024x1024 .f32 :=
  k0_pay3 (wUsed i q z s w) x0 (if condK0 i then k0_pay2 else a)

open Classical in
/-- The output block after the body. -/
def outNew (i : grid0.Coords) (q : Vec F S128x1024 .i32) (z s : Vec F S8x1024 .f32) (x0 : Vec F S1024x1024 .bf16)
    (b : Vec F S1x1024 .f32) (o a : Vec F S1024x1024 .f32) (w : Vec F S4096x1024 .bf16) : Vec F S1024x1024 .f32 :=
  if condK3 i then k0_pay4 (accNew i q z s x0 a w) b else o

/-- How the body changes the weight cache: where m = 0 the stored rows hold the dequantized tile and every other row is
    kept; elsewhere nothing changes. -/
def WStep (i : grid0.Coords) (q : Vec F S128x1024 .i32) (z s : Vec F S8x1024 .f32) (w w' : Vec F S4096x1024 .bf16) : Prop :=
  (∀ h : condM i,
      (∀ x, w' ((Rect.unit (s := S4096x1024) (k0_off1 i) S1024x1024.size (k0_off1_inb i h)).emb x) = k0_pay1 q z s x)
      ∧ ∀ y, y ∉ (Rect.unit (s := S4096x1024) (k0_off1 i) S1024x1024.size (k0_off1_inb i h)).set → w' y = w y)
  ∧ (¬condM i → w' = w)

theorem hz2 : (![0, 0] : Fin 2 → Nat) = fun _ => 0 := by
  funext a; match a with | ⟨0, _⟩ => rfl | ⟨1, _⟩ => rfl

/-- A whole-block store, last, leaves its payload. -/
theorem read_store_whole {sg : RefSig} {κ : Kind} {sp : Space} {S : Shape} {e : EltTy} (v : View sg κ sp S e)
    (f : v.ty.Contents (Elt F)) {off : Fin S.rank → Nat} (hz : off = fun _ => 0) (inb : ∀ a, off a + S.size a ≤ S.size a)
    (p : S.Idx → Elt F e) (L : List (View.Piece (Elt F) S e)) :
    v.read (Elt F) (v.writes (Elt F) f ((⟨Rect.unit off S.size inb, p⟩ : View.Piece (Elt F) S e) :: L)) = p := by
  rw [View.read_writes_eq_canon _ _ _ (fun y => ⟨_, List.mem_cons_self, View.mem_set_unit_zero hz inb y⟩),
    View.canon_cons_unit_zero hz]

/-- The rows stored (under m = 0) and the rows loaded for the product are the same rows. -/
theorem off1_eq_off2 (i : grid0.Coords) : k0_off1 i = k0_off2 i := rfl

/-- A load through a rectangle of what ONE store through a rectangle at the same offsets and sizes left reads the stored
    payload. -/
theorem readCov_same_box {sg : RefSig} {κ : Kind} {sp : Space} {S : Shape} {e : EltTy} (v : View sg κ sp S e)
    {off off' sz : Fin S.rank → Nat} (h : off = off') (inb : ∀ a, off a + sz a ≤ S.size a) (inb' : ∀ a, off' a + sz a ≤ S.size a)
    (p : (Rect.unit off sz inb).shape.Idx → Elt F e) :
    v.readCov [(⟨Rect.unit off sz inb, p⟩ : View.Piece (Elt F) S e)] (Rect.unit off' sz inb').toLoadRect = p := by
  subst h; exact View.readCov_cons_toLoadRect v _ p []

/-- A load of the rows just stored reads the stored tile. -/
theorem readCov_stored {sg : RefSig} {κ : Kind} {sp : Space} (v : View sg κ sp S4096x1024 .bf16) (i : grid0.Coords)
    (h1 : condM i) (p : S1024x1024.Idx → Elt F .bf16) :
    v.readCov [(⟨Rect.unit (s := S4096x1024) (k0_off1 i) S1024x1024.size (k0_off1_inb i h1), p⟩ : View.Piece (Elt F) S4096x1024 .bf16)]
      (Rect.unit (s := S4096x1024) (k0_off2 i) S1024x1024.size (k0_off2_inb i)).toLoadRect = p :=
  readCov_same_box v (off1_eq_off2 i) _ _ p

end Cert.Kernel.Hand

end
-- ==== Proof.KData.lean ====
/-
  What the two scratch buffers and the output block hold from point to point, and the proof data of the pipeline.

  The weight tile of a point (n, m, k) is the dequantized tile of (n, k), computed at the point (n, 0, k) from the
  packed weights, zero points and scales fetched there. The accumulator after a point is the product of the point's
  activation block with its weight tile, added to the accumulator the point before left, or to zero where k = 0.
  The weight cache is described by what its rows hold, not named: before a point (n, m, k) the rows of tile (n, k')
  hold that tile for every k' if m > 0, and for every k' < k if m = 0.
-/
import proofs.«410261_j36936718745876_3_alg».proof.Proof.KBodyDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N176 : cfg0.N = 176 := N_0

/-- The point with the same n and k and m = 0: where the weight tile of (n, k) is dequantized. -/
def fillPt (t : Fin cfg0.N) : Fin cfg0.N :=
  ⟨16 * (t.val / 16) + t.val % 4, by
    have h : t.val < 176 := lt_of_lt_of_eq t.isLt N176
    exact lt_of_lt_of_eq (by omega : 16 * (t.val / 16) + t.val % 4 < 176) N176.symm⟩

theorem fillPt_val (t : Fin cfg0.N) : (fillPt t).val = 16 * (t.val / 16) + t.val % 4 := rfl

/-- The dequantized weight tile of a point's (n, k). -/
def wTile (c : Dev nD) (t : Fin cfg0.N) : Vec F S1024x1024 .bf16 :=
  k0_pay1 (iblk m c 1 (fillPt t)) (iblk m c 2 (fillPt t)) (iblk m c 3 (fillPt t))

/-- The accumulator after each point. -/
def accAt (c : Dev nD) : (n : ℕ) → n < cfg0.N → Vec F S1024x1024 .f32
  | 0, hn => k0_pay3 (wTile m c ⟨0, hn⟩) (iblk m c 0 ⟨0, hn⟩) k0_pay2
  | n + 1, hn => k0_pay3 (wTile m c ⟨n + 1, hn⟩) (iblk m c 0 ⟨n + 1, hn⟩)
      (if (n + 1) % 4 = 0 then k0_pay2 else accAt c n (Nat.lt_of_succ_lt hn))

/-- The accumulator after point `t`: the product added to zero where k = 0, else to what the point before left. -/
theorem accAt_eq (c : Dev nD) (t : Fin cfg0.N) :
    accAt m c t.val t.isLt = k0_pay3 (wTile m c t) (iblk m c 0 t)
      (if t.val % 4 = 0 then k0_pay2 else accAt m c (t.val - 1) (Nat.lt_of_le_of_lt (Nat.sub_le _ _) t.isLt)) := by
  obtain ⟨n, hn⟩ := t
  cases n with
  | zero => exact (by rw [if_pos (Nat.zero_mod _)]; rfl)
  | succ n => rfl

/-- What the output block's staging buffer holds after a point with k = 3: the accumulator plus the bias row. -/
def outAt (c : Dev nD) (t : Fin cfg0.N) : Vec F S1024x1024 .f32 :=
  k0_pay4 (accAt m c t.val t.isLt) (iblk m c 4 t)

/-- The weight cache before point `t`: the rows of every tile of the point's n already dequantized hold that tile. -/
def WInv (c : Dev nD) (t : Fin cfg0.N) (w : Vec F S4096x1024 .bf16) : Prop :=
  ∀ t' : Fin cfg0.N, t'.val / 16 = t.val / 16 → (t'.val / 4) % 4 = 0 →
    ((t.val / 4) % 4 ≠ 0 ∨ t'.val % 4 < t.val % 4) → wRead (grid0.coords t') w = wTile m c t'

/-- The scratch operands as whole memrefs. -/
abbrev scM0 : Memref sig .tc .vmem S1024x1024 .f32 := Memref.whole cc0_scratch0
abbrev scM1 : Memref sig .tc .vmem S4096x1024 .bf16 := Memref.whole cc0_scratch1

/-- What the launch hands the region, with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The region's invariant before point `n`: the accumulator at what the point before left (at anything before the
    first point), the weight cache at contents satisfying `WInv` (at anything after the last point), the generator
    register at some state. -/
def PhiS (c : Dev nD) (n : ℕ) (hn : n ≤ cfg0.N) : sProp 𝕄 :=
  iprop(iprop((∃ a, owns (c : Thread nD τ) scM0 fullShare a ∗ ⌜∀ h0 : n ≠ 0, a = accAt m c (n - 1) (by omega)⌝)
      ∗ (∃ w, owns (c : Thread nD τ) scM1 fullShare w ∗ ⌜∀ hlt : n < cfg0.N, WInv m c ⟨n, hlt⟩ w⌝)) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

theorem PhiS_castSucc (c : Dev nD) (t : Fin cfg0.N) :
    (dats m 0 c).Φ t.castSucc = PhiS m c t.val (Nat.le_of_lt t.isLt) := by
  dsimp only [dats]; simp only [Fin.coe_castSucc]

theorem PhiS_succ (c : Dev nD) (t : Fin cfg0.N) :
    (dats m 0 c).Φ t.succ = PhiS m c (t.val + 1) t.isLt := rfl

end Cert.Kernel.Hand

end
-- ==== Proof.KStep.lean ====
/-
  One point's step of the scratch buffers: the accumulator the body leaves is the accumulator of the point, and the weight
  cache the body leaves satisfies the next point's description.
-/
import proofs.«410261_j36936718745876_3_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Rectangles of one size at equal offsets read the same. -/
theorem ld_unit_congr {S : Shape} {e : EltTy} {off off' sz : Fin S.rank → Nat} (h : off = off')
    (inb : ∀ a, off a + sz a ≤ S.size a) (inb' : ∀ a, off' a + sz a ≤ S.size a) (X : S.Idx → Elt F e) :
    View.ld X (Rect.unit off sz inb) = View.ld X (Rect.unit off' sz inb') := by
  subst h; rfl

/-- A load through a rectangle, at a local index, is the contents at the index's place in a rectangle of the same size at
    equal offsets. -/
theorem ld_unit_apply_emb {S : Shape} {e : EltTy} {off off' sz : Fin S.rank → Nat} (h : off = off')
    (inb : ∀ a, off a + sz a ≤ S.size a) (inb' : ∀ a, off' a + sz a ≤ S.size a) (X : S.Idx → Elt F e)
    (x : (Rect.unit off' sz inb').shape.Idx) :
    View.ld X (Rect.unit off' sz inb') x = X ((Rect.unit off sz inb).emb x) := by
  subst h; rfl

theorem wRead_congr {i i' : grid0.Coords} (h : k0_off2 i = k0_off2 i') (w : Vec F S4096x1024 .bf16) :
    wRead i w = wRead i' w := by
  unfold wRead; exact ld_unit_congr h _ _ w

theorem fillPt_of_condM (t : Fin cfg0.N) (h : condM (grid0.coords t)) : fillPt t = t := by
  have h4 := (hcondM t).mp h
  exact Fin.ext (by rw [fillPt_val]; omega)

theorem fillPt_idem (t : Fin cfg0.N) : fillPt (fillPt t) = fillPt t := by
  have ht : t.val < 176 := lt_of_lt_of_eq t.isLt N176
  exact Fin.ext (by simp only [fillPt_val]; omega)

/-- The tile the product uses at a point is the point's weight tile: just dequantized where m = 0, else read from the
    cache, which holds it. -/
theorem wUsed_eq (c : Dev nD) (t : Fin cfg0.N) (w : Vec F S4096x1024 .bf16) (hw : WInv m c t w) :
    wUsed (grid0.coords t) (iblk m c 1 t) (iblk m c 2 t) (iblk m c 3 t) w = wTile m c t := by
  have ht : t.val < 176 := lt_of_lt_of_eq t.isLt N176
  unfold wUsed
  by_cases hM : condM (grid0.coords t)
  · rw [if_pos hM]; unfold wTile; rw [fillPt_of_condM t hM]
  · rw [if_neg hM]
    have hm4 : ¬ (t.val / 4) % 4 = 0 := fun h => hM ((hcondM t).mpr h)
    have h1 := hw (fillPt t) (by rw [fillPt_val]; omega) (by rw [fillPt_val]; omega) (Or.inl hm4)
    rw [wRead_congr (i := grid0.coords t) (i' := grid0.coords (fillPt t))
      ((off2_eq t).trans (by rw [off2_eq (fillPt t), fillPt_val]; congr 2; omega)), h1]
    unfold wTile; rw [fillPt_idem]

/-- The accumulator the body leaves at point `t` is the point's accumulator. -/
theorem accNew_eq (c : Dev nD) (t : Fin cfg0.N) (a : Vec F S1024x1024 .f32) (w : Vec F S4096x1024 .bf16)
    (ha : ∀ h0 : t.val ≠ 0, a = accAt m c (t.val - 1) (Nat.lt_of_le_of_lt (Nat.sub_le _ _) t.isLt)) (hw : WInv m c t w) :
    accNew (grid0.coords t) (iblk m c 1 t) (iblk m c 2 t) (iblk m c 3 t) (iblk m c 0 t) a w = accAt m c t.val t.isLt := by
  unfold accNew
  rw [accAt_eq m c t, wUsed_eq m c t w hw]
  by_cases hk : t.val % 4 = 0
  · rw [if_pos ((hcondK0 t).mpr hk), if_pos hk]
  · rw [if_neg (fun h => hk ((hcondK0 t).mp h)), if_neg hk, ha (by omega)]

/-- Where k = 3 the output block the body leaves is the accumulator plus the bias row. -/
theorem outNew_live (c : Dev nD) (t : Fin cfg0.N) (o a : Vec F S1024x1024 .f32) (w : Vec F S4096x1024 .bf16)
    (h3 : condK3 (grid0.coords t))
    (ha : ∀ h0 : t.val ≠ 0, a = accAt m c (t.val - 1) (Nat.lt_of_le_of_lt (Nat.sub_le _ _) t.isLt)) (hw : WInv m c t w) :
    outNew (grid0.coords t) (iblk m c 1 t) (iblk m c 2 t) (iblk m c 3 t) (iblk m c 0 t) (iblk m c 4 t) o a w = outAt m c t := by
  unfold outNew; rw [if_pos h3, accNew_eq m c t a w ha hw]; rfl

/-- Elsewhere it is untouched. -/
theorem outNew_idle (i : grid0.Coords) (q : Vec F S128x1024 .i32) (z s : Vec F S8x1024 .f32) (x0 : Vec F S1024x1024 .bf16)
    (b : Vec F S1x1024 .f32) (o a : Vec F S1024x1024 .f32) (w : Vec F S4096x1024 .bf16) (h3 : ¬condK3 i) :
    outNew i q z s x0 b o a w = o := by
  unfold outNew; rw [if_neg h3]

/-- The weight cache the body leaves at point `t` satisfies the next point's description. -/
theorem WInv_step (c : Dev nD) (t : Fin cfg0.N) (w w' : Vec F S4096x1024 .bf16) (hw : WInv m c t w)
    (hs : WStep (grid0.coords t) (iblk m c 1 t) (iblk m c 2 t) (iblk m c 3 t) w w') (hlt : t.val + 1 < cfg0.N) :
    WInv m c ⟨t.val + 1, hlt⟩ w' := by
  have ht : t.val + 1 < 176 := lt_of_lt_of_eq hlt N176
  intro t' hn hm0 hv
  have ht' : t'.val < 176 := lt_of_lt_of_eq t'.isLt N176
  simp only at hn hv
  by_cases hM : condM (grid0.coords t)
  · have h4 := (hcondM t).mp hM
    obtain ⟨hnew, hkeep⟩ := hs.1 hM
    by_cases hk : t'.val % 4 = t.val % 4
    · -- the tile just stored
      have e : t' = t := Fin.ext (by omega)
      subst e
      funext x
      unfold wRead
      refine (ld_unit_apply_emb (S := S4096x1024) (sz := S1024x1024.size) (off1_eq_off2 (grid0.coords t')) (k0_off1_inb (grid0.coords t') hM)
        (k0_off2_inb (grid0.coords t')) w' x).trans ?_
      rw [hnew x]
      unfold wTile; rw [fillPt_of_condM t' hM]
    · -- a tile stored earlier: its rows are not the rows just stored
      have hold := hw t' (by omega) hm0 (Or.inr (by omega))
      rw [← hold]
      funext x
      unfold wRead
      show w' _ = w _
      refine hkeep _ (fun hmem => ?_)
      rw [Rect.mem_set_unit] at hmem
      have h0 := hmem 0
      rw [off1_eq t] at h0
      have hx : ((Rect.unit (s := S4096x1024) (k0_off2 (grid0.coords t')) S1024x1024.size (k0_off2_inb (grid0.coords t'))).idx x 0 : Nat)
          = 1024 * (t'.val % 4) + (x 0).val := by
        show k0_off2 (grid0.coords t') 0 + 1 * (x 0).val = _
        rw [off2_eq t']; simp only [Matrix.cons_val_zero, Nat.one_mul]
      have hx0 : (x 0).val < 1024 := (x 0).isLt
      simp only [Matrix.cons_val_zero] at h0
      rw [hx] at h0
      omega
  · have hm4 : ¬ (t.val / 4) % 4 = 0 := fun h => hM ((hcondM t).mpr h)
    rw [hs.2 hM]
    by_cases hnn : (t.val + 1) / 16 = t.val / 16
    · exact hw t' (by omega) hm0 (Or.inl hm4)
    · exfalso; omega

end Cert.Kernel.Hand

end
-- ==== Proof.KBodyM.lean ====
/-
  The run of the kernel body by symbolic execution at the points where m = 0: the weight tile is dequantized and stored into the cache before the product reads it back, in each of the three cases of k (k = 0, 0 < k < 3, k = 3), with what every
  buffer holds afterwards read back from the stores.
-/
import proofs.«410261_j36936718745876_3_alg».proof.Proof.KBodyDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where the weight tile is dequantized into the cache (m = 0), the accumulator is cleared first (k = 0), the output block is left alone (k < 3). -/
theorem run_mzi (c : Dev nD) (i : grid0.Coords) (hc1 : condM i) (hc2 : condK0 i) (hc3 : ¬condK3 i)
    (arg3 : Memref sig .tc .vmem S1024x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S4096x1024 .bf16) (harg10 : arg10.IsWhole)
    (x0 : Vec F S1024x1024 .bf16) (q : Vec F S128x1024 .i32) (z s : Vec F S8x1024 .f32) (b : Vec F S1x1024 .f32)
    (o a : Vec F S1024x1024 .f32) (w : Vec F S4096x1024 .bf16) (E : Set ℕ) (K : PUnit → sProp 𝕄) :
    iprop(owns (c : Thread nD τ) arg3 fullShare x0 ∗ owns (c : Thread nD τ) arg4 fullShare q ∗ owns (c : Thread nD τ) arg5 fullShare z
        ∗ owns (c : Thread nD τ) arg6 fullShare s ∗ owns (c : Thread nD τ) arg7 fullShare b ∗ owns (c : Thread nD τ) arg8 fullShare o
        ∗ owns (c : Thread nD τ) arg9 fullShare a ∗ owns (c : Thread nD τ) arg10 fullShare w
        ∗ (iprop(owns (c : Thread nD τ) arg3 fullShare x0 ∗ owns (c : Thread nD τ) arg4 fullShare q ∗ owns (c : Thread nD τ) arg5 fullShare z
            ∗ owns (c : Thread nD τ) arg6 fullShare s ∗ owns (c : Thread nD τ) arg7 fullShare b
            ∗ owns (c : Thread nD τ) arg8 fullShare o
            ∗ owns (c : Thread nD τ) arg9 fullShare (k0_pay3 (k0_pay1 q z s) x0 k0_pay2)
            ∗ (∃ w', owns (c : Thread nD τ) arg10 fullShare w' ∗ ⌜WStep i q z s w w'⌝)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact hc1 | exact hc2 | exact hc3)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    exact harg8.read_unread _
  isplitl [H9]
  · iexists _; isplitr
    swap; · iexact H9
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
    rw [readCov_same_box _ (off1_eq_off2 i)]
  iexists _
  isplitl [H10]
  · iexists _; isplitr
    swap; · iexact H10
    ipureintro; rfl
  ipureintro
  refine ⟨fun h => ⟨fun x => ?_, fun y hy => ?_⟩, fun h => absurd hc1 h⟩
  · rw [View.read_writes_cons_emb]
    simp only [View.readAt_eq_ld, Memref.IsWhole.read_unread, View.ld_unit_zero (S := S128x1024) hz2, View.ld_unit_zero (S := S8x1024) hz2]
  · rw [View.read_writes_apply_of_forall_not_mem _ _ y _ (by
      intro p hp; rw [List.mem_singleton] at hp; subst hp; exact hy), harg10.read_unread]

set_option maxHeartbeats 4000000 in
/-- The body where the weight tile is dequantized into the cache (m = 0), the accumulator is carried (k > 0), the output block is left alone (k < 3). -/
theorem run_mai (c : Dev nD) (i : grid0.Coords) (hc1 : condM i) (hc2 : ¬condK0 i) (hc3 : ¬condK3 i)
    (arg3 : Memref sig .tc .vmem S1024x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S4096x1024 .bf16) (harg10 : arg10.IsWhole)
    (x0 : Vec F S1024x1024 .bf16) (q : Vec F S128x1024 .i32) (z s : Vec F S8x1024 .f32) (b : Vec F S1x1024 .f32)
    (o a : Vec F S1024x1024 .f32) (w : Vec F S4096x1024 .bf16) (E : Set ℕ) (K : PUnit → sProp 𝕄) :
    iprop(owns (c : Thread nD τ) arg3 fullShare x0 ∗ owns (c : Thread nD τ) arg4 fullShare q ∗ owns (c : Thread nD τ) arg5 fullShare z
        ∗ owns (c : Thread nD τ) arg6 fullShare s ∗ owns (c : Thread nD τ) arg7 fullShare b ∗ owns (c : Thread nD τ) arg8 fullShare o
        ∗ owns (c : Thread nD τ) arg9 fullShare a ∗ owns (c : Thread nD τ) arg10 fullShare w
        ∗ (iprop(owns (c : Thread nD τ) arg3 fullShare x0 ∗ owns (c : Thread nD τ) arg4 fullShare q ∗ owns (c : Thread nD τ) arg5 fullShare z
            ∗ owns (c : Thread nD τ) arg6 fullShare s ∗ owns (c : Thread nD τ) arg7 fullShare b
            ∗ owns (c : Thread nD τ) arg8 fullShare o
            ∗ owns (c : Thread nD τ) arg9 fullShare (k0_pay3 (k0_pay1 q z s) x0 a)
            ∗ (∃ w', owns (c : Thread nD τ) arg10 fullShare w' ∗ ⌜WStep i q z s w w'⌝)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact hc1 | exact hc2 | exact hc3)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    exact harg8.read_unread _
  isplitl [H9]
  · iexists _; isplitr
    swap; · iexact H9
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
    rw [readCov_same_box _ (off1_eq_off2 i)]
  iexists _
  isplitl [H10]
  · iexists _; isplitr
    swap; · iexact H10
    ipureintro; rfl
  ipureintro
  refine ⟨fun h => ⟨fun x => ?_, fun y hy => ?_⟩, fun h => absurd hc1 h⟩
  · rw [View.read_writes_cons_emb]
    simp only [View.readAt_eq_ld, Memref.IsWhole.read_unread, View.ld_unit_zero (S := S128x1024) hz2, View.ld_unit_zero (S := S8x1024) hz2]
  · rw [View.read_writes_apply_of_forall_not_mem _ _ y _ (by
      intro p hp; rw [List.mem_singleton] at hp; subst hp; exact hy), harg10.read_unread]

set_option maxHeartbeats 4000000 in
/-- The body where the weight tile is dequantized into the cache (m = 0), the accumulator is carried (k > 0), the output block is written (k = 3). -/
theorem run_mao (c : Dev nD) (i : grid0.Coords) (hc1 : condM i) (hc2 : ¬condK0 i) (hc3 : condK3 i)
    (arg3 : Memref sig .tc .vmem S1024x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S4096x1024 .bf16) (harg10 : arg10.IsWhole)
    (x0 : Vec F S1024x1024 .bf16) (q : Vec F S128x1024 .i32) (z s : Vec F S8x1024 .f32) (b : Vec F S1x1024 .f32)
    (o a : Vec F S1024x1024 .f32) (w : Vec F S4096x1024 .bf16) (E : Set ℕ) (K : PUnit → sProp 𝕄) :
    iprop(owns (c : Thread nD τ) arg3 fullShare x0 ∗ owns (c : Thread nD τ) arg4 fullShare q ∗ owns (c : Thread nD τ) arg5 fullShare z
        ∗ owns (c : Thread nD τ) arg6 fullShare s ∗ owns (c : Thread nD τ) arg7 fullShare b ∗ owns (c : Thread nD τ) arg8 fullShare o
        ∗ owns (c : Thread nD τ) arg9 fullShare a ∗ owns (c : Thread nD τ) arg10 fullShare w
        ∗ (iprop(owns (c : Thread nD τ) arg3 fullShare x0 ∗ owns (c : Thread nD τ) arg4 fullShare q ∗ owns (c : Thread nD τ) arg5 fullShare z
            ∗ owns (c : Thread nD τ) arg6 fullShare s ∗ owns (c : Thread nD τ) arg7 fullShare b
            ∗ owns (c : Thread nD τ) arg8 fullShare (k0_pay4 (k0_pay3 (k0_pay1 q z s) x0 a) b)
            ∗ owns (c : Thread nD τ) arg9 fullShare (k0_pay3 (k0_pay1 q z s) x0 a)
            ∗ (∃ w', owns (c : Thread nD τ) arg10 fullShare w' ∗ ⌜WStep i q z s w w'⌝)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact hc1 | exact hc2 | exact hc3)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
    rw [readCov_same_box _ (off1_eq_off2 i)]
  isplitl [H9]
  · iexists _; isplitr
    swap; · iexact H9
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
    rw [readCov_same_box _ (off1_eq_off2 i)]
  iexists _
  isplitl [H10]
  · iexists _; isplitr
    swap; · iexact H10
    ipureintro; rfl
  ipureintro
  refine ⟨fun h => ⟨fun x => ?_, fun y hy => ?_⟩, fun h => absurd hc1 h⟩
  · rw [View.read_writes_cons_emb]
    simp only [View.readAt_eq_ld, Memref.IsWhole.read_unread, View.ld_unit_zero (S := S128x1024) hz2, View.ld_unit_zero (S := S8x1024) hz2]
  · rw [View.read_writes_apply_of_forall_not_mem _ _ y _ (by
      intro p hp; rw [List.mem_singleton] at hp; subst hp; exact hy), harg10.read_unread]

end Cert.Kernel.Hand

end
-- ==== Proof.KBodyN.lean ====
/-
  The run of the kernel body by symbolic execution at the points where m > 0: the product reads the weight tile from the cache, in each of the three cases of k (k = 0, 0 < k < 3, k = 3), with what every
  buffer holds afterwards read back from the stores.
-/
import proofs.«410261_j36936718745876_3_alg».proof.Proof.KBodyDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body where the cache is only read (m > 0), the accumulator is cleared first (k = 0), the output block is left alone (k < 3). -/
theorem run_nzi (c : Dev nD) (i : grid0.Coords) (hc1 : ¬condM i) (hc2 : condK0 i) (hc3 : ¬condK3 i)
    (arg3 : Memref sig .tc .vmem S1024x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S4096x1024 .bf16) (harg10 : arg10.IsWhole)
    (x0 : Vec F S1024x1024 .bf16) (q : Vec F S128x1024 .i32) (z s : Vec F S8x1024 .f32) (b : Vec F S1x1024 .f32)
    (o a : Vec F S1024x1024 .f32) (w : Vec F S4096x1024 .bf16) (E : Set ℕ) (K : PUnit → sProp 𝕄) :
    iprop(owns (c : Thread nD τ) arg3 fullShare x0 ∗ owns (c : Thread nD τ) arg4 fullShare q ∗ owns (c : Thread nD τ) arg5 fullShare z
        ∗ owns (c : Thread nD τ) arg6 fullShare s ∗ owns (c : Thread nD τ) arg7 fullShare b ∗ owns (c : Thread nD τ) arg8 fullShare o
        ∗ owns (c : Thread nD τ) arg9 fullShare a ∗ owns (c : Thread nD τ) arg10 fullShare w
        ∗ (iprop(owns (c : Thread nD τ) arg3 fullShare x0 ∗ owns (c : Thread nD τ) arg4 fullShare q ∗ owns (c : Thread nD τ) arg5 fullShare z
            ∗ owns (c : Thread nD τ) arg6 fullShare s ∗ owns (c : Thread nD τ) arg7 fullShare b
            ∗ owns (c : Thread nD τ) arg8 fullShare o
            ∗ owns (c : Thread nD τ) arg9 fullShare (k0_pay3 (wRead i w) x0 k0_pay2)
            ∗ (∃ w', owns (c : Thread nD τ) arg10 fullShare w' ∗ ⌜WStep i q z s w w'⌝)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  unfold wRead
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact hc1 | exact hc2 | exact hc3)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    exact harg8.read_unread _
  isplitl [H9]
  · iexists _; isplitr
    swap; · iexact H9
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
  iexists _
  isplitl [H10]
  · iexists _; isplitr
    swap; · iexact H10
    ipureintro; rfl
  ipureintro
  exact ⟨fun h => absurd h hc1, fun _ => harg10.read_unread _⟩

set_option maxHeartbeats 4000000 in
/-- The body where the cache is only read (m > 0), the accumulator is carried (k > 0), the output block is left alone (k < 3). -/
theorem run_nai (c : Dev nD) (i : grid0.Coords) (hc1 : ¬condM i) (hc2 : ¬condK0 i) (hc3 : ¬condK3 i)
    (arg3 : Memref sig .tc .vmem S1024x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S4096x1024 .bf16) (harg10 : arg10.IsWhole)
    (x0 : Vec F S1024x1024 .bf16) (q : Vec F S128x1024 .i32) (z s : Vec F S8x1024 .f32) (b : Vec F S1x1024 .f32)
    (o a : Vec F S1024x1024 .f32) (w : Vec F S4096x1024 .bf16) (E : Set ℕ) (K : PUnit → sProp 𝕄) :
    iprop(owns (c : Thread nD τ) arg3 fullShare x0 ∗ owns (c : Thread nD τ) arg4 fullShare q ∗ owns (c : Thread nD τ) arg5 fullShare z
        ∗ owns (c : Thread nD τ) arg6 fullShare s ∗ owns (c : Thread nD τ) arg7 fullShare b ∗ owns (c : Thread nD τ) arg8 fullShare o
        ∗ owns (c : Thread nD τ) arg9 fullShare a ∗ owns (c : Thread nD τ) arg10 fullShare w
        ∗ (iprop(owns (c : Thread nD τ) arg3 fullShare x0 ∗ owns (c : Thread nD τ) arg4 fullShare q ∗ owns (c : Thread nD τ) arg5 fullShare z
            ∗ owns (c : Thread nD τ) arg6 fullShare s ∗ owns (c : Thread nD τ) arg7 fullShare b
            ∗ owns (c : Thread nD τ) arg8 fullShare o
            ∗ owns (c : Thread nD τ) arg9 fullShare (k0_pay3 (wRead i w) x0 a)
            ∗ (∃ w', owns (c : Thread nD τ) arg10 fullShare w' ∗ ⌜WStep i q z s w w'⌝)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  unfold wRead
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact hc1 | exact hc2 | exact hc3)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    exact harg8.read_unread _
  isplitl [H9]
  · iexists _; isplitr
    swap; · iexact H9
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
  iexists _
  isplitl [H10]
  · iexists _; isplitr
    swap; · iexact H10
    ipureintro; rfl
  ipureintro
  exact ⟨fun h => absurd h hc1, fun _ => harg10.read_unread _⟩

set_option maxHeartbeats 4000000 in
/-- The body where the cache is only read (m > 0), the accumulator is carried (k > 0), the output block is written (k = 3). -/
theorem run_nao (c : Dev nD) (i : grid0.Coords) (hc1 : ¬condM i) (hc2 : ¬condK0 i) (hc3 : condK3 i)
    (arg3 : Memref sig .tc .vmem S1024x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S4096x1024 .bf16) (harg10 : arg10.IsWhole)
    (x0 : Vec F S1024x1024 .bf16) (q : Vec F S128x1024 .i32) (z s : Vec F S8x1024 .f32) (b : Vec F S1x1024 .f32)
    (o a : Vec F S1024x1024 .f32) (w : Vec F S4096x1024 .bf16) (E : Set ℕ) (K : PUnit → sProp 𝕄) :
    iprop(owns (c : Thread nD τ) arg3 fullShare x0 ∗ owns (c : Thread nD τ) arg4 fullShare q ∗ owns (c : Thread nD τ) arg5 fullShare z
        ∗ owns (c : Thread nD τ) arg6 fullShare s ∗ owns (c : Thread nD τ) arg7 fullShare b ∗ owns (c : Thread nD τ) arg8 fullShare o
        ∗ owns (c : Thread nD τ) arg9 fullShare a ∗ owns (c : Thread nD τ) arg10 fullShare w
        ∗ (iprop(owns (c : Thread nD τ) arg3 fullShare x0 ∗ owns (c : Thread nD τ) arg4 fullShare q ∗ owns (c : Thread nD τ) arg5 fullShare z
            ∗ owns (c : Thread nD τ) arg6 fullShare s ∗ owns (c : Thread nD τ) arg7 fullShare b
            ∗ owns (c : Thread nD τ) arg8 fullShare (k0_pay4 (k0_pay3 (wRead i w) x0 a) b)
            ∗ owns (c : Thread nD τ) arg9 fullShare (k0_pay3 (wRead i w) x0 a)
            ∗ (∃ w', owns (c : Thread nD τ) arg10 fullShare w' ∗ ⌜WStep i q z s w w'⌝)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  unfold wRead
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact hc1 | exact hc2 | exact hc3)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
  isplitl [H9]
  · iexists _; isplitr
    swap; · iexact H9
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
  iexists _
  isplitl [H10]
  · iexists _; isplitr
    swap; · iexact H10
    ipureintro; rfl
  ipureintro
  exact ⟨fun h => absurd h hc1, fun _ => harg10.read_unread _⟩

end Cert.Kernel.Hand

end
-- ==== Proof.KBody.lean ====
/-
  One run of the kernel body at any grid point: the six cases of its three branch conditions (k = 0 and k = 3 exclude each
  other) put together, with what every buffer holds afterwards named by `outNew`, `accNew` and `WStep`.
-/
import proofs.«410261_j36936718745876_3_alg».proof.Proof.KBodyM
import proofs.«410261_j36936718745876_3_alg».proof.Proof.KBodyN

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body at grid coordinates `i`, on whole buffers holding `x0 q z s b o a w`, runs to its end and leaves the inputs
    as they were, the output block at `outNew`, the accumulator at `accNew` and the weight cache one `WStep` on. -/
theorem kernel_run (c : Dev nD) (i : grid0.Coords) (hx : ¬(condK0 i ∧ condK3 i))
    (arg3 : Memref sig .tc .vmem S1024x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S4096x1024 .bf16) (harg10 : arg10.IsWhole)
    (x0 : Vec F S1024x1024 .bf16) (q : Vec F S128x1024 .i32) (z s : Vec F S8x1024 .f32) (b : Vec F S1x1024 .f32)
    (o a : Vec F S1024x1024 .f32) (w : Vec F S4096x1024 .bf16) (E : Set ℕ) (K : PUnit → sProp 𝕄) :
    iprop(owns (c : Thread nD τ) arg3 fullShare x0 ∗ owns (c : Thread nD τ) arg4 fullShare q ∗ owns (c : Thread nD τ) arg5 fullShare z
        ∗ owns (c : Thread nD τ) arg6 fullShare s ∗ owns (c : Thread nD τ) arg7 fullShare b ∗ owns (c : Thread nD τ) arg8 fullShare o
        ∗ owns (c : Thread nD τ) arg9 fullShare a ∗ owns (c : Thread nD τ) arg10 fullShare w
        ∗ (iprop(owns (c : Thread nD τ) arg3 fullShare x0 ∗ owns (c : Thread nD τ) arg4 fullShare q ∗ owns (c : Thread nD τ) arg5 fullShare z
            ∗ owns (c : Thread nD τ) arg6 fullShare s ∗ owns (c : Thread nD τ) arg7 fullShare b
            ∗ owns (c : Thread nD τ) arg8 fullShare (outNew i q z s x0 b o a w)
            ∗ owns (c : Thread nD τ) arg9 fullShare (accNew i q z s x0 a w)
            ∗ (∃ w', owns (c : Thread nD τ) arg10 fullShare w' ∗ ⌜WStep i q z s w w'⌝)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  unfold outNew accNew wUsed
  by_cases hc1 : condM i
  · by_cases hc2 : condK0 i
    · by_cases hc3 : condK3 i
      · exact absurd ⟨hc2, hc3⟩ hx
      · simp only [if_pos hc1, if_pos hc2, if_neg hc3]
        exact run_mzi c i hc1 hc2 hc3 arg3 harg3 arg4 harg4 arg5 harg5 arg6 harg6 arg7 harg7 arg8 harg8 arg9 harg9 arg10 harg10 x0 q z s b o a w E K
    · by_cases hc3 : condK3 i
      · simp only [if_pos hc1, if_neg hc2, if_pos hc3]
        exact run_mao c i hc1 hc2 hc3 arg3 harg3 arg4 harg4 arg5 harg5 arg6 harg6 arg7 harg7 arg8 harg8 arg9 harg9 arg10 harg10 x0 q z s b o a w E K
      · simp only [if_pos hc1, if_neg hc2, if_neg hc3]
        exact run_mai c i hc1 hc2 hc3 arg3 harg3 arg4 harg4 arg5 harg5 arg6 harg6 arg7 harg7 arg8 harg8 arg9 harg9 arg10 harg10 x0 q z s b o a w E K
  · by_cases hc2 : condK0 i
    · by_cases hc3 : condK3 i
      · exact absurd ⟨hc2, hc3⟩ hx
      · simp only [if_neg hc1, if_pos hc2, if_neg hc3]
        exact run_nzi c i hc1 hc2 hc3 arg3 harg3 arg4 harg4 arg5 harg5 arg6 harg6 arg7 harg7 arg8 harg8 arg9 harg9 arg10 harg10 x0 q z s b o a w E K
    · by_cases hc3 : condK3 i
      · simp only [if_neg hc1, if_neg hc2, if_pos hc3]
        exact run_nao c i hc1 hc2 hc3 arg3 harg3 arg4 harg4 arg5 harg5 arg6 harg6 arg7 harg7 arg8 harg8 arg9 harg9 arg10 harg10 x0 q z s b o a w E K
      · simp only [if_neg hc1, if_neg hc2, if_neg hc3]
        exact run_nai c i hc1 hc2 hc3 arg3 harg3 arg4 harg4 arg5 harg5 arg6 harg6 arg7 harg7 arg8 harg8 arg9 harg9 arg10 harg10 x0 q z s b o a w E K

end Cert.Kernel.Hand

end
-- ==== Proof.KOblig.lean ====
/-
  The body obligation of the pipeline at every grid point, the launch, and the frame.

  At a point the invariant hands the body the accumulator (at what the point before left, or at anything before the first
  point) and the weight cache (at contents in which every tile already dequantized for the point's n sits in its rows); the
  input windows' staging buffers hold their blocks; the body runs (`kernel_run`) and hands back the accumulator at the
  point's value, the cache one step on, and the output block's buffer at the accumulator plus the bias where k = 3 and
  untouched elsewhere, which is what an idle window owes.
-/
import proofs.«410261_j36936718745876_3_alg».proof.Proof.KStep
import proofs.«410261_j36936718745876_3_alg».proof.Proof.KBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it to the body. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .f32 := win0_5.stage (cfg0.slots t 5)
abbrev hs5 (t : Fin cfg0.N) : (ms5 t).IsWhole := hstage0_5 ((cfg0.slots t 5).cast nbuf0_5)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [PhiS_succ, PhiS_castSucc]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  unfold PhiS
  by_cases h3 : condK3 (grid0.coords t)
  · rw [show (dats m 0 c).leavesExact 5 t = owns (c : Thread nD τ) (ms5 t) fullShare ((dats m 0 c).after 5 t) from by
      unfold Dat.leavesExact; rw [liveAt5 t h3], after5]
    iintro ⟨⟨⟨⟨%a, Ha, %ha⟩, ⟨%w, Hw, %hw⟩⟩, Hg⟩, Ho, ⟨%d0, H0⟩, ⟨%d1, H1⟩, ⟨%d2, H2⟩, ⟨%d3, H3⟩, ⟨%d4, H4⟩, ⟨%d5, H5⟩⟩
    have hrun := fun K => kernel_run (F := F) c (grid0.coords t)
      (fun h => by have h0 := (hcondK0 t).mp h.1; have h3' := (hcondK3 t).mp h.2; omega) (ms0 t) (hs0 t) (ms1 t) (hs1 t) (ms2 t) (hs2 t) (ms3 t) (hs3 t)
      (ms4 t) (hs4 t) (ms5 t) (hs5 t) scM0 (Memref.isWhole_whole _) scM1 (Memref.isWhole_whole _)
      (iblk m c 0 t) (iblk m c 1 t) (iblk m c 2 t) (iblk m c 3 t) (iblk m c 4 t) ((dats m 0 c).before 5 t d5) a w Set.univ K
    rw [accNew_eq m c t a w ha (hw t.isLt), outNew_live m c t _ a w h3 ha (hw t.isLt)] at hrun
    iapply (hrun _)
    isplitl [H0]; · iexact H0
    isplitl [H1]; · iexact H1
    isplitl [H2]; · iexact H2
    isplitl [H3]; · iexact H3
    isplitl [H4]; · iexact H4
    isplitl [H5]; · iexact H5
    isplitl [Ha]; · iexact Ha
    isplitl [Hw]; · iexact Hw
    iintro ⟨H0, H1, H2, H3, H4, H5, H9, ⟨%w', H10, %hstep⟩⟩
    isplitl [H9 H10 Hg]
    · isplitl [H9 H10]
      · isplitl [H9]
        · iexists _; isplitl [H9]; · iexact H9
          ipureintro; intro _; rfl
        · iexists w'; isplitl [H10]; · iexact H10
          ipureintro; intro hlt; exact WInv_step m c t w w' (hw t.isLt) hstep hlt
      · iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dats m 0 c) 5 t (idleAt5 t h3) (noFlush5 t h3)]
    iintro ⟨⟨⟨⟨%a, Ha, %ha⟩, ⟨%w, Hw, %hw⟩⟩, Hg⟩, Ho, ⟨%d0, H0⟩, ⟨%d1, H1⟩, ⟨%d2, H2⟩, ⟨%d3, H3⟩, ⟨%d4, H4⟩, ⟨%d5, H5⟩⟩
    have hrun := fun K => kernel_run (F := F) c (grid0.coords t)
      (fun h => by have h0 := (hcondK0 t).mp h.1; have h3' := (hcondK3 t).mp h.2; omega) (ms0 t) (hs0 t) (ms1 t) (hs1 t) (ms2 t) (hs2 t) (ms3 t) (hs3 t)
      (ms4 t) (hs4 t) (ms5 t) (hs5 t) scM0 (Memref.isWhole_whole _) scM1 (Memref.isWhole_whole _)
      (iblk m c 0 t) (iblk m c 1 t) (iblk m c 2 t) (iblk m c 3 t) (iblk m c 4 t) ((dats m 0 c).before 5 t d5) a w Set.univ K
    rw [accNew_eq m c t a w ha (hw t.isLt), outNew_idle _ _ _ _ _ _ _ _ _ h3] at hrun
    iapply (hrun _)
    isplitl [H0]; · iexact H0
    isplitl [H1]; · iexact H1
    isplitl [H2]; · iexact H2
    isplitl [H3]; · iexact H3
    isplitl [H4]; · iexact H4
    isplitl [H5]; · iexact H5
    isplitl [Ha]; · iexact Ha
    isplitl [Hw]; · iexact Hw
    iintro ⟨H0, H1, H2, H3, H4, H5, H9, ⟨%w', H10, %hstep⟩⟩
    isplitl [H9 H10 Hg]
    · isplitl [H9 H10]
      · isplitl [H9]
        · iexists _; isplitl [H9]; · iexact H9
          ipureintro; intro _; rfl
        · iexists w'; isplitl [H10]; · iexact H10
          ipureintro; intro hlt; exact WInv_step m c t w w' (hw t.isLt) hstep hlt
      · iexact Hg
    isplitl [Ho]; · iexact Ho
    isplitl [H0]; · iexact H0
    isplitl [H1]; · iexact H1
    isplitl [H2]; · iexact H2
    isplitl [H3]; · iexact H3
    isplitl [H4]; · iexact H4
    iexists d5; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known of either scratch. -/
theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%d0, H0⟩, ⟨%d1, H1⟩⟩, Hg⟩
  isplitl [H0 H1]
  · isplitl [H0]
    · iexists d0; isplitl [H0]; · iexact H0
      ipureintro; intro h; exact absurd rfl h
    · iexists d1; isplitl [H1]; · iexact H1
      ipureintro; intro hlt t' _ _ hv
      exfalso; rcases hv with hv | hv
      · exact hv (by show 0 / 4 % 4 = 0; rfl)
      · exact absurd hv (by show ¬ t'.val % 4 < 0 % 4; exact Nat.not_lt_zero _)
  iexact Hg

/-- After the last point the invariant gives back what the launch handed over: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨⟨%a, Ha, %ha⟩, ⟨%w, Hw, %hw⟩⟩, Hg⟩
  isplitl [Ha Hw]
  · isplitl [Ha]
    · iexists a; iexact Ha
    · iexists w; iexact Hw
  iexact Hg

set_option backward.isDefEq.respectTransparency.types false in
/-- Every weakly fair execution of @main terminates, with every array of the pipeline at what the library computes from
    the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end, nothing faulting, its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KIConds.lean ====
/-
  The schedule of the one pallas_call, decided over its grid of 11 · 4 · 4 points (n outermost, then m, then k):
  point t has n = t / 16, m = (t / 4) mod 4, k = t mod 4. The body's three branches are taken where m = 0 (the weight
  tile is dequantized into the cache), where k = 0 (the accumulator is cleared) and where k = 3 (the accumulator plus
  the bias goes to the output block); the cache rows touched at a point start at 1024 · k.
-/
import proofs.«410261_j36936718745876_3_alg».proof.Proof.Gen.KernelIdeal.Frame
import proofs.«410261_j36936718745876_3_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body dequantizes the weight tile at this point: m = 0. -/
abbrev condM (i : grid0.Coords) : Prop := k0_cond1 i = 1#1
/-- The body clears the accumulator at this point: k = 0. -/
abbrev condK0 (i : grid0.Coords) : Prop :=
  (Scalar.cmpi .ne (Scalar.extui (Scalar.cmpi .eq (BitVec.ofNat 32 (i 2).val) 0#32)) 0#32) = 1#1
/-- The body writes the output block at this point: k = 3. -/
abbrev condK3 (i : grid0.Coords) : Prop := k0_cond3 i = 1#1

theorem hcondM : ∀ t : Fin cfg0.N, condM (grid0.coords t) ↔ (t.val / 4) % 4 = 0 :=
  (by decide +kernel : ∀ t : Fin grid0.N, condM (grid0.coords t) ↔ (t.val / 4) % 4 = 0)
theorem hcondK0 : ∀ t : Fin cfg0.N, condK0 (grid0.coords t) ↔ t.val % 4 = 0 :=
  (by decide +kernel : ∀ t : Fin grid0.N, condK0 (grid0.coords t) ↔ t.val % 4 = 0)
theorem hcondK3 : ∀ t : Fin cfg0.N, condK3 (grid0.coords t) ↔ t.val % 4 = 3 :=
  (by decide +kernel : ∀ t : Fin grid0.N, condK3 (grid0.coords t) ↔ t.val % 4 = 3)

/-- The rows of the weight cache the body stores (under m = 0) start at 1024 · k. -/
theorem off1_eq : ∀ t : Fin cfg0.N, k0_off1 (grid0.coords t) = ![1024 * (t.val % 4), 0] :=
  (by decide +kernel : ∀ t : Fin grid0.N, k0_off1 (grid0.coords t) = ![1024 * (t.val % 4), 0])
/-- The rows it loads for the product start there too. -/
theorem off2_eq : ∀ t : Fin cfg0.N, k0_off2 (grid0.coords t) = ![1024 * (t.val % 4), 0] :=
  (by decide +kernel : ∀ t : Fin grid0.N, k0_off2 (grid0.coords t) = ![1024 * (t.val % 4), 0])

/-- The input windows are never idle. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
/-- Off k = 3 the output window is idle and not written back. -/
theorem idleAt5 : ∀ t : Fin cfg0.N, ¬condK3 (grid0.coords t) → cfg0.idle 5 (grid0.coords t) = true := by decide +kernel
theorem noFlush5 : ∀ t : Fin cfg0.N, ¬condK3 (grid0.coords t) → (cfg0.win 5).flush t = false := by decide +kernel
/-- At k = 3 it is live. -/
theorem liveAt5 : ∀ t : Fin cfg0.N, condK3 (grid0.coords t) → cfg0.idle 5 (grid0.coords t) = false := by decide +kernel

end Cert.KernelIdeal.Hand

end
-- ==== Proof.KIBodyDefs.lean ====
/-
  One run of the kernel body, at any grid point and on any contents of its eight buffers.

  The body reads the activation block x, the packed weight tile q with its zero points z and scales s, the bias row b,
  the accumulator a and the weight cache w. Where m = 0 it stores the dequantized tile into rows 1024·k … 1024·k + 1023 of
  the cache; where k = 0 it clears the accumulator; it then adds to the accumulator the product of x with those rows of the
  cache; where k = 3 it stores the accumulator plus the bias into the output block. The theorem names what each buffer
  holds afterwards: the inputs as they were, the accumulator at `accNew`, the output block at `accNew + bias` where
  k = 3 and untouched elsewhere, and the cache changed on exactly the stored rows.
-/
import proofs.«410261_j36936718745876_3_alg».proof.Proof.KIConds
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Classical in
/-- The rows of the weight cache the product reads at a point. -/
def wRead (i : grid0.Coords) (w : Vec F S4096x1024 .bf16) : Vec F S1024x1024 .bf16 :=
  View.ld w (Rect.unit (s := S4096x1024) (k0_off2 i) S1024x1024.size (k0_off2_inb i))

open Classical in
/-- The weight tile the product uses: the one just dequantized where m = 0, else the cached rows. -/
def wUsed (i : grid0.Coords) (q : Vec F S128x1024 .i32) (z s : Vec F S8x1024 .f32) (w : Vec F S4096x1024 .bf16) :
    Vec F S1024x1024 .bf16 :=
  if condM i then k0_pay1 q z s else wRead i w

open Classical in
/-- The accumulator after the body: cleared first where k = 0, then the product added. -/
def accNew (i : grid0.Coords) (q : Vec F S128x1024 .i32) (z s : Vec F S8x1024 .f32) (x0 : Vec F S1024x1024 .bf16)
    (a : Vec F S1024x1024 .f32) (w : Vec F S4096x1024 .bf16) : Vec F S1024x1024 .f32 :=
  k0_pay3 (wUsed i q z s w) x0 (if condK0 i then k0_pay2 else a)

open Classical in
/-- The output block after the body. -/
def outNew (i : grid0.Coords) (q : Vec F S128x1024 .i32) (z s : Vec F S8x1024 .f32) (x0 : Vec F S1024x1024 .bf16)
    (b : Vec F S1x1024 .f32) (o a : Vec F S1024x1024 .f32) (w : Vec F S4096x1024 .bf16) : Vec F S1024x1024 .f32 :=
  if condK3 i then k0_pay4 (accNew i q z s x0 a w) b else o

/-- How the body changes the weight cache: where m = 0 the stored rows hold the dequantized tile and every other row is
    kept; elsewhere nothing changes. -/
def WStep (i : grid0.Coords) (q : Vec F S128x1024 .i32) (z s : Vec F S8x1024 .f32) (w w' : Vec F S4096x1024 .bf16) : Prop :=
  (∀ h : condM i,
      (∀ x, w' ((Rect.unit (s := S4096x1024) (k0_off1 i) S1024x1024.size (k0_off1_inb i h)).emb x) = k0_pay1 q z s x)
      ∧ ∀ y, y ∉ (Rect.unit (s := S4096x1024) (k0_off1 i) S1024x1024.size (k0_off1_inb i h)).set → w' y = w y)
  ∧ (¬condM i → w' = w)

theorem hz2 : (![0, 0] : Fin 2 → Nat) = fun _ => 0 := by
  funext a; match a with | ⟨0, _⟩ => rfl | ⟨1, _⟩ => rfl

/-- A whole-block store, last, leaves its payload. -/
theorem read_store_whole {sg : RefSig} {κ : Kind} {sp : Space} {S : Shape} {e : EltTy} (v : View sg κ sp S e)
    (f : v.ty.Contents (Elt F)) {off : Fin S.rank → Nat} (hz : off = fun _ => 0) (inb : ∀ a, off a + S.size a ≤ S.size a)
    (p : S.Idx → Elt F e) (L : List (View.Piece (Elt F) S e)) :
    v.read (Elt F) (v.writes (Elt F) f ((⟨Rect.unit off S.size inb, p⟩ : View.Piece (Elt F) S e) :: L)) = p := by
  rw [View.read_writes_eq_canon _ _ _ (fun y => ⟨_, List.mem_cons_self, View.mem_set_unit_zero hz inb y⟩),
    View.canon_cons_unit_zero hz]

/-- The rows stored (under m = 0) and the rows loaded for the product are the same rows. -/
theorem off1_eq_off2 (i : grid0.Coords) : k0_off1 i = k0_off2 i := rfl

/-- A load through a rectangle of what ONE store through a rectangle at the same offsets and sizes left reads the stored
    payload. -/
theorem readCov_same_box {sg : RefSig} {κ : Kind} {sp : Space} {S : Shape} {e : EltTy} (v : View sg κ sp S e)
    {off off' sz : Fin S.rank → Nat} (h : off = off') (inb : ∀ a, off a + sz a ≤ S.size a) (inb' : ∀ a, off' a + sz a ≤ S.size a)
    (p : (Rect.unit off sz inb).shape.Idx → Elt F e) :
    v.readCov [(⟨Rect.unit off sz inb, p⟩ : View.Piece (Elt F) S e)] (Rect.unit off' sz inb').toLoadRect = p := by
  subst h; exact View.readCov_cons_toLoadRect v _ p []

/-- A load of the rows just stored reads the stored tile. -/
theorem readCov_stored {sg : RefSig} {κ : Kind} {sp : Space} (v : View sg κ sp S4096x1024 .bf16) (i : grid0.Coords)
    (h1 : condM i) (p : S1024x1024.Idx → Elt F .bf16) :
    v.readCov [(⟨Rect.unit (s := S4096x1024) (k0_off1 i) S1024x1024.size (k0_off1_inb i h1), p⟩ : View.Piece (Elt F) S4096x1024 .bf16)]
      (Rect.unit (s := S4096x1024) (k0_off2 i) S1024x1024.size (k0_off2_inb i)).toLoadRect = p :=
  readCov_same_box v (off1_eq_off2 i) _ _ p

end Cert.KernelIdeal.Hand

end
-- ==== Proof.KIData.lean ====
/-
  What the two scratch buffers and the output block hold from point to point, and the proof data of the pipeline.

  The weight tile of a point (n, m, k) is the dequantized tile of (n, k), computed at the point (n, 0, k) from the
  packed weights, zero points and scales fetched there. The accumulator after a point is the product of the point's
  activation block with its weight tile, added to the accumulator the point before left, or to zero where k = 0.
  The weight cache is described by what its rows hold, not named: before a point (n, m, k) the rows of tile (n, k')
  hold that tile for every k' if m > 0, and for every k' < k if m = 0.
-/
import proofs.«410261_j36936718745876_3_alg».proof.Proof.KIBodyDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N176 : cfg0.N = 176 := N_0

/-- The point with the same n and k and m = 0: where the weight tile of (n, k) is dequantized. -/
def fillPt (t : Fin cfg0.N) : Fin cfg0.N :=
  ⟨16 * (t.val / 16) + t.val % 4, by
    have h : t.val < 176 := lt_of_lt_of_eq t.isLt N176
    exact lt_of_lt_of_eq (by omega : 16 * (t.val / 16) + t.val % 4 < 176) N176.symm⟩

theorem fillPt_val (t : Fin cfg0.N) : (fillPt t).val = 16 * (t.val / 16) + t.val % 4 := rfl

/-- The dequantized weight tile of a point's (n, k). -/
def wTile (c : Dev nD) (t : Fin cfg0.N) : Vec F S1024x1024 .bf16 :=
  k0_pay1 (iblk m c 1 (fillPt t)) (iblk m c 2 (fillPt t)) (iblk m c 3 (fillPt t))

/-- The accumulator after each point. -/
def accAt (c : Dev nD) : (n : ℕ) → n < cfg0.N → Vec F S1024x1024 .f32
  | 0, hn => k0_pay3 (wTile m c ⟨0, hn⟩) (iblk m c 0 ⟨0, hn⟩) k0_pay2
  | n + 1, hn => k0_pay3 (wTile m c ⟨n + 1, hn⟩) (iblk m c 0 ⟨n + 1, hn⟩)
      (if (n + 1) % 4 = 0 then k0_pay2 else accAt c n (Nat.lt_of_succ_lt hn))

/-- The accumulator after point `t`: the product added to zero where k = 0, else to what the point before left. -/
theorem accAt_eq (c : Dev nD) (t : Fin cfg0.N) :
    accAt m c t.val t.isLt = k0_pay3 (wTile m c t) (iblk m c 0 t)
      (if t.val % 4 = 0 then k0_pay2 else accAt m c (t.val - 1) (Nat.lt_of_le_of_lt (Nat.sub_le _ _) t.isLt)) := by
  obtain ⟨n, hn⟩ := t
  cases n with
  | zero => exact (by rw [if_pos (Nat.zero_mod _)]; rfl)
  | succ n => rfl

/-- What the output block's staging buffer holds after a point with k = 3: the accumulator plus the bias row. -/
def outAt (c : Dev nD) (t : Fin cfg0.N) : Vec F S1024x1024 .f32 :=
  k0_pay4 (accAt m c t.val t.isLt) (iblk m c 4 t)

/-- The weight cache before point `t`: the rows of every tile of the point's n already dequantized hold that tile. -/
def WInv (c : Dev nD) (t : Fin cfg0.N) (w : Vec F S4096x1024 .bf16) : Prop :=
  ∀ t' : Fin cfg0.N, t'.val / 16 = t.val / 16 → (t'.val / 4) % 4 = 0 →
    ((t.val / 4) % 4 ≠ 0 ∨ t'.val % 4 < t.val % 4) → wRead (grid0.coords t') w = wTile m c t'

/-- The scratch operands as whole memrefs. -/
abbrev scM0 : Memref sig .tc .vmem S1024x1024 .f32 := Memref.whole cc0_scratch0
abbrev scM1 : Memref sig .tc .vmem S4096x1024 .bf16 := Memref.whole cc0_scratch1

/-- What the launch hands the region, with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The region's invariant before point `n`: the accumulator at what the point before left (at anything before the
    first point), the weight cache at contents satisfying `WInv` (at anything after the last point), the generator
    register at some state. -/
def PhiS (c : Dev nD) (n : ℕ) (hn : n ≤ cfg0.N) : sProp 𝕄 :=
  iprop(iprop((∃ a, owns (c : Thread nD τ) scM0 fullShare a ∗ ⌜∀ h0 : n ≠ 0, a = accAt m c (n - 1) (by omega)⌝)
      ∗ (∃ w, owns (c : Thread nD τ) scM1 fullShare w ∗ ⌜∀ hlt : n < cfg0.N, WInv m c ⟨n, hlt⟩ w⌝)) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

theorem PhiS_castSucc (c : Dev nD) (t : Fin cfg0.N) :
    (dats m 0 c).Φ t.castSucc = PhiS m c t.val (Nat.le_of_lt t.isLt) := by
  dsimp only [dats]; simp only [Fin.coe_castSucc]

theorem PhiS_succ (c : Dev nD) (t : Fin cfg0.N) :
    (dats m 0 c).Φ t.succ = PhiS m c (t.val + 1) t.isLt := rfl

end Cert.KernelIdeal.Hand

end
-- ==== Proof.KIStep.lean ====
/-
  One point's step of the scratch buffers: the accumulator the body leaves is the accumulator of the point, and the weight
  cache the body leaves satisfies the next point's description.
-/
import proofs.«410261_j36936718745876_3_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Rectangles of one size at equal offsets read the same. -/
theorem ld_unit_congr {S : Shape} {e : EltTy} {off off' sz : Fin S.rank → Nat} (h : off = off')
    (inb : ∀ a, off a + sz a ≤ S.size a) (inb' : ∀ a, off' a + sz a ≤ S.size a) (X : S.Idx → Elt F e) :
    View.ld X (Rect.unit off sz inb) = View.ld X (Rect.unit off' sz inb') := by
  subst h; rfl

/-- A load through a rectangle, at a local index, is the contents at the index's place in a rectangle of the same size at
    equal offsets. -/
theorem ld_unit_apply_emb {S : Shape} {e : EltTy} {off off' sz : Fin S.rank → Nat} (h : off = off')
    (inb : ∀ a, off a + sz a ≤ S.size a) (inb' : ∀ a, off' a + sz a ≤ S.size a) (X : S.Idx → Elt F e)
    (x : (Rect.unit off' sz inb').shape.Idx) :
    View.ld X (Rect.unit off' sz inb') x = X ((Rect.unit off sz inb).emb x) := by
  subst h; rfl

theorem wRead_congr {i i' : grid0.Coords} (h : k0_off2 i = k0_off2 i') (w : Vec F S4096x1024 .bf16) :
    wRead i w = wRead i' w := by
  unfold wRead; exact ld_unit_congr h _ _ w

theorem fillPt_of_condM (t : Fin cfg0.N) (h : condM (grid0.coords t)) : fillPt t = t := by
  have h4 := (hcondM t).mp h
  exact Fin.ext (by rw [fillPt_val]; omega)

theorem fillPt_idem (t : Fin cfg0.N) : fillPt (fillPt t) = fillPt t := by
  have ht : t.val < 176 := lt_of_lt_of_eq t.isLt N176
  exact Fin.ext (by simp only [fillPt_val]; omega)

/-- The tile the product uses at a point is the point's weight tile: just dequantized where m = 0, else read from the
    cache, which holds it. -/
theorem wUsed_eq (c : Dev nD) (t : Fin cfg0.N) (w : Vec F S4096x1024 .bf16) (hw : WInv m c t w) :
    wUsed (grid0.coords t) (iblk m c 1 t) (iblk m c 2 t) (iblk m c 3 t) w = wTile m c t := by
  have ht : t.val < 176 := lt_of_lt_of_eq t.isLt N176
  unfold wUsed
  by_cases hM : condM (grid0.coords t)
  · rw [if_pos hM]; unfold wTile; rw [fillPt_of_condM t hM]
  · rw [if_neg hM]
    have hm4 : ¬ (t.val / 4) % 4 = 0 := fun h => hM ((hcondM t).mpr h)
    have h1 := hw (fillPt t) (by rw [fillPt_val]; omega) (by rw [fillPt_val]; omega) (Or.inl hm4)
    rw [wRead_congr (i := grid0.coords t) (i' := grid0.coords (fillPt t))
      ((off2_eq t).trans (by rw [off2_eq (fillPt t), fillPt_val]; congr 2; omega)), h1]
    unfold wTile; rw [fillPt_idem]

/-- The accumulator the body leaves at point `t` is the point's accumulator. -/
theorem accNew_eq (c : Dev nD) (t : Fin cfg0.N) (a : Vec F S1024x1024 .f32) (w : Vec F S4096x1024 .bf16)
    (ha : ∀ h0 : t.val ≠ 0, a = accAt m c (t.val - 1) (Nat.lt_of_le_of_lt (Nat.sub_le _ _) t.isLt)) (hw : WInv m c t w) :
    accNew (grid0.coords t) (iblk m c 1 t) (iblk m c 2 t) (iblk m c 3 t) (iblk m c 0 t) a w = accAt m c t.val t.isLt := by
  unfold accNew
  rw [accAt_eq m c t, wUsed_eq m c t w hw]
  by_cases hk : t.val % 4 = 0
  · rw [if_pos ((hcondK0 t).mpr hk), if_pos hk]
  · rw [if_neg (fun h => hk ((hcondK0 t).mp h)), if_neg hk, ha (by omega)]

/-- Where k = 3 the output block the body leaves is the accumulator plus the bias row. -/
theorem outNew_live (c : Dev nD) (t : Fin cfg0.N) (o a : Vec F S1024x1024 .f32) (w : Vec F S4096x1024 .bf16)
    (h3 : condK3 (grid0.coords t))
    (ha : ∀ h0 : t.val ≠ 0, a = accAt m c (t.val - 1) (Nat.lt_of_le_of_lt (Nat.sub_le _ _) t.isLt)) (hw : WInv m c t w) :
    outNew (grid0.coords t) (iblk m c 1 t) (iblk m c 2 t) (iblk m c 3 t) (iblk m c 0 t) (iblk m c 4 t) o a w = outAt m c t := by
  unfold outNew; rw [if_pos h3, accNew_eq m c t a w ha hw]; rfl

/-- Elsewhere it is untouched. -/
theorem outNew_idle (i : grid0.Coords) (q : Vec F S128x1024 .i32) (z s : Vec F S8x1024 .f32) (x0 : Vec F S1024x1024 .bf16)
    (b : Vec F S1x1024 .f32) (o a : Vec F S1024x1024 .f32) (w : Vec F S4096x1024 .bf16) (h3 : ¬condK3 i) :
    outNew i q z s x0 b o a w = o := by
  unfold outNew; rw [if_neg h3]

/-- The weight cache the body leaves at point `t` satisfies the next point's description. -/
theorem WInv_step (c : Dev nD) (t : Fin cfg0.N) (w w' : Vec F S4096x1024 .bf16) (hw : WInv m c t w)
    (hs : WStep (grid0.coords t) (iblk m c 1 t) (iblk m c 2 t) (iblk m c 3 t) w w') (hlt : t.val + 1 < cfg0.N) :
    WInv m c ⟨t.val + 1, hlt⟩ w' := by
  have ht : t.val + 1 < 176 := lt_of_lt_of_eq hlt N176
  intro t' hn hm0 hv
  have ht' : t'.val < 176 := lt_of_lt_of_eq t'.isLt N176
  simp only at hn hv
  by_cases hM : condM (grid0.coords t)
  · have h4 := (hcondM t).mp hM
    obtain ⟨hnew, hkeep⟩ := hs.1 hM
    by_cases hk : t'.val % 4 = t.val % 4
    · -- the tile just stored
      have e : t' = t := Fin.ext (by omega)
      subst e
      funext x
      unfold wRead
      refine (ld_unit_apply_emb (S := S4096x1024) (sz := S1024x1024.size) (off1_eq_off2 (grid0.coords t')) (k0_off1_inb (grid0.coords t') hM)
        (k0_off2_inb (grid0.coords t')) w' x).trans ?_
      rw [hnew x]
      unfold wTile; rw [fillPt_of_condM t' hM]
    · -- a tile stored earlier: its rows are not the rows just stored
      have hold := hw t' (by omega) hm0 (Or.inr (by omega))
      rw [← hold]
      funext x
      unfold wRead
      show w' _ = w _
      refine hkeep _ (fun hmem => ?_)
      rw [Rect.mem_set_unit] at hmem
      have h0 := hmem 0
      rw [off1_eq t] at h0
      have hx : ((Rect.unit (s := S4096x1024) (k0_off2 (grid0.coords t')) S1024x1024.size (k0_off2_inb (grid0.coords t'))).idx x 0 : Nat)
          = 1024 * (t'.val % 4) + (x 0).val := by
        show k0_off2 (grid0.coords t') 0 + 1 * (x 0).val = _
        rw [off2_eq t']; simp only [Matrix.cons_val_zero, Nat.one_mul]
      have hx0 : (x 0).val < 1024 := (x 0).isLt
      simp only [Matrix.cons_val_zero] at h0
      rw [hx] at h0
      omega
  · have hm4 : ¬ (t.val / 4) % 4 = 0 := fun h => hM ((hcondM t).mpr h)
    rw [hs.2 hM]
    by_cases hnn : (t.val + 1) / 16 = t.val / 16
    · exact hw t' (by omega) hm0 (Or.inl hm4)
    · exfalso; omega

end Cert.KernelIdeal.Hand

end
-- ==== Proof.KIBodyM.lean ====
/-
  The run of the kernel body by symbolic execution at the points where m = 0: the weight tile is dequantized and stored into the cache before the product reads it back, in each of the three cases of k (k = 0, 0 < k < 3, k = 3), with what every
  buffer holds afterwards read back from the stores.
-/
import proofs.«410261_j36936718745876_3_alg».proof.Proof.KIBodyDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where the weight tile is dequantized into the cache (m = 0), the accumulator is cleared first (k = 0), the output block is left alone (k < 3). -/
theorem run_mzi (c : Dev nD) (i : grid0.Coords) (hc1 : condM i) (hc2 : condK0 i) (hc3 : ¬condK3 i)
    (arg3 : Memref sig .tc .vmem S1024x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S4096x1024 .bf16) (harg10 : arg10.IsWhole)
    (x0 : Vec F S1024x1024 .bf16) (q : Vec F S128x1024 .i32) (z s : Vec F S8x1024 .f32) (b : Vec F S1x1024 .f32)
    (o a : Vec F S1024x1024 .f32) (w : Vec F S4096x1024 .bf16) (E : Set ℕ) (K : PUnit → sProp 𝕄) :
    iprop(owns (c : Thread nD τ) arg3 fullShare x0 ∗ owns (c : Thread nD τ) arg4 fullShare q ∗ owns (c : Thread nD τ) arg5 fullShare z
        ∗ owns (c : Thread nD τ) arg6 fullShare s ∗ owns (c : Thread nD τ) arg7 fullShare b ∗ owns (c : Thread nD τ) arg8 fullShare o
        ∗ owns (c : Thread nD τ) arg9 fullShare a ∗ owns (c : Thread nD τ) arg10 fullShare w
        ∗ (iprop(owns (c : Thread nD τ) arg3 fullShare x0 ∗ owns (c : Thread nD τ) arg4 fullShare q ∗ owns (c : Thread nD τ) arg5 fullShare z
            ∗ owns (c : Thread nD τ) arg6 fullShare s ∗ owns (c : Thread nD τ) arg7 fullShare b
            ∗ owns (c : Thread nD τ) arg8 fullShare o
            ∗ owns (c : Thread nD τ) arg9 fullShare (k0_pay3 (k0_pay1 q z s) x0 k0_pay2)
            ∗ (∃ w', owns (c : Thread nD τ) arg10 fullShare w' ∗ ⌜WStep i q z s w w'⌝)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact hc1 | exact hc2 | exact hc3)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    exact harg8.read_unread _
  isplitl [H9]
  · iexists _; isplitr
    swap; · iexact H9
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
    rw [readCov_same_box _ (off1_eq_off2 i)]
  iexists _
  isplitl [H10]
  · iexists _; isplitr
    swap; · iexact H10
    ipureintro; rfl
  ipureintro
  refine ⟨fun h => ⟨fun x => ?_, fun y hy => ?_⟩, fun h => absurd hc1 h⟩
  · rw [View.read_writes_cons_emb]
    simp only [View.readAt_eq_ld, Memref.IsWhole.read_unread, View.ld_unit_zero (S := S128x1024) hz2, View.ld_unit_zero (S := S8x1024) hz2]
  · rw [View.read_writes_apply_of_forall_not_mem _ _ y _ (by
      intro p hp; rw [List.mem_singleton] at hp; subst hp; exact hy), harg10.read_unread]

set_option maxHeartbeats 4000000 in
/-- The body where the weight tile is dequantized into the cache (m = 0), the accumulator is carried (k > 0), the output block is left alone (k < 3). -/
theorem run_mai (c : Dev nD) (i : grid0.Coords) (hc1 : condM i) (hc2 : ¬condK0 i) (hc3 : ¬condK3 i)
    (arg3 : Memref sig .tc .vmem S1024x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S4096x1024 .bf16) (harg10 : arg10.IsWhole)
    (x0 : Vec F S1024x1024 .bf16) (q : Vec F S128x1024 .i32) (z s : Vec F S8x1024 .f32) (b : Vec F S1x1024 .f32)
    (o a : Vec F S1024x1024 .f32) (w : Vec F S4096x1024 .bf16) (E : Set ℕ) (K : PUnit → sProp 𝕄) :
    iprop(owns (c : Thread nD τ) arg3 fullShare x0 ∗ owns (c : Thread nD τ) arg4 fullShare q ∗ owns (c : Thread nD τ) arg5 fullShare z
        ∗ owns (c : Thread nD τ) arg6 fullShare s ∗ owns (c : Thread nD τ) arg7 fullShare b ∗ owns (c : Thread nD τ) arg8 fullShare o
        ∗ owns (c : Thread nD τ) arg9 fullShare a ∗ owns (c : Thread nD τ) arg10 fullShare w
        ∗ (iprop(owns (c : Thread nD τ) arg3 fullShare x0 ∗ owns (c : Thread nD τ) arg4 fullShare q ∗ owns (c : Thread nD τ) arg5 fullShare z
            ∗ owns (c : Thread nD τ) arg6 fullShare s ∗ owns (c : Thread nD τ) arg7 fullShare b
            ∗ owns (c : Thread nD τ) arg8 fullShare o
            ∗ owns (c : Thread nD τ) arg9 fullShare (k0_pay3 (k0_pay1 q z s) x0 a)
            ∗ (∃ w', owns (c : Thread nD τ) arg10 fullShare w' ∗ ⌜WStep i q z s w w'⌝)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact hc1 | exact hc2 | exact hc3)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    exact harg8.read_unread _
  isplitl [H9]
  · iexists _; isplitr
    swap; · iexact H9
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
    rw [readCov_same_box _ (off1_eq_off2 i)]
  iexists _
  isplitl [H10]
  · iexists _; isplitr
    swap; · iexact H10
    ipureintro; rfl
  ipureintro
  refine ⟨fun h => ⟨fun x => ?_, fun y hy => ?_⟩, fun h => absurd hc1 h⟩
  · rw [View.read_writes_cons_emb]
    simp only [View.readAt_eq_ld, Memref.IsWhole.read_unread, View.ld_unit_zero (S := S128x1024) hz2, View.ld_unit_zero (S := S8x1024) hz2]
  · rw [View.read_writes_apply_of_forall_not_mem _ _ y _ (by
      intro p hp; rw [List.mem_singleton] at hp; subst hp; exact hy), harg10.read_unread]

set_option maxHeartbeats 4000000 in
/-- The body where the weight tile is dequantized into the cache (m = 0), the accumulator is carried (k > 0), the output block is written (k = 3). -/
theorem run_mao (c : Dev nD) (i : grid0.Coords) (hc1 : condM i) (hc2 : ¬condK0 i) (hc3 : condK3 i)
    (arg3 : Memref sig .tc .vmem S1024x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S4096x1024 .bf16) (harg10 : arg10.IsWhole)
    (x0 : Vec F S1024x1024 .bf16) (q : Vec F S128x1024 .i32) (z s : Vec F S8x1024 .f32) (b : Vec F S1x1024 .f32)
    (o a : Vec F S1024x1024 .f32) (w : Vec F S4096x1024 .bf16) (E : Set ℕ) (K : PUnit → sProp 𝕄) :
    iprop(owns (c : Thread nD τ) arg3 fullShare x0 ∗ owns (c : Thread nD τ) arg4 fullShare q ∗ owns (c : Thread nD τ) arg5 fullShare z
        ∗ owns (c : Thread nD τ) arg6 fullShare s ∗ owns (c : Thread nD τ) arg7 fullShare b ∗ owns (c : Thread nD τ) arg8 fullShare o
        ∗ owns (c : Thread nD τ) arg9 fullShare a ∗ owns (c : Thread nD τ) arg10 fullShare w
        ∗ (iprop(owns (c : Thread nD τ) arg3 fullShare x0 ∗ owns (c : Thread nD τ) arg4 fullShare q ∗ owns (c : Thread nD τ) arg5 fullShare z
            ∗ owns (c : Thread nD τ) arg6 fullShare s ∗ owns (c : Thread nD τ) arg7 fullShare b
            ∗ owns (c : Thread nD τ) arg8 fullShare (k0_pay4 (k0_pay3 (k0_pay1 q z s) x0 a) b)
            ∗ owns (c : Thread nD τ) arg9 fullShare (k0_pay3 (k0_pay1 q z s) x0 a)
            ∗ (∃ w', owns (c : Thread nD τ) arg10 fullShare w' ∗ ⌜WStep i q z s w w'⌝)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact hc1 | exact hc2 | exact hc3)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
    rw [readCov_same_box _ (off1_eq_off2 i)]
  isplitl [H9]
  · iexists _; isplitr
    swap; · iexact H9
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
    rw [readCov_same_box _ (off1_eq_off2 i)]
  iexists _
  isplitl [H10]
  · iexists _; isplitr
    swap; · iexact H10
    ipureintro; rfl
  ipureintro
  refine ⟨fun h => ⟨fun x => ?_, fun y hy => ?_⟩, fun h => absurd hc1 h⟩
  · rw [View.read_writes_cons_emb]
    simp only [View.readAt_eq_ld, Memref.IsWhole.read_unread, View.ld_unit_zero (S := S128x1024) hz2, View.ld_unit_zero (S := S8x1024) hz2]
  · rw [View.read_writes_apply_of_forall_not_mem _ _ y _ (by
      intro p hp; rw [List.mem_singleton] at hp; subst hp; exact hy), harg10.read_unread]

end Cert.KernelIdeal.Hand

end
-- ==== Proof.KIBodyN.lean ====
/-
  The run of the kernel body by symbolic execution at the points where m > 0: the product reads the weight tile from the cache, in each of the three cases of k (k = 0, 0 < k < 3, k = 3), with what every
  buffer holds afterwards read back from the stores.
-/
import proofs.«410261_j36936718745876_3_alg».proof.Proof.KIBodyDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body where the cache is only read (m > 0), the accumulator is cleared first (k = 0), the output block is left alone (k < 3). -/
theorem run_nzi (c : Dev nD) (i : grid0.Coords) (hc1 : ¬condM i) (hc2 : condK0 i) (hc3 : ¬condK3 i)
    (arg3 : Memref sig .tc .vmem S1024x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S4096x1024 .bf16) (harg10 : arg10.IsWhole)
    (x0 : Vec F S1024x1024 .bf16) (q : Vec F S128x1024 .i32) (z s : Vec F S8x1024 .f32) (b : Vec F S1x1024 .f32)
    (o a : Vec F S1024x1024 .f32) (w : Vec F S4096x1024 .bf16) (E : Set ℕ) (K : PUnit → sProp 𝕄) :
    iprop(owns (c : Thread nD τ) arg3 fullShare x0 ∗ owns (c : Thread nD τ) arg4 fullShare q ∗ owns (c : Thread nD τ) arg5 fullShare z
        ∗ owns (c : Thread nD τ) arg6 fullShare s ∗ owns (c : Thread nD τ) arg7 fullShare b ∗ owns (c : Thread nD τ) arg8 fullShare o
        ∗ owns (c : Thread nD τ) arg9 fullShare a ∗ owns (c : Thread nD τ) arg10 fullShare w
        ∗ (iprop(owns (c : Thread nD τ) arg3 fullShare x0 ∗ owns (c : Thread nD τ) arg4 fullShare q ∗ owns (c : Thread nD τ) arg5 fullShare z
            ∗ owns (c : Thread nD τ) arg6 fullShare s ∗ owns (c : Thread nD τ) arg7 fullShare b
            ∗ owns (c : Thread nD τ) arg8 fullShare o
            ∗ owns (c : Thread nD τ) arg9 fullShare (k0_pay3 (wRead i w) x0 k0_pay2)
            ∗ (∃ w', owns (c : Thread nD τ) arg10 fullShare w' ∗ ⌜WStep i q z s w w'⌝)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  unfold wRead
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact hc1 | exact hc2 | exact hc3)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    exact harg8.read_unread _
  isplitl [H9]
  · iexists _; isplitr
    swap; · iexact H9
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
  iexists _
  isplitl [H10]
  · iexists _; isplitr
    swap; · iexact H10
    ipureintro; rfl
  ipureintro
  exact ⟨fun h => absurd h hc1, fun _ => harg10.read_unread _⟩

set_option maxHeartbeats 4000000 in
/-- The body where the cache is only read (m > 0), the accumulator is carried (k > 0), the output block is left alone (k < 3). -/
theorem run_nai (c : Dev nD) (i : grid0.Coords) (hc1 : ¬condM i) (hc2 : ¬condK0 i) (hc3 : ¬condK3 i)
    (arg3 : Memref sig .tc .vmem S1024x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S4096x1024 .bf16) (harg10 : arg10.IsWhole)
    (x0 : Vec F S1024x1024 .bf16) (q : Vec F S128x1024 .i32) (z s : Vec F S8x1024 .f32) (b : Vec F S1x1024 .f32)
    (o a : Vec F S1024x1024 .f32) (w : Vec F S4096x1024 .bf16) (E : Set ℕ) (K : PUnit → sProp 𝕄) :
    iprop(owns (c : Thread nD τ) arg3 fullShare x0 ∗ owns (c : Thread nD τ) arg4 fullShare q ∗ owns (c : Thread nD τ) arg5 fullShare z
        ∗ owns (c : Thread nD τ) arg6 fullShare s ∗ owns (c : Thread nD τ) arg7 fullShare b ∗ owns (c : Thread nD τ) arg8 fullShare o
        ∗ owns (c : Thread nD τ) arg9 fullShare a ∗ owns (c : Thread nD τ) arg10 fullShare w
        ∗ (iprop(owns (c : Thread nD τ) arg3 fullShare x0 ∗ owns (c : Thread nD τ) arg4 fullShare q ∗ owns (c : Thread nD τ) arg5 fullShare z
            ∗ owns (c : Thread nD τ) arg6 fullShare s ∗ owns (c : Thread nD τ) arg7 fullShare b
            ∗ owns (c : Thread nD τ) arg8 fullShare o
            ∗ owns (c : Thread nD τ) arg9 fullShare (k0_pay3 (wRead i w) x0 a)
            ∗ (∃ w', owns (c : Thread nD τ) arg10 fullShare w' ∗ ⌜WStep i q z s w w'⌝)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  unfold wRead
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact hc1 | exact hc2 | exact hc3)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    exact harg8.read_unread _
  isplitl [H9]
  · iexists _; isplitr
    swap; · iexact H9
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
  iexists _
  isplitl [H10]
  · iexists _; isplitr
    swap; · iexact H10
    ipureintro; rfl
  ipureintro
  exact ⟨fun h => absurd h hc1, fun _ => harg10.read_unread _⟩

set_option maxHeartbeats 4000000 in
/-- The body where the cache is only read (m > 0), the accumulator is carried (k > 0), the output block is written (k = 3). -/
theorem run_nao (c : Dev nD) (i : grid0.Coords) (hc1 : ¬condM i) (hc2 : ¬condK0 i) (hc3 : condK3 i)
    (arg3 : Memref sig .tc .vmem S1024x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S4096x1024 .bf16) (harg10 : arg10.IsWhole)
    (x0 : Vec F S1024x1024 .bf16) (q : Vec F S128x1024 .i32) (z s : Vec F S8x1024 .f32) (b : Vec F S1x1024 .f32)
    (o a : Vec F S1024x1024 .f32) (w : Vec F S4096x1024 .bf16) (E : Set ℕ) (K : PUnit → sProp 𝕄) :
    iprop(owns (c : Thread nD τ) arg3 fullShare x0 ∗ owns (c : Thread nD τ) arg4 fullShare q ∗ owns (c : Thread nD τ) arg5 fullShare z
        ∗ owns (c : Thread nD τ) arg6 fullShare s ∗ owns (c : Thread nD τ) arg7 fullShare b ∗ owns (c : Thread nD τ) arg8 fullShare o
        ∗ owns (c : Thread nD τ) arg9 fullShare a ∗ owns (c : Thread nD τ) arg10 fullShare w
        ∗ (iprop(owns (c : Thread nD τ) arg3 fullShare x0 ∗ owns (c : Thread nD τ) arg4 fullShare q ∗ owns (c : Thread nD τ) arg5 fullShare z
            ∗ owns (c : Thread nD τ) arg6 fullShare s ∗ owns (c : Thread nD τ) arg7 fullShare b
            ∗ owns (c : Thread nD τ) arg8 fullShare (k0_pay4 (k0_pay3 (wRead i w) x0 a) b)
            ∗ owns (c : Thread nD τ) arg9 fullShare (k0_pay3 (wRead i w) x0 a)
            ∗ (∃ w', owns (c : Thread nD τ) arg10 fullShare w' ∗ ⌜WStep i q z s w w'⌝)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  unfold wRead
  simp only [cc0__kernel_eq_skeleton]; unfold cc0__kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact hc1 | exact hc2 | exact hc3)
  sl_step
  sl_unfold_run_names
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
  isplitl [H9]
  · iexists _; isplitr
    swap; · iexact H9
    ipureintro
    rw [read_store_whole _ _ hz2]
    simp only [View.readAt_eq_ld, Memref.IsWhole.read_unread, View.ld_unit_zero (S := S1x1024) hz2,
        View.ld_unit_zero (S := S1024x1024) hz2, View.ld_unit_zero (S := S128x1024) hz2, View.ld_unit_zero (S := S8x1024) hz2,
        View.readCov_cons_toLoadRect, readCov_stored]
  iexists _
  isplitl [H10]
  · iexists _; isplitr
    swap; · iexact H10
    ipureintro; rfl
  ipureintro
  exact ⟨fun h => absurd h hc1, fun _ => harg10.read_unread _⟩

end Cert.KernelIdeal.Hand

end
-- ==== Proof.KIBody.lean ====
/-
  One run of the kernel body at any grid point: the six cases of its three branch conditions (k = 0 and k = 3 exclude each
  other) put together, with what every buffer holds afterwards named by `outNew`, `accNew` and `WStep`.
-/
import proofs.«410261_j36936718745876_3_alg».proof.Proof.KIBodyM
import proofs.«410261_j36936718745876_3_alg».proof.Proof.KIBodyN

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body at grid coordinates `i`, on whole buffers holding `x0 q z s b o a w`, runs to its end and leaves the inputs
    as they were, the output block at `outNew`, the accumulator at `accNew` and the weight cache one `WStep` on. -/
theorem kernel_run (c : Dev nD) (i : grid0.Coords) (hx : ¬(condK0 i ∧ condK3 i))
    (arg3 : Memref sig .tc .vmem S1024x1024 .bf16) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S4096x1024 .bf16) (harg10 : arg10.IsWhole)
    (x0 : Vec F S1024x1024 .bf16) (q : Vec F S128x1024 .i32) (z s : Vec F S8x1024 .f32) (b : Vec F S1x1024 .f32)
    (o a : Vec F S1024x1024 .f32) (w : Vec F S4096x1024 .bf16) (E : Set ℕ) (K : PUnit → sProp 𝕄) :
    iprop(owns (c : Thread nD τ) arg3 fullShare x0 ∗ owns (c : Thread nD τ) arg4 fullShare q ∗ owns (c : Thread nD τ) arg5 fullShare z
        ∗ owns (c : Thread nD τ) arg6 fullShare s ∗ owns (c : Thread nD τ) arg7 fullShare b ∗ owns (c : Thread nD τ) arg8 fullShare o
        ∗ owns (c : Thread nD τ) arg9 fullShare a ∗ owns (c : Thread nD τ) arg10 fullShare w
        ∗ (iprop(owns (c : Thread nD τ) arg3 fullShare x0 ∗ owns (c : Thread nD τ) arg4 fullShare q ∗ owns (c : Thread nD τ) arg5 fullShare z
            ∗ owns (c : Thread nD τ) arg6 fullShare s ∗ owns (c : Thread nD τ) arg7 fullShare b
            ∗ owns (c : Thread nD τ) arg8 fullShare (outNew i q z s x0 b o a w)
            ∗ owns (c : Thread nD τ) arg9 fullShare (accNew i q z s x0 a w)
            ∗ (∃ w', owns (c : Thread nD τ) arg10 fullShare w' ∗ ⌜WStep i q z s w w'⌝)) -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  unfold outNew accNew wUsed
  by_cases hc1 : condM i
  · by_cases hc2 : condK0 i
    · by_cases hc3 : condK3 i
      · exact absurd ⟨hc2, hc3⟩ hx
      · simp only [if_pos hc1, if_pos hc2, if_neg hc3]
        exact run_mzi c i hc1 hc2 hc3 arg3 harg3 arg4 harg4 arg5 harg5 arg6 harg6 arg7 harg7 arg8 harg8 arg9 harg9 arg10 harg10 x0 q z s b o a w E K
    · by_cases hc3 : condK3 i
      · simp only [if_pos hc1, if_neg hc2, if_pos hc3]
        exact run_mao c i hc1 hc2 hc3 arg3 harg3 arg4 harg4 arg5 harg5 arg6 harg6 arg7 harg7 arg8 harg8 arg9 harg9 arg10 harg10 x0 q z s b o a w E K
      · simp only [if_pos hc1, if_neg hc2, if_neg hc3]
        exact run_mai c i hc1 hc2 hc3 arg3 harg3 arg4 harg4 arg5 harg5 arg6 harg6 arg7 harg7 arg8 harg8 arg9 harg9 arg10 harg10 x0 q z s b o a w E K
  · by_cases hc2 : condK0 i
    · by_cases hc3 : condK3 i
      · exact absurd ⟨hc2, hc3⟩ hx
      · simp only [if_neg hc1, if_pos hc2, if_neg hc3]
        exact run_nzi c i hc1 hc2 hc3 arg3 harg3 arg4 harg4 arg5 harg5 arg6 harg6 arg7 harg7 arg8 harg8 arg9 harg9 arg10 harg10 x0 q z s b o a w E K
    · by_cases hc3 : condK3 i
      · simp only [if_neg hc1, if_neg hc2, if_pos hc3]
        exact run_nao c i hc1 hc2 hc3 arg3 harg3 arg4 harg4 arg5 harg5 arg6 harg6 arg7 harg7 arg8 harg8 arg9 harg9 arg10 harg10 x0 q z s b o a w E K
      · simp only [if_neg hc1, if_neg hc2, if_neg hc3]
        exact run_nai c i hc1 hc2 hc3 arg3 harg3 arg4 harg4 arg5 harg5 arg6 harg6 arg7 harg7 arg8 harg8 arg9 harg9 arg10 harg10 x0 q z s b o a w E K

end Cert.KernelIdeal.Hand

end
-- ==== Proof.KIOblig.lean ====
/-
  The body obligation of the pipeline at every grid point, the launch, and the frame.

  At a point the invariant hands the body the accumulator (at what the point before left, or at anything before the first
  point) and the weight cache (at contents in which every tile already dequantized for the point's n sits in its rows); the
  input windows' staging buffers hold their blocks; the body runs (`kernel_run`) and hands back the accumulator at the
  point's value, the cache one step on, and the output block's buffer at the accumulator plus the bias where k = 3 and
  untouched elsewhere, which is what an idle window owes.
-/
import proofs.«410261_j36936718745876_3_alg».proof.Proof.KIStep
import proofs.«410261_j36936718745876_3_alg».proof.Proof.KIBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it to the body. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .f32 := win0_5.stage (cfg0.slots t 5)
abbrev hs5 (t : Fin cfg0.N) : (ms5 t).IsWhole := hstage0_5 ((cfg0.slots t 5).cast nbuf0_5)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [PhiS_succ, PhiS_castSucc]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  unfold PhiS
  by_cases h3 : condK3 (grid0.coords t)
  · rw [show (dats m 0 c).leavesExact 5 t = owns (c : Thread nD τ) (ms5 t) fullShare ((dats m 0 c).after 5 t) from by
      unfold Dat.leavesExact; rw [liveAt5 t h3], after5]
    iintro ⟨⟨⟨⟨%a, Ha, %ha⟩, ⟨%w, Hw, %hw⟩⟩, Hg⟩, Ho, ⟨%d0, H0⟩, ⟨%d1, H1⟩, ⟨%d2, H2⟩, ⟨%d3, H3⟩, ⟨%d4, H4⟩, ⟨%d5, H5⟩⟩
    have hrun := fun K => kernel_run (F := F) c (grid0.coords t)
      (fun h => by have h0 := (hcondK0 t).mp h.1; have h3' := (hcondK3 t).mp h.2; omega) (ms0 t) (hs0 t) (ms1 t) (hs1 t) (ms2 t) (hs2 t) (ms3 t) (hs3 t)
      (ms4 t) (hs4 t) (ms5 t) (hs5 t) scM0 (Memref.isWhole_whole _) scM1 (Memref.isWhole_whole _)
      (iblk m c 0 t) (iblk m c 1 t) (iblk m c 2 t) (iblk m c 3 t) (iblk m c 4 t) ((dats m 0 c).before 5 t d5) a w Set.univ K
    rw [accNew_eq m c t a w ha (hw t.isLt), outNew_live m c t _ a w h3 ha (hw t.isLt)] at hrun
    iapply (hrun _)
    isplitl [H0]; · iexact H0
    isplitl [H1]; · iexact H1
    isplitl [H2]; · iexact H2
    isplitl [H3]; · iexact H3
    isplitl [H4]; · iexact H4
    isplitl [H5]; · iexact H5
    isplitl [Ha]; · iexact Ha
    isplitl [Hw]; · iexact Hw
    iintro ⟨H0, H1, H2, H3, H4, H5, H9, ⟨%w', H10, %hstep⟩⟩
    isplitl [H9 H10 Hg]
    · isplitl [H9 H10]
      · isplitl [H9]
        · iexists _; isplitl [H9]; · iexact H9
          ipureintro; intro _; rfl
        · iexists w'; isplitl [H10]; · iexact H10
          ipureintro; intro hlt; exact WInv_step m c t w w' (hw t.isLt) hstep hlt
      · iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dats m 0 c) 5 t (idleAt5 t h3) (noFlush5 t h3)]
    iintro ⟨⟨⟨⟨%a, Ha, %ha⟩, ⟨%w, Hw, %hw⟩⟩, Hg⟩, Ho, ⟨%d0, H0⟩, ⟨%d1, H1⟩, ⟨%d2, H2⟩, ⟨%d3, H3⟩, ⟨%d4, H4⟩, ⟨%d5, H5⟩⟩
    have hrun := fun K => kernel_run (F := F) c (grid0.coords t)
      (fun h => by have h0 := (hcondK0 t).mp h.1; have h3' := (hcondK3 t).mp h.2; omega) (ms0 t) (hs0 t) (ms1 t) (hs1 t) (ms2 t) (hs2 t) (ms3 t) (hs3 t)
      (ms4 t) (hs4 t) (ms5 t) (hs5 t) scM0 (Memref.isWhole_whole _) scM1 (Memref.isWhole_whole _)
      (iblk m c 0 t) (iblk m c 1 t) (iblk m c 2 t) (iblk m c 3 t) (iblk m c 4 t) ((dats m 0 c).before 5 t d5) a w Set.univ K
    rw [accNew_eq m c t a w ha (hw t.isLt), outNew_idle _ _ _ _ _ _ _ _ _ h3] at hrun
    iapply (hrun _)
    isplitl [H0]; · iexact H0
    isplitl [H1]; · iexact H1
    isplitl [H2]; · iexact H2
    isplitl [H3]; · iexact H3
    isplitl [H4]; · iexact H4
    isplitl [H5]; · iexact H5
    isplitl [Ha]; · iexact Ha
    isplitl [Hw]; · iexact Hw
    iintro ⟨H0, H1, H2, H3, H4, H5, H9, ⟨%w', H10, %hstep⟩⟩
    isplitl [H9 H10 Hg]
    · isplitl [H9 H10]
      · isplitl [H9]
        · iexists _; isplitl [H9]; · iexact H9
          ipureintro; intro _; rfl
        · iexists w'; isplitl [H10]; · iexact H10
          ipureintro; intro hlt; exact WInv_step m c t w w' (hw t.isLt) hstep hlt
      · iexact Hg
    isplitl [Ho]; · iexact Ho
    isplitl [H0]; · iexact H0
    isplitl [H1]; · iexact H1
    isplitl [H2]; · iexact H2
    isplitl [H3]; · iexact H3
    isplitl [H4]; · iexact H4
    iexists d5; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known of either scratch. -/
theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%d0, H0⟩, ⟨%d1, H1⟩⟩, Hg⟩
  isplitl [H0 H1]
  · isplitl [H0]
    · iexists d0; isplitl [H0]; · iexact H0
      ipureintro; intro h; exact absurd rfl h
    · iexists d1; isplitl [H1]; · iexact H1
      ipureintro; intro hlt t' _ _ hv
      exfalso; rcases hv with hv | hv
      · exact hv (by show 0 / 4 % 4 = 0; rfl)
      · exact absurd hv (by show ¬ t'.val % 4 < 0 % 4; exact Nat.not_lt_zero _)
  iexact Hg

/-- After the last point the invariant gives back what the launch handed over: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨⟨%a, Ha, %ha⟩, ⟨%w, Hw, %hw⟩⟩, Hg⟩
  isplitl [Ha Hw]
  · isplitl [Ha]
    · iexists a; iexact Ha
    · iexists w; iexact Hw
  iexact Hg

set_option backward.isDefEq.respectTransparency.types false in
/-- Every weakly fair execution of @main terminates, with every array of the pipeline at what the library computes from
    the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end, nothing faulting, its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KIRead.lean ====
/-
  The windows' blocks and the final output array read at an index.

  Point t of the grid has n = t / 16, m = (t / 4) mod 4, k = t mod 4. The activation block at t is rows 1024 m … and columns
  1024 k … of the activations; the packed weight tile is rows 128 k … and columns 1024 n … of the padded packed weights; the
  zero points and scales are rows 8 k … and columns 1024 n … of theirs; the bias row is columns 1024 n … . The output array
  is written back block by block at the points with k = 3: its entry (R, N) is entry (R mod 1024, N mod 1024) of what the
  point (N / 1024, R / 1024, 3) left in the output block.
-/
import proofs.«410261_j36936718745876_3_alg».proof.Proof.KIData
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The block indices of the windows, decided over the grid: the activations move with (m, k), the packed weights,
    zero points and scales with (k, n), the bias with n, the output with (m, n). -/
theorem idx_all : ∀ t : Fin cfg0.N,
    (win0_0.index t (0 : Fin 2) = (t.val / 4) % 4 ∧ win0_0.index t (1 : Fin 2) = t.val % 4)
    ∧ (win0_1.index t (0 : Fin 2) = t.val % 4 ∧ win0_1.index t (1 : Fin 2) = t.val / 16)
    ∧ (win0_2.index t (0 : Fin 2) = t.val % 4 ∧ win0_2.index t (1 : Fin 2) = t.val / 16)
    ∧ (win0_3.index t (0 : Fin 2) = t.val % 4 ∧ win0_3.index t (1 : Fin 2) = t.val / 16)
    ∧ (win0_4.index t (0 : Fin 2) = 0 ∧ win0_4.index t (1 : Fin 2) = t.val / 16)
    ∧ (win0_5.index t (0 : Fin 2) = (t.val / 4) % 4 ∧ win0_5.index t (1 : Fin 2) = t.val / 16) :=
  (by decide +kernel : ∀ t : Fin grid0.N,
    (win0_0.index t (0 : Fin 2) = (t.val / 4) % 4 ∧ win0_0.index t (1 : Fin 2) = t.val % 4)
    ∧ (win0_1.index t (0 : Fin 2) = t.val % 4 ∧ win0_1.index t (1 : Fin 2) = t.val / 16)
    ∧ (win0_2.index t (0 : Fin 2) = t.val % 4 ∧ win0_2.index t (1 : Fin 2) = t.val / 16)
    ∧ (win0_3.index t (0 : Fin 2) = t.val % 4 ∧ win0_3.index t (1 : Fin 2) = t.val / 16)
    ∧ (win0_4.index t (0 : Fin 2) = 0 ∧ win0_4.index t (1 : Fin 2) = t.val / 16)
    ∧ (win0_5.index t (0 : Fin 2) = (t.val / 4) % 4 ∧ win0_5.index t (1 : Fin 2) = t.val / 16))

theorem iblk0_apply (c : Dev nD) (t : Fin cfg0.N) (r j : Fin 1024) :
    (iblk m c 0 t : Vec F S1024x1024 .bf16) (ix2 r j)
      = (V m c main_v1 : Vec F S4096x4096 .bf16) (ix2 (⟨1024 * ((t.val / 4) % 4) + r.val, by omega⟩ : Fin 4096) (⟨1024 * (t.val % 4) + j.val, by omega⟩ : Fin 4096)) := by
  obtain ⟨⟨e0, e1⟩, -⟩ := idx_all t
  show V m c main_v1 (((cfg0.win 0).blk t).view.emb (ix2 r j)) = V m c main_v1 _
  refine congrArg _ ?_
  funext a; apply Fin.ext
  match a with
  | ⟨0, _⟩ => show win0_0.index t (0 : Fin 2) * 1024 + 1 * r.val = 1024 * ((t.val / 4) % 4) + r.val; omega
  | ⟨1, _⟩ => show win0_0.index t (1 : Fin 2) * 1024 + 1 * j.val = 1024 * (t.val % 4) + j.val; omega

theorem iblk1_apply (c : Dev nD) (t : Fin cfg0.N) (a : Fin 128) (col : Fin 1024) :
    (iblk m c 1 t : Vec F S128x1024 .i32) (ix2 a col)
      = (V m c main_v17 : Vec F S512x11264 .i32) (ix2 (⟨128 * (t.val % 4) + a.val, by omega⟩ : Fin 512)
          (⟨1024 * (t.val / 16) + col.val, by have := lt_of_lt_of_eq t.isLt N176; omega⟩ : Fin 11264)) := by
  obtain ⟨-, ⟨e0, e1⟩, -⟩ := idx_all t
  show V m c main_v17 (((cfg0.win 1).blk t).view.emb (ix2 a col)) = V m c main_v17 _
  refine congrArg _ ?_
  funext b; apply Fin.ext
  match b with
  | ⟨0, _⟩ => show win0_1.index t (0 : Fin 2) * 128 + 1 * a.val = 128 * (t.val % 4) + a.val; omega
  | ⟨1, _⟩ => show win0_1.index t (1 : Fin 2) * 1024 + 1 * col.val = 1024 * (t.val / 16) + col.val; omega

theorem iblk2_apply (c : Dev nD) (t : Fin cfg0.N) (g : Fin 8) (col : Fin 1024) :
    (iblk m c 2 t : Vec F S8x1024 .f32) (ix2 g col)
      = (V m c main_v18 : Vec F S32x11264 .f32) (ix2 (⟨8 * (t.val % 4) + g.val, by omega⟩ : Fin 32)
          (⟨1024 * (t.val / 16) + col.val, by have := lt_of_lt_of_eq t.isLt N176; omega⟩ : Fin 11264)) := by
  obtain ⟨-, -, ⟨e0, e1⟩, -⟩ := idx_all t
  show V m c main_v18 (((cfg0.win 2).blk t).view.emb (ix2 g col)) = V m c main_v18 _
  refine congrArg _ ?_
  funext b; apply Fin.ext
  match b with
  | ⟨0, _⟩ => show win0_2.index t (0 : Fin 2) * 8 + 1 * g.val = 8 * (t.val % 4) + g.val; omega
  | ⟨1, _⟩ => show win0_2.index t (1 : Fin 2) * 1024 + 1 * col.val = 1024 * (t.val / 16) + col.val; omega

theorem iblk3_apply (c : Dev nD) (t : Fin cfg0.N) (g : Fin 8) (col : Fin 1024) :
    (iblk m c 3 t : Vec F S8x1024 .f32) (ix2 g col)
      = (V m c main_v19 : Vec F S32x11264 .f32) (ix2 (⟨8 * (t.val % 4) + g.val, by omega⟩ : Fin 32)
          (⟨1024 * (t.val / 16) + col.val, by have := lt_of_lt_of_eq t.isLt N176; omega⟩ : Fin 11264)) := by
  obtain ⟨-, -, -, ⟨e0, e1⟩, -⟩ := idx_all t
  show V m c main_v19 (((cfg0.win 3).blk t).view.emb (ix2 g col)) = V m c main_v19 _
  refine congrArg _ ?_
  funext b; apply Fin.ext
  match b with
  | ⟨0, _⟩ => show win0_3.index t (0 : Fin 2) * 8 + 1 * g.val = 8 * (t.val % 4) + g.val; omega
  | ⟨1, _⟩ => show win0_3.index t (1 : Fin 2) * 1024 + 1 * col.val = 1024 * (t.val / 16) + col.val; omega

theorem iblk4_apply (c : Dev nD) (t : Fin cfg0.N) (col : Fin 1024) :
    (iblk m c 4 t : Vec F S1x1024 .f32) (ix2 (0 : Fin 1) col)
      = (V m c main_v20 : Vec F S1x11264 .f32) (ix2 (0 : Fin 1)
          (⟨1024 * (t.val / 16) + col.val, by have := lt_of_lt_of_eq t.isLt N176; omega⟩ : Fin 11264)) := by
  obtain ⟨-, -, -, -, ⟨e0, e1⟩, -⟩ := idx_all t
  show V m c main_v20 (((cfg0.win 4).blk t).view.emb (ix2 (0 : Fin 1) col)) = V m c main_v20 _
  refine congrArg _ ?_
  funext b; apply Fin.ext
  match b with
  | ⟨0, _⟩ => show win0_4.index t (0 : Fin 2) * 1 + 1 * 0 = 0; omega
  | ⟨1, _⟩ => show win0_4.index t (1 : Fin 2) * 1024 + 1 * col.val = 1024 * (t.val / 16) + col.val; omega

/-- The point that writes back the output block holding entry (R, N). -/
def outPt (R : Fin 4096) (N : Fin 11264) : Fin cfg0.N :=
  ⟨16 * (N.val / 1024) + 4 * (R.val / 1024) + 3, lt_of_lt_of_eq (by omega : 16 * (N.val / 1024) + 4 * (R.val / 1024) + 3 < 176) N176.symm⟩

theorem outPt_val (R : Fin 4096) (N : Fin 11264) : (outPt R N).val = 16 * (N.val / 1024) + 4 * (R.val / 1024) + 3 := rfl

/-- Entry (R, N) of the whole output array: entry (R mod 1024, N mod 1024) of what the point writing its block left. -/
def outRead (c : Dev nD) (R : Fin 4096) (N : Fin 11264) : Elt F .f32 :=
  (outAt m c (outPt R N) : Vec F S1024x1024 .f32) (ix2 (⟨R.val % 1024, by omega⟩ : Fin 1024) (⟨N.val % 1024, by omega⟩ : Fin 1024))

/-- The whole output array as one function of the index. -/
def outArr (c : Dev nD) : S4096x11264.Idx → Elt F .f32 :=
  fun i => outRead m c ⟨(i 0).val, idx2_lt0 i⟩ ⟨(i 1).val, idx2_lt1 i⟩

/-- Inside the block of a point t with k = 3, the whole-array function reads what t left, at the block's own index. -/
theorem outRead_of_block (c : Dev nD) (t : Fin cfg0.N) (ht : t.val % 4 = 3) (r j : Fin 1024) (R : Fin 4096) (N : Fin 11264)
    (hR : R.val = ((t.val / 4) % 4) * 1024 + r.val) (hN : N.val = (t.val / 16) * 1024 + j.val) :
    outRead m c R N = (outAt m c t : Vec F S1024x1024 .f32) (ix2 r j) := by
  have e : outPt R N = t := Fin.ext (by rw [outPt_val]; have := r.isLt; have := j.isLt; omega)
  have er : (⟨R.val % 1024, by omega⟩ : Fin 1024) = r := Fin.ext (by show R.val % 1024 = r.val; have := r.isLt; omega)
  have ej : (⟨N.val % 1024, by omega⟩ : Fin 1024) = j := Fin.ext (by show N.val % 1024 = j.val; have := j.isLt; omega)
  unfold outRead
  rw [e, er, ej]

/-- What a point with k = 3 writes back is its block of the whole-array function. -/
theorem flushed5_eq (c : Dev nD) (t : Fin cfg0.N) (ht : t.val % 4 = 3) :
    (dats m 0 c).flushed 5 t = ((cfg0.win 5).blk t).view.read (Elt F) (outArr m c) := by
  show (cfg0.win 5).cut (grid0.coords t) ((dats m 0 c).after 5 t) = _
  rw [after5]
  obtain ⟨-, -, -, -, -, ⟨e0, e1⟩⟩ := idx_all t
  funext y
  show (outAt m c t : Vec F S1024x1024 .f32) y = outArr m c (((cfg0.win 5).blk t).view.emb y)
  obtain ⟨r, j, rfl⟩ : ∃ (r j : Fin 1024), y = ix2 r j := ⟨y 0, y 1, eq_ix2 y⟩
  refine (outRead_of_block m c t ht r j _ _ ?_ ?_).symm
  · show win0_5.index t (0 : Fin 2) * 1024 + 1 * r.val = ((t.val / 4) % 4) * 1024 + r.val; omega
  · show win0_5.index t (1 : Fin 2) * 1024 + 1 * j.val = (t.val / 16) * 1024 + j.val; omega

/-- An index of the output array is in point t's block iff each coordinate is in the block's range on its axis. -/
theorem mem_blk5 (t : Fin cfg0.N) (i : S4096x11264.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v21).slice (win0_5.rect t)).set ↔ _
  rw [View.set_slice_whole, Rect.mem_set_unit]
  exact Iff.rfl

/-- The 4 x 11 blocks written back tile the output array. -/
theorem covered5 (i : S4096x11264.Idx) :
    ∃ t : Fin cfg0.N, (cfg0.win 5).flush t = true ∧ i ∈ ((cfg0.win 5).blk t).view.set := by
  have hi0 : (i 0).val < 4096 := idx2_lt0 i
  have hi1 : (i 1).val < 11264 := idx2_lt1 i
  have hv : (outPt ⟨(i 0).val, hi0⟩ ⟨(i 1).val, hi1⟩).val = 16 * ((i 1).val / 1024) + 4 * ((i 0).val / 1024) + 3 := rfl
  obtain ⟨-, -, -, -, -, ⟨e0, e1⟩⟩ := idx_all (outPt ⟨(i 0).val, hi0⟩ ⟨(i 1).val, hi1⟩)
  refine ⟨outPt ⟨(i 0).val, hi0⟩ ⟨(i 1).val, hi1⟩, (flush0_5 _).mpr (by rw [hv]; omega), ?_⟩
  rw [mem_blk5]
  intro a
  match a with
  | ⟨0, _⟩ => show win0_5.index _ (0 : Fin 2) * 1024 ≤ (i 0).val ∧ (i 0).val < win0_5.index _ (0 : Fin 2) * 1024 + 1024; rw [e0, hv]; omega
  | ⟨1, _⟩ => show win0_5.index _ (1 : Fin 2) * 1024 ≤ (i 1).val ∧ (i 1).val < win0_5.index _ (1 : Fin 2) * 1024 + 1024; rw [e1, hv]; omega

/-- The output array after the run is the whole-array function. -/
theorem out_arr (c : Dev nD) : (dats m 0 c).arrAt 5 cfg0.N = outArr m c :=
  (dats m 0 c).arrAt_eq_of_cover 5 (outArr m c) (fun t hf => flushed5_eq m c t ((flush0_5 t).mp hf)) covered5

theorem out_final (c : Dev nD) (R : Fin 4096) (N : Fin 11264) :
    ((dats m 0 c).arrAt 5 cfg0.N : Vec F S4096x11264 .f32) (ix2 R N)
      = (outAt m c (outPt R N) : Vec F S1024x1024 .f32) (ix2 (⟨R.val % 1024, by omega⟩ : Fin 1024) (⟨N.val % 1024, by omega⟩ : Fin 1024)) := by
  rw [out_arr]
  rfl

end Cert.KernelIdeal.Hand

end
-- ==== Proof.Spec.lean ====
/-
  The function both programs compute, over the extended reals.

  A 4-bit weight sits in nibble (k mod 8) of word (k / 8, n) of the packed matrix; its zero point in nibble (n mod 8)
  of word (k / 128, n / 8) of the packed zero points; its scale at (k / 128, n). The dequantized weight is
  (q - zero) · scale, and the result at (a, s, n) is the sum over the 4096 input features of x (a, s, k) times that
  weight, plus the bias at n.
-/
import Idealize.ShloMosaic.PureOps.Ideal
import Idealize.ShloMosaic.Lib.ValueIdx

noncomputable section

namespace Cert.Spec

open Idealize.ShloMosaic Idealize.ShloMosaic.ValueIdx

/-- Nibble `j` of a 32-bit word: the word shifted right (arithmetically) by `4 j` bits, its low four bits kept. -/
def nib (v : BitVec 32) (j : ℕ) : BitVec 32 := (v.sshiftRight' (BitVec.ofNat 32 (4 * j))) &&& 15#32

/-- The quantized weight at (k, n), as a real. -/
def qAt (qw : (⟨2, ![512, 11008]⟩ : Shape).Idx → BitVec 32) (k : Fin 4096) (n : Fin 11008) : EReal :=
  (((nib (qw (ix2 (⟨k.val / 8, by omega⟩ : Fin 512) n)) (k.val % 8)).toInt : ℝ) : EReal)

/-- The zero point of group k / 128 at column n, as a real. -/
def zAt (zq : (⟨2, ![32, 1376]⟩ : Shape).Idx → BitVec 32) (k : Fin 4096) (n : Fin 11008) : EReal :=
  (((nib (zq (ix2 (⟨k.val / 128, by omega⟩ : Fin 32) (⟨n.val / 8, by omega⟩ : Fin 1376))) (n.val % 8)).toInt : ℝ) : EReal)

/-- The dequantized weight at (k, n): (q - zero) · scale of the group of k. -/
def deq (qw : (⟨2, ![512, 11008]⟩ : Shape).Idx → BitVec 32) (zq : (⟨2, ![32, 1376]⟩ : Shape).Idx → BitVec 32)
    (sc : (⟨2, ![32, 11008]⟩ : Shape).Idx → EReal) (k : Fin 4096) (n : Fin 11008) : EReal :=
  (qAt qw k n - zAt zq k n) * sc (ix2 (⟨k.val / 128, by omega⟩ : Fin 32) n)

/-- The result at batch `a`, row `s`, column `n`. -/
def Gat (x : (⟨3, ![2, 2048, 4096]⟩ : Shape).Idx → EReal) (qw : (⟨2, ![512, 11008]⟩ : Shape).Idx → BitVec 32)
    (zq : (⟨2, ![32, 1376]⟩ : Shape).Idx → BitVec 32) (sc : (⟨2, ![32, 11008]⟩ : Shape).Idx → EReal)
    (b : (⟨1, ![11008]⟩ : Shape).Idx → EReal) (a : Fin 2) (s : Fin 2048) (n : Fin 11008) : EReal :=
  (∑ k : Fin 4096, x (ix3 a s k) * deq qw zq sc k n) + b (ix1 n)

/-- The whole result array. -/
def G (x : (⟨3, ![2, 2048, 4096]⟩ : Shape).Idx → EReal) (qw : (⟨2, ![512, 11008]⟩ : Shape).Idx → BitVec 32)
    (zq : (⟨2, ![32, 1376]⟩ : Shape).Idx → BitVec 32) (sc : (⟨2, ![32, 11008]⟩ : Shape).Idx → EReal)
    (b : (⟨1, ![11008]⟩ : Shape).Idx → EReal) : (⟨3, ![2, 2048, 11008]⟩ : Shape).Idx → EReal :=
  fun j => Gat x qw zq sc b (j 0) (j 1) (j 2)

theorem G_ix3 (x : (⟨3, ![2, 2048, 4096]⟩ : Shape).Idx → EReal) (qw : (⟨2, ![512, 11008]⟩ : Shape).Idx → BitVec 32)
    (zq : (⟨2, ![32, 1376]⟩ : Shape).Idx → BitVec 32) (sc : (⟨2, ![32, 11008]⟩ : Shape).Idx → EReal)
    (b : (⟨1, ![11008]⟩ : Shape).Idx → EReal) (a : Fin 2) (s : Fin 2048) (n : Fin 11008) :
    G x qw zq sc b (ix3 a s n) = Gat x qw zq sc b a s n := rfl

end Cert.Spec

end
-- ==== Proof.KIPay.lean ====
/-
  The arithmetic of one grid step, read at one entry, over the extended reals.

  Four values are stored by a step. The dequantized weight tile: entry (r, c) takes nibble r mod 8 of the packed word
  (r / 8, c), subtracts the zero point of group r / 128 at column c and multiplies by that group's scale. The cleared
  accumulator is zero everywhere. The updated accumulator at (r, c) is its old entry plus the sum over the 1024 features
  of the tile of activation (r, k) times weight (k, c). The flushed result is the accumulator plus the bias of the column.
  Last, four consecutive partial sums of 1024 terms, added in order starting from zero, make the sum of all 4096 terms.
-/
import proofs.«410261_j36936718745876_3_alg».proof.Proof.Gen.KernelIdeal.Skeleton
import proofs.«410261_j36936718745876_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Layout steps at an index given by coordinates -/

section Layout
variable {α : Type}

/-- A middle unit axis added: the [a, b] array seen as [a, 1, b] reads, at (i, u, j), the entry (i, j). -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The middle unit axis repeated n times: [a, 1, b] spread to [a, n, b] reads, at (i, k, j), the entry (i, 0, j). -/
theorem spread_a1b_anb {a n b : ℕ} (x : (⟨3, ![a, 1, b]⟩ : Shape).Idx → α)
    (h : (⟨3, ![a, 1, b]⟩ : Shape).Broadcasts ⟨3, ![a, n, b]⟩) (i : Fin a) (k : Fin n) (j : Fin b) :
    broadcastTo ⟨3, ![a, n, b]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A column of n words along the middle axis spread over both outer axes: [1, n, 1] spread to [a, n, b] reads, at
    (i, k, j), the entry (0, k, 0). -/
theorem spread_1n1_anb {a n b : ℕ} (x : (⟨3, ![1, n, 1]⟩ : Shape).Idx → α)
    (h : (⟨3, ![1, n, 1]⟩ : Shape).Broadcasts ⟨3, ![a, n, b]⟩) (i : Fin a) (k : Fin n) (j : Fin b) :
    broadcastTo ⟨3, ![a, n, b]⟩ x h (ix3 i k j) = x (ix3 (0 : Fin 1) k (0 : Fin 1)) := by
  refine broadcastTo_apply x h (ix3 i k j) (ix3 (0 : Fin 1) k (0 : Fin 1)) fun ax => ?_
  match ax with
  | ⟨0, _⟩ => rfl
  | ⟨1, _⟩ =>
    show k.val = if n = 1 then 0 else k.val
    split
    · have := k.isLt; omega
    · rfl
  | ⟨2, _⟩ => rfl

/-- The two leading axes merged: [a, n, b] seen as [m, b] reads, at (r, j), the entry (i, k, j) when r = i·n + k. -/
theorem cast_anb_mb {a n b m : ℕ} (x : (⟨3, ![a, n, b]⟩ : Shape).Idx → α)
    (h : (⟨3, ![a, n, b]⟩ : Shape).ShapeCasts ⟨2, ![m, b]⟩) (r : Fin m) (j : Fin b) (i : Fin a) (k : Fin n)
    (hr : r.val = i.val * n + k.val) :
    shapeCast ⟨2, ![m, b]⟩ x h (ix2 r j) = x (ix3 i k j) :=
  shapeCast_apply x h _ _ (by
    rw [Shape.rowMajor_val_three, Shape.rowMajor_val_two]
    show (i.val * n + k.val) * b + j.val = r.val * b + j.val
    rw [hr])

/-- The leading axis split: [m, b] seen as [a, n, b] reads, at (i, k, j), the entry (r, j) when r = i·n + k. -/
theorem cast_mb_anb {a n b m : ℕ} (x : (⟨2, ![m, b]⟩ : Shape).Idx → α)
    (h : (⟨2, ![m, b]⟩ : Shape).ShapeCasts ⟨3, ![a, n, b]⟩) (i : Fin a) (k : Fin n) (j : Fin b) (r : Fin m)
    (hr : r.val = i.val * n + k.val) :
    shapeCast ⟨3, ![a, n, b]⟩ x h (ix3 i k j) = x (ix2 r j) :=
  shapeCast_apply x h _ _ (by
    rw [Shape.rowMajor_val_three, Shape.rowMajor_val_two]
    show r.val * b + j.val = (i.val * n + k.val) * b + j.val
    rw [hr])

end Layout

/-! ## The cleared accumulator and the flushed result -/

/-- The cleared accumulator is zero at every entry. -/
theorem pay2_apply (j : S1024x1024.Idx) : k0_pay2 (F := Ideal) j = 0 := by
  unfold k0_pay2
  rw [shapeCast_self]
  exact Ideal.ofBits_zero_f32

/-- The flushed result at (r, c): the accumulator there plus the bias of column c. -/
theorem pay4_apply (a : Vec Ideal S1024x1024 .f32) (b : Vec Ideal S1x1024 .f32) (r col : Fin 1024) :
    k0_pay4 (F := Ideal) a b (ix2 r col) = a (ix2 r col) + b (ix2 (0 : Fin 1) col) := by
  unfold k0_pay4
  refine congrArg (a (ix2 r col) + ·) ?_
  refine (broadcastTo_1b_ab_apply _ _ r col).trans ?_
  rw [shapeCast_self]

/-! ## The accumulator's update -/

/-- Along the activation's rows the operand index follows the result's row … -/
theorem lhs_ax0 (j : S1024x1024.Idx) (k : dot_S1024x1024_S1024x1024_S1024x1024_1_0_0_1_n_n.contr.Idx) :
    (dot_S1024x1024_S1024x1024_S1024x1024_1_0_0_1_n_n.lhsIdx j k 0).val = (j 0).val := rfl
/-- … and along its columns the summation index. -/
theorem lhs_ax1 (j : S1024x1024.Idx) (k : dot_S1024x1024_S1024x1024_S1024x1024_1_0_0_1_n_n.contr.Idx) :
    (dot_S1024x1024_S1024x1024_S1024x1024_1_0_0_1_n_n.lhsIdx j k 1).val = (k ⟨0, by decide⟩).val :=
  DotDims.lhsIdx_val_of_single _ (cl := 1) rfl j k
/-- Along the weight's rows the operand index follows the summation index … -/
theorem rhs_ax0 (j : S1024x1024.Idx) (k : dot_S1024x1024_S1024x1024_S1024x1024_1_0_0_1_n_n.contr.Idx) :
    (dot_S1024x1024_S1024x1024_S1024x1024_1_0_0_1_n_n.rhsIdx j k 0).val = (k ⟨0, by decide⟩).val :=
  DotDims.rhsIdx_val_of_single _ (cr := 0) rfl j k
/-- … and along its columns the result's column. -/
theorem rhs_ax1 (j : S1024x1024.Idx) (k : dot_S1024x1024_S1024x1024_S1024x1024_1_0_0_1_n_n.contr.Idx) :
    (dot_S1024x1024_S1024x1024_S1024x1024_1_0_0_1_n_n.rhsIdx j k 1).val = (j 1).val := rfl

/-- The tile product into a zero accumulator, at (r, c): the sum over the 1024 features of activation (r, k) times
    weight (k, c). -/
theorem tile_product (x w : FVec Ideal S1024x1024 .bf16) (r col : Fin 1024) :
    matmul dot_S1024x1024_S1024x1024_S1024x1024_1_0_0_1_n_n none x w (constant S1024x1024 .f32 0x00000000#32) (ix2 r col)
      = ∑ k : Fin 1024, x (ix2 r k) * w (ix2 k col) := by
  refine (Ideal.matmul_constant_zero_apply dot_S1024x1024_S1024x1024_S1024x1024_1_0_0_1_n_n none x w (ix2 r col)).trans ?_
  rw [← Equiv.sum_comp (contrEquiv1 dot_S1024x1024_S1024x1024_S1024x1024_1_0_0_1_n_n 1024 rfl rfl).symm]
  refine Finset.sum_congr rfl fun k _ => ?_
  have hl : dot_S1024x1024_S1024x1024_S1024x1024_1_0_0_1_n_n.lhsIdx (ix2 r col)
      ((contrEquiv1 dot_S1024x1024_S1024x1024_S1024x1024_1_0_0_1_n_n 1024 rfl rfl).symm k) = ix2 r k := by
    funext a
    refine Fin.ext ?_
    match a with
    | ⟨0, _⟩ => exact lhs_ax0 _ _
    | ⟨1, _⟩ => exact (lhs_ax1 _ _).trans (contrEquiv1_symm_val _ 1024 rfl rfl k)
  have hr : dot_S1024x1024_S1024x1024_S1024x1024_1_0_0_1_n_n.rhsIdx (ix2 r col)
      ((contrEquiv1 dot_S1024x1024_S1024x1024_S1024x1024_1_0_0_1_n_n 1024 rfl rfl).symm k) = ix2 k col := by
    funext a
    refine Fin.ext ?_
    match a with
    | ⟨0, _⟩ => exact (rhs_ax0 _ _).trans (contrEquiv1_symm_val _ 1024 rfl rfl k)
    | ⟨1, _⟩ => exact rhs_ax1 _ _
  rw [hl, hr]

/-- The updated accumulator at (r, c): its old entry plus the sum over the 1024 features of the tile of activation
    (r, k) times weight (k, c). The first argument is the weight tile, the second the activation block. -/
theorem pay3_apply (w x : Vec Ideal S1024x1024 .bf16) (a : Vec Ideal S1024x1024 .f32) (r col : Fin 1024) :
    k0_pay3 (F := Ideal) w x a (ix2 r col) = a (ix2 r col) + ∑ k : Fin 1024, x (ix2 r k) * w (ix2 k col) := by
  unfold k0_pay3
  rw [shapeCast_self, shapeCast_self]
  exact congrArg (a (ix2 r col) + ·) (tile_product x w r col)

/-! ## The dequantized weight tile -/

/-- The shift of nibble j: j times 4, computed on 32-bit words, is the word 4 j, for each of the eight nibbles. -/
theorem shift_word : ∀ j : Fin 8, IntOp.muli (BitVec.ofNat 32 j.val) 4#32 = BitVec.ofNat 32 (4 * j.val) := by decide

/-- Those shifts are below the word's width. -/
theorem shift_lt : ∀ j : Fin 8, (BitVec.ofNat 32 (4 * j.val)).toNat < 32 := by decide

/-- A word shifted right arithmetically by j times 4, j below 8, its low four bits kept, is its nibble j. -/
theorem shift_nib (v : BitVec 32) (j : Fin 8) :
    IntOp.andi (IntOp.shrsi .vector v (IntOp.muli (BitVec.ofNat 32 j.val) 4#32)) 15#32 = Cert.Spec.nib v j.val := by
  rw [shift_word]
  unfold IntOp.shrsi
  rw [if_pos (shift_lt j)]
  rfl

/-- The unpacked words: entry (r, c) is nibble r mod 8 of the packed word (r / 8, c). -/
theorem unpack_apply (q : IVec S128x1024 32) (r col : Fin 1024) :
    shapeCast S1024x1024
      (andi (shrsi (broadcastTo S128x8x1024 (shapeCast S128x1x1024 (shapeCast S128x1024 q shapeCasts_S128x1024_S128x1024)
                      shapeCasts_S128x1024_S128x1x1024) broadcasts_S128x1x1024_S128x8x1024)
                   (broadcastTo S128x8x1024 (muli (iota .tc S1x8x1 32 [1] iota_S1x8x1_d1_w32) (broadcast S1x8x1 4#32))
                      broadcasts_S1x8x1_S128x8x1024))
            (broadcast S128x8x1024 15#32))
      shapeCasts_S128x8x1024_S1024x1024 (ix2 r col)
    = Cert.Spec.nib (q (ix2 (⟨r.val / 8, by omega⟩ : Fin 128) col)) (r.val % 8) := by
  refine (cast_anb_mb _ _ r col (⟨r.val / 8, by omega⟩ : Fin 128) (⟨r.val % 8, by omega⟩ : Fin 8)
    (by show r.val = r.val / 8 * 8 + r.val % 8; omega)).trans ?_
  show IntOp.andi (IntOp.shrsi .vector (broadcastTo S128x8x1024 _ _ (ix3 _ _ _)) (broadcastTo S128x8x1024 _ _ (ix3 _ _ _))) 15#32 = _
  rw [spread_a1b_anb, spread_1n1_anb, cast_ab_a1b, shapeCast_self]
  show IntOp.andi (IntOp.shrsi .vector (q _) (IntOp.muli (iota .tc S1x8x1 32 [1] _ _) 4#32)) 15#32 = _
  rw [iota_single_apply]
  exact shift_nib _ ⟨r.val % 8, by omega⟩

/-- A per-group row vector spread over the 128 rows of its group: at (g, i, c) it reads the group's entry (g, c). -/
theorem group_apply (v : FVec Ideal S8x1024 .f32) (g : Fin 8) (i : Fin 128) (col : Fin 1024) :
    broadcastTo S8x128x1024
      (shapeCast S8x1x1024 (truncf .bf16 (shapeCast S8x1024 v shapeCasts_S8x1024_S8x1024) bitsLt_bf16_f32)
        shapeCasts_S8x1024_S8x1x1024) broadcasts_S8x1x1024_S8x128x1024 (ix3 g i col)
    = v (ix2 g col) := by
  rw [spread_a1b_anb, cast_ab_a1b]
  show shapeCast S8x1024 v shapeCasts_S8x1024_S8x1024 (ix2 g col) = _
  rw [shapeCast_self]

/-- The dequantized weight tile at (r, c): nibble r mod 8 of the packed word (r / 8, c), read as an integer, minus the
    zero point of group r / 128 at column c, times that group's scale. -/
theorem pay1_apply (q : Vec Ideal S128x1024 .i32) (z s : Vec Ideal S8x1024 .f32) (r col : Fin 1024) :
    k0_pay1 (F := Ideal) q z s (ix2 r col)
      = ((((Cert.Spec.nib (q (ix2 (⟨r.val / 8, by omega⟩ : Fin 128) col)) (r.val % 8)).toInt : ℝ) : EReal)
          - z (ix2 (⟨r.val / 128, by omega⟩ : Fin 8) col)) * s (ix2 (⟨r.val / 128, by omega⟩ : Fin 8) col) := by
  unfold k0_pay1
  rw [shapeCast_self (s := S1024x1024)]
  refine (cast_anb_mb _ _ r col (⟨r.val / 128, by omega⟩ : Fin 8) (⟨r.val % 128, by omega⟩ : Fin 128)
    (by show r.val = r.val / 128 * 128 + r.val % 128; omega)).trans ?_
  show (shapeCast S8x128x1024 _ _ (ix3 _ _ _) - broadcastTo S8x128x1024 _ _ (ix3 _ _ _))
      * broadcastTo S8x128x1024 _ _ (ix3 _ _ _) = _
  rw [group_apply z, group_apply s]
  refine congrArg (fun t : EReal => (t - z (ix2 (⟨r.val / 128, by omega⟩ : Fin 8) col)) * s (ix2 (⟨r.val / 128, by omega⟩ : Fin 8) col)) ?_
  refine (cast_mb_anb _ _ (⟨r.val / 128, by omega⟩ : Fin 8) (⟨r.val % 128, by omega⟩ : Fin 128) col r
    (by show r.val = r.val / 128 * 128 + r.val % 128; omega)).trans ?_
  show (((BitVec.toInt (n := 32) (shapeCast S1024x1024 _ shapeCasts_S128x8x1024_S1024x1024 (ix2 r col)) : ℤ) : ℝ) : EReal) = _
  rw [unpack_apply]

/-! ## Four blocks of 1024 terms -/

/-- Four consecutive partial sums of 1024 terms, added in order from zero, are the sum of all 4096 terms. -/
theorem sum_blocks (f : Fin 4096 → EReal) :
    (((0 + ∑ k : Fin 1024, f ⟨k.val, by omega⟩) + ∑ k : Fin 1024, f ⟨1024 + k.val, by omega⟩)
        + ∑ k : Fin 1024, f ⟨2048 + k.val, by omega⟩) + ∑ k : Fin 1024, f ⟨3072 + k.val, by omega⟩
      = ∑ k : Fin 4096, f k := by
  have e4 : ∑ k : Fin 4096, f k
      = ∑ k : Fin 3072, f ⟨k.val, by omega⟩ + ∑ k : Fin 1024, f ⟨3072 + k.val, by omega⟩ :=
    Fin.sum_univ_add (a := 3072) (b := 1024) f
  have e3 : ∑ k : Fin 3072, f ⟨k.val, by omega⟩
      = ∑ k : Fin 2048, f ⟨k.val, by omega⟩ + ∑ k : Fin 1024, f ⟨2048 + k.val, by omega⟩ :=
    Fin.sum_univ_add (a := 2048) (b := 1024) (fun k : Fin 3072 => f ⟨k.val, by omega⟩)
  have e2 : ∑ k : Fin 2048, f ⟨k.val, by omega⟩
      = ∑ k : Fin 1024, f ⟨k.val, by omega⟩ + ∑ k : Fin 1024, f ⟨1024 + k.val, by omega⟩ :=
    Fin.sum_univ_add (a := 1024) (b := 1024) (fun k : Fin 2048 => f ⟨k.val, by omega⟩)
  rw [e4, e3, e2, zero_add]

end Cert.KernelIdeal.Pay

end
-- ==== Proof.KIHost.lean ====
/-
  The arrays around the pipeline's one region, as the host operations leave them, read at an index.

  Before the region. The activations are narrowed to bf16, which changes no ideal value, and the batch and row axes
  are merged: row r of the [4096, 4096] matrix is row r mod 2048 of batch r / 2048. The packed weights, the scales
  and the bias are widened from 11008 to 11264 columns by zero padding behind the last column: a column below 11008
  holds what the argument holds there; the bias is first viewed as one row. The packed zero points are unpacked: each
  32-bit word of the [32, 1376] argument is copied eight times along a new last axis, copy j is shifted right
  arithmetically by 0 + 4 j bits and its low four bits are kept, and the [32, 1376, 8] result is viewed as
  [32, 11008], so that column n is nibble n mod 8 of word n / 8; the nibbles are converted to floats, which at the
  ideal instance is the integer read as a real, and padded like the others.

  After the region. The padding columns of the [4096, 11264] result are cut off and its rows are split into two
  batches of 2048: entry (a, s, n) of the program's result is the pipeline's output at row 2048 a + s, column n.
-/
import proofs.«410261_j36936718745876_3_alg».proof.Proof.Gen.KernelIdeal.Frame
import proofs.«410261_j36936718745876_3_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ)

/-! ## Layout operations at an index -/

section Generic
variable {α : Type}

/-- A matrix padded behind its last column only: a column below the old width holds the operand's entry. -/
theorem pad_cols_apply {n0 n1 n1' p : Nat} (X : (⟨2, ![n0, n1]⟩ : Shape).Idx → α) {u : Shape} (v : u.Idx → α)
    (h : (⟨2, ![n0, n1]⟩ : Shape).Pads ![0, 0] ![0, p] ![0, 0] ⟨2, ![n0, n1']⟩) (hu : 0 < u.numel)
    (a : Fin n0) (j : Fin n1') (hj : j.val < n1) :
    pad ⟨2, ![n0, n1']⟩ ![0, 0] ![0, p] ![0, 0] X v h hu (ix2 a j) = X (ix2 a ⟨j.val, hj⟩) :=
  pad_apply_of_inside _ _ _ X v h hu (ix2 a j) (ix2 a ⟨j.val, hj⟩) (fun ax => by
    match ax with
    | ⟨0, _⟩ => show a.val = 0 + a.val * (0 + 1); omega
    | ⟨1, _⟩ => show j.val = 0 + j.val * (0 + 1); omega)

/-- Two leading axes merged into one, row-major: row r of the matrix is row r mod B of slab r / B. -/
theorem merge_rows_apply {A B C : Nat} (X : (⟨3, ![A, B, C]⟩ : Shape).Idx → α)
    (h : (⟨3, ![A, B, C]⟩ : Shape).ShapeCasts ⟨2, ![A * B, C]⟩) (r : Fin (A * B)) (k : Fin C) (a : Fin A) (s : Fin B)
    (hr : r.val = a.val * B + s.val) :
    shapeCast ⟨2, ![A * B, C]⟩ X h (ix2 r k) = X (ix3 a s k) :=
  shapeCast_apply X h (ix2 r k) (ix3 a s k) (by
    rw [Shape.rowMajor_val_three, Shape.rowMajor_val_two]
    show (a.val * B + s.val) * C + k.val = r.val * C + k.val
    rw [hr])

/-- A vector viewed as a matrix of one row. -/
theorem one_row_apply {n : Nat} (X : (⟨1, ![n]⟩ : Shape).Idx → α)
    (h : (⟨1, ![n]⟩ : Shape).ShapeCasts ⟨2, ![1, n]⟩) (j : Fin n) :
    shapeCast ⟨2, ![1, n]⟩ X h (ix2 (0 : Fin 1) j) = X (ix1 j) :=
  shapeCast_apply X h (ix2 (0 : Fin 1) j) (ix1 j) (by
    rw [Shape.rowMajor_val_one, Shape.rowMajor_val_two]
    show j.val = (0 : Fin 1).val * n + j.val
    simp)

end Generic

/-! ## The activations -/

/-- The activation matrix the kernel reads: the argument narrowed to bf16, its batch and row axes merged. -/
theorem V_v1 (c : Dev nD) : (V m c main_v1 : S4096x4096.Idx → EReal)
    = shapeCast S4096x4096 (truncf .bf16 (m ((c : Thread nD τ).loc main_arg0) : FVec Ideal S2x2048x4096 .f32) bitsLt_bf16_f32 : FVec Ideal S2x2048x4096 .bf16) shapeCasts_S2x2048x4096_S4096x4096 := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  rfl

/-- Row r, column k of the activation matrix is the argument at batch r / 2048, row r mod 2048, column k. -/
theorem x2_apply (c : Dev nD) (r k : Fin 4096) :
    (V m c main_v1 : S4096x4096.Idx → EReal) (ix2 r k)
      = (m ((c : Thread nD τ).loc main_arg0) : S2x2048x4096.Idx → EReal)
          (ix3 (⟨r.val / 2048, by omega⟩ : Fin 2) (⟨r.val % 2048, by omega⟩ : Fin 2048) k) := by
  rw [V_v1]
  exact merge_rows_apply (A := 2) (B := 2048) (C := 4096) _ shapeCasts_S2x2048x4096_S4096x4096 r k _ _
    (by show r.val = r.val / 2048 * 2048 + r.val % 2048; omega)

/-! ## The packed weights, the scales and the bias, padded to 11264 columns -/

/-- A column below 11008 of the padded packed weights holds the argument's word. -/
theorem qw_apply (c : Dev nD) (a : Fin 512) (n : Fin 11264) (hn : n.val < 11008) :
    (V m c main_v17 : S512x11264.Idx → BitVec 32) (ix2 a n)
      = (m ((c : Thread nD τ).loc main_arg1) : S512x11008.Idx → BitVec 32) (ix2 a ⟨n.val, hn⟩) := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  simp only [TRef.ofBuf, TRef.toBuf, cast_eq, id]
  exact pad_cols_apply _ _ pads_S512x11008_S512x11264_000_02560 h_S_ a n hn

/-- A column below 11008 of the padded scales holds the argument's entry. -/
theorem scales_apply (c : Dev nD) (g : Fin 32) (n : Fin 11264) (hn : n.val < 11008) :
    (V m c main_v19 : S32x11264.Idx → EReal) (ix2 g n)
      = (m ((c : Thread nD τ).loc main_arg3) : S32x11008.Idx → EReal) (ix2 g ⟨n.val, hn⟩) := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  simp only [TRef.ofBuf, TRef.toBuf, cast_eq, id]
  exact pad_cols_apply _ _ pads_S32x11008_S32x11264_000_02560 h_S_ g n hn

/-- A column below 11008 of the padded one-row bias holds the argument's entry. -/
theorem bias_apply (c : Dev nD) (n : Fin 11264) (hn : n.val < 11008) :
    (V m c main_v20 : S1x11264.Idx → EReal) (ix2 (0 : Fin 1) n)
      = (m ((c : Thread nD τ).loc main_arg4) : S11008.Idx → EReal) (ix1 ⟨n.val, hn⟩) := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  simp only [TRef.ofBuf, TRef.toBuf, cast_eq, id]
  refine (pad_cols_apply _ _ pads_S1x11008_S1x11264_000_02560 h_S_ (0 : Fin 1) n hn).trans ?_
  exact one_row_apply _ shapeCasts_S11008_S1x11008 ⟨n.val, hn⟩

/-! ## The zero points, unpacked on the host -/

/-! ### One nibble -/

/-- The shift amount of copy j: the word 0 + 4 · j is the number 4 j. -/
theorem shiftWord : ∀ j : Fin 8,
    IntOp.addi (0#32) (IntOp.muli (4#32) (BitVec.ofNat 32 j.val)) = BitVec.ofNat 32 (4 * j.val) := by decide

/-- The host's arithmetic shift by 4 j < 32 bits, masked with 15, is nibble j of the word. -/
theorem shrsi_andi_eq_nib (v : BitVec 32) (j : ℕ) (hj : j < 8) :
    IntOp.andi (IntOp.shrsi .host v (BitVec.ofNat 32 (4 * j))) (15#32) = Cert.Spec.nib v j := by
  have hlt : (BitVec.ofNat 32 (4 * j)).toNat < 32 := by
    rw [BitVec.toNat_ofNat, Nat.mod_eq_of_lt (by omega)]; omega
  unfold Cert.Spec.nib IntOp.andi IntOp.shrsi
  rw [if_pos hlt]

/-! ### The three operands of the shift-and-mask at an index -/

/-- The words copied along a new last axis: entry (g, w, j) is word (g, w). -/
theorem words_apply (x : S32x1376.Idx → BitVec 32) (g : Fin 32) (w : Fin 1376) (j : Fin 8) :
    broadcastInDim S32x1376x8 ![0, 1, 2] bcast_S32x1376x1_S32x1376x8_0_1_2
        (broadcastInDim S32x1376x1 ![0, 1] bcast_S32x1376_S32x1376x1_0_1 x) (ix3 g w j) = x (ix2 g w) := by
  refine (broadcastInDim_apply _ _ _ (ix3 g w j) (ix3 g w (0 : Fin 1)) (fun a => by
    match a with
    | ⟨0, _⟩ => rfl
    | ⟨1, _⟩ => rfl
    | ⟨2, _⟩ => rfl)).trans ?_
  exact broadcastInDim_apply _ _ _ (ix3 g w (0 : Fin 1)) (ix2 g w) (fun a => by
    match a with
    | ⟨0, _⟩ => rfl
    | ⟨1, _⟩ => rfl)

/-- The shift amounts 0 + 4 · iota copied over the first two axes: entry (g, w, j) is the number 4 j. -/
theorem shifts_apply (g : Fin 32) (w : Fin 1376) (j : Fin 8) :
    broadcastInDim S32x1376x8 ![0, 1, 2] bcast_S1x1x8_S32x1376x8_0_1_2
        (broadcastInDim S1x1x8 ![2] bcast_S8_S1x1x8_2
          (addi (broadcastInDim S8 ![] bcast_S_S8 (constantI S_ 32 0#32))
            (muli (broadcastInDim S8 ![] bcast_S_S8 (constantI S_ 32 4#32)) (iotaInDim S8 32 0)))) (ix3 g w j)
      = BitVec.ofNat 32 (4 * j.val) := by
  refine (broadcastInDim_apply _ _ _ (ix3 g w j) (ix3 (0 : Fin 1) (0 : Fin 1) j) (fun a => by
    match a with
    | ⟨0, _⟩ => rfl
    | ⟨1, _⟩ => rfl
    | ⟨2, _⟩ => rfl)).trans ?_
  refine (broadcastInDim_apply _ _ _ (ix3 (0 : Fin 1) (0 : Fin 1) j) (ix1 j) (fun a => by
    match a with
    | ⟨0, _⟩ => rfl)).trans ?_
  exact shiftWord j

/-! ### The unpacked zero points -/

/-- Column n of the unpacked, converted zero points is nibble n mod 8 of word n / 8, as a real. -/
theorem unpack_apply (x : S32x1376.Idx → BitVec 32) (g : Fin 32) (n : Fin 11008) :
    (sitofp .f32 (fun i => shapeCast S32x11008
        (andi
          (Host.shrsi
            (broadcastInDim S32x1376x8 ![0, 1, 2] bcast_S32x1376x1_S32x1376x8_0_1_2
              (broadcastInDim S32x1376x1 ![0, 1] bcast_S32x1376_S32x1376x1_0_1 x))
            (broadcastInDim S32x1376x8 ![0, 1, 2] bcast_S1x1x8_S32x1376x8_0_1_2
              (broadcastInDim S1x1x8 ![2] bcast_S8_S1x1x8_2
                (addi (broadcastInDim S8 ![] bcast_S_S8 (constantI S_ 32 0#32))
                  (muli (broadcastInDim S8 ![] bcast_S_S8 (constantI S_ 32 4#32)) (iotaInDim S8 32 0))))))
          (broadcastInDim S32x1376x8 ![] bcast_S_S32x1376x8 (constantI S_ 32 15#32)))
        shapeCasts_S32x1376x8_S32x11008 i) : FVec Ideal S32x11008 .f32) (ix2 g n)
      = (((Cert.Spec.nib (x (ix2 g (⟨n.val / 8, by omega⟩ : Fin 1376))) (n.val % 8)).toInt : ℝ) : EReal) := by
  refine congrArg (fun b : BitVec 32 => ((b.toInt : ℝ) : EReal)) ?_
  refine (shapeCast_apply _ _ (ix2 g n) (ix3 g (⟨n.val / 8, by omega⟩ : Fin 1376) (⟨n.val % 8, by omega⟩ : Fin 8)) (by
    rw [Shape.rowMajor_val_three, Shape.rowMajor_val_two]
    show (g.val * 1376 + n.val / 8) * 8 + n.val % 8 = g.val * 11008 + n.val
    omega)).trans ?_
  show IntOp.andi (IntOp.shrsi .host (_ : BitVec 32) _) _ = _
  rw [words_apply x g _ _, shifts_apply g _ _]
  exact shrsi_andi_eq_nib _ _ (by omega)

/-- A column below 11008 of the padded zero points is nibble n mod 8 of the argument's word n / 8, as a real. -/
theorem zeros_apply (c : Dev nD) (g : Fin 32) (n : Fin 11264) (hn : n.val < 11008) :
    (V m c main_v18 : S32x11264.Idx → EReal) (ix2 g n)
      = (((Cert.Spec.nib ((m ((c : Thread nD τ).loc main_arg2) : S32x1376.Idx → BitVec 32)
            (ix2 g (⟨n.val / 8, by omega⟩ : Fin 1376))) (n.val % 8)).toInt : ℝ) : EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results
  simp only [TRef.ofBuf, TRef.toBuf, cast_eq, id]
  refine (pad_cols_apply _ _ pads_S32x11008_S32x11264_000_02560 h_S_ g n hn).trans ?_
  exact unpack_apply _ g ⟨n.val, hn⟩

/-! ## The result after the region -/

/-- The first 11008 columns of a [4096, 11264] matrix, its rows then split into two batches of 2048: entry
    (a, s, n) is the matrix at row 2048 a + s, column n. -/
theorem cut_split_apply {α : Type} (Y : S4096x11264.Idx → α) (a : Fin 2) (s : Fin 2048) (n : Fin 11008) :
    shapeCast S2x2048x11008
        (extractStridedSlice S4096x11008 ![0, 0] Y slices_S4096x11264_S4096x11008_0_0)
        shapeCasts_S4096x11008_S2x2048x11008 (ix3 a s n)
      = Y (ix2 (⟨a.val * 2048 + s.val, by omega⟩ : Fin 4096) (⟨n.val, by omega⟩ : Fin 11264)) := by
  refine (shapeCast_apply _ _ (ix3 a s n) (ix2 (⟨a.val * 2048 + s.val, by omega⟩ : Fin 4096) n) (by
    rw [Shape.rowMajor_val_three, Shape.rowMajor_val_two]
    show (a.val * 2048 + s.val) * 11008 + n.val = (a.val * 2048 + s.val) * 11008 + n.val
    rfl)).trans ?_
  exact slice2_axis1_apply 0 Y slices_S4096x11264_S4096x11008_0_0 _ n ⟨n.val, by omega⟩ (by simp)

/-- The program's result at batch a, row s, column n is what the pipeline leaves in its output array at row
    2048 a + s, column n: the host cuts the padding columns off and splits the rows into the two batches. -/
theorem tail_apply (dats : (p : Fin 1) → (c : Dev nD) → Pipeline.Dat τ (Elt Ideal) Unit ℕ (UR sig nD τ) ℕ (cfgs p) c) (c : Dev nD)
    (a : Fin 2) (s : Fin 2048) (n : Fin 11008) :
    (Pipeline.afterTail₀ cfgs dats 0 (V0 m) [hostOps1] c main_v23 : S2x2048x11008.Idx → EReal) (ix3 a s n)
      = ((dats 0 c).arrAt 5 cfg0.N : S4096x11264.Idx → EReal)
          (ix2 (⟨a.val * 2048 + s.val, by omega⟩ : Fin 4096) (⟨n.val, by omega⟩ : Fin 11264)) := by
  unfold Pipeline.afterTail₀
  show StableHlo.after hostOps1 _ (Proc.devRef .tc main_v23) (ix3 a s n) = _
  after_results
  show shapeCast S2x2048x11008
      (extractStridedSlice S4096x11008 ![0, 0] (_ : S4096x11264.Idx → EReal) slices_S4096x11264_S4096x11008_0_0)
      shapeCasts_S4096x11008_S2x2048x11008 (ix3 a s n) = _
  refine (cut_split_apply _ a s n).trans ?_
  exact congrFun (Pipeline.withArrays_arr spec0 launch0.win.arr_inj c _ _ 5) _

end Cert.KernelIdeal.HostVal
end
-- ==== Proof.KIValue.lean ====
/-
  The value the kernel leaves in its output array, over the extended reals.

  The weight tile of a point (n, m, k) holds at (r, c) the dequantized weight of input feature 1024 k + r and output
  column 1024 n + c. The accumulator after the point (n, m, 3) is the sum of the four products of the points
  (n, m, 0) … (n, m, 3), each a sum over 1024 input features: together the sum over all 4096 of them of the activation
  at global row 1024 m + r times the dequantized weight. The output block adds the bias of the column, and the output
  array at (R, N) is what the point (N / 1024, R / 1024, 3) left in the output block at (R mod 1024, N mod 1024).
-/
import proofs.«410261_j36936718745876_3_alg».proof.Proof.KIRead
import proofs.«410261_j36936718745876_3_alg».proof.Proof.KIPay
import proofs.«410261_j36936718745876_3_alg».proof.Proof.KIHost
import proofs.«410261_j36936718745876_3_alg».proof.Proof.Spec
import Idealize.ShloMosaic.Lib.ValueIdx

set_option maxRecDepth 16384

noncomputable section

namespace Cert.KernelIdeal.Hand

open Idealize.ShloMosaic Idealize.ShloMosaic.TcCoe
open Idealize.SL.Sem
open Idealize.ShloMosaic.Pipeline (Dat Cfg Window BodyObligation cellOf)
open Cert.KernelIdeal Cert.KernelIdeal.Gen
open Idealize.ShloMosaic.ValueIdx

theorem div8_lt (k : Fin 4096) : k.val / 8 < 512 := by omega
theorem div128_lt (k : Fin 4096) : k.val / 128 < 32 := by omega
theorem coldiv8_lt (n : Fin 11008) : n.val / 8 < 1376 := by omega

/-- The dequantized weight read through coordinates that are only known by their values. -/
theorem deq_of_coords (qw : S512x11008.Idx → BitVec 32) (zq : S32x1376.Idx → BitVec 32) (sc : S32x11008.Idx → EReal)
    (k : Fin 4096) (n : Fin 11008) (a : Fin 512) (n1 n3 : Fin 11008) (g2 g3 : Fin 32) (c8 : Fin 1376) (j1 j2 : ℕ)
    (ha : a.val = k.val / 8) (hn1 : n1.val = n.val) (hj1 : j1 = k.val % 8) (hg2 : g2.val = k.val / 128)
    (hc8 : c8.val = n.val / 8) (hj2 : j2 = n.val % 8) (hg3 : g3.val = k.val / 128) (hn3 : n3.val = n.val) :
    ((((Cert.Spec.nib (qw (ix2 a n1)) j1).toInt : ℝ) : EReal) - (((Cert.Spec.nib (zq (ix2 g2 c8)) j2).toInt : ℝ) : EReal))
        * sc (ix2 g3 n3)
      = Cert.Spec.deq qw zq sc k n := by
  have ea : a = ⟨k.val / 8, div8_lt k⟩ := Fin.ext ha
  have en1 : n1 = n := Fin.ext hn1
  have en3 : n3 = n := Fin.ext hn3
  have eg2 : g2 = ⟨k.val / 128, div128_lt k⟩ := Fin.ext hg2
  have eg3 : g3 = ⟨k.val / 128, div128_lt k⟩ := Fin.ext hg3
  have ec8 : c8 = ⟨n.val / 8, coldiv8_lt n⟩ := Fin.ext hc8
  rw [ea, en1, en3, eg2, eg3, ec8, hj1, hj2]
  rfl

/-- One term of the result's sum: the activation of row (a, s) at input feature kk times the dequantized weight of
    feature kk and column n. -/
def termOf (x : S2x2048x4096.Idx → EReal) (qw : S512x11008.Idx → BitVec 32) (zq : S32x1376.Idx → BitVec 32)
    (sc : S32x11008.Idx → EReal) (a : Fin 2) (s : Fin 2048) (n : Fin 11008) (kk : Fin 4096) : EReal :=
  x (ix3 a s kk) * Cert.Spec.deq qw zq sc kk n

/-- A term of the sum read through coordinates that are only known by their values. -/
theorem term_of_coords (x : S2x2048x4096.Idx → EReal) (qw : S512x11008.Idx → BitVec 32) (zq : S32x1376.Idx → BitVec 32)
    (sc : S32x11008.Idx → EReal) (a a' : Fin 2) (s s' : Fin 2048) (k k' k'' : Fin 4096) (n n' : Fin 11008)
    (ha : a'.val = a.val) (hs : s'.val = s.val) (hk : k'.val = k.val) (hk' : k''.val = k.val) (hn : n'.val = n.val) :
    x (ix3 a' s' k') * Cert.Spec.deq qw zq sc k'' n' = termOf x qw zq sc a s n k := by
  rw [Fin.ext ha, Fin.ext hs, Fin.ext hk, Fin.ext hk', Fin.ext hn]
  rfl

/-- The bias read through a coordinate that is only known by its value. -/
theorem bias_of_coords (b : S11008.Idx → EReal) (n n' : Fin 11008) (h : n'.val = n.val) : b (ix1 n') = b (ix1 n) := by
  rw [Fin.ext h]

variable (m : (ℓ : Loc nD τ sig) → Buf (Elt Ideal) ℓ)

/-- The dequantized weight tile at an index is the dequantized weight at the global row and column. -/
theorem wTile_apply (c : Dev nD) (t : Fin cfg0.N) (r col : Fin 1024) (hcol : 1024 * (t.val / 16) + col.val < 11008) :
    (wTile m c t : Vec Ideal S1024x1024 .bf16) (ix2 r col)
      = Cert.Spec.deq (m ((c : Thread nD τ).loc main_arg1)) (m ((c : Thread nD τ).loc main_arg2)) (m ((c : Thread nD τ).loc main_arg3))
          (⟨1024 * (t.val % 4) + r.val, by omega⟩ : Fin 4096) (⟨1024 * (t.val / 16) + col.val, hcol⟩ : Fin 11008) := by
  have ht : t.val < 176 := lt_of_lt_of_eq t.isLt N176
  have hk : (fillPt t).val % 4 = t.val % 4 := by rw [fillPt_val]; omega
  have hn : (fillPt t).val / 16 = t.val / 16 := by rw [fillPt_val]; omega
  have hcol' : 1024 * ((fillPt t).val / 16) + col.val < 11008 := by omega
  unfold wTile
  rw [Pay.pay1_apply, iblk1_apply, iblk2_apply, iblk3_apply,
    HostVal.qw_apply m c, HostVal.zeros_apply m c, HostVal.scales_apply m c]
  rotate_left
  · exact hcol'
  · exact hcol'
  · exact hcol'
  refine deq_of_coords _ _ _ _ _ _ _ _ _ _ _ _ _ ?_ ?_ ?_ ?_ ?_ ?_ ?_ ?_
  all_goals (dsimp only; omega)

/-- One term of the result's sum for the program's arrays. -/
def rowTerm (c : Dev nD) (a : Fin 2) (s : Fin 2048) (n : Fin 11008) (kk : Fin 4096) : EReal :=
  termOf (m ((c : Thread nD τ).loc main_arg0)) (m ((c : Thread nD τ).loc main_arg1)) (m ((c : Thread nD τ).loc main_arg2))
    (m ((c : Thread nD τ).loc main_arg3)) a s n kk

/-- The accumulator after a point (n, m, k) at (r, col): what it was given (zero where k = 0, else what the point before
    left) plus the 1024 terms of input features 1024 k … 1024 k + 1023, for the global row 1024 m + r = 2048 a + s and
    the global column 1024 n + col. -/
theorem acc_step (c : Dev nD) (n : ℕ) (hn : n < cfg0.N) (r col : Fin 1024) (a : Fin 2) (s : Fin 2048) (N : Fin 11008) (J : ℕ)
    (hN : N.val = 1024 * (n / 16) + col.val) (hrow : 1024 * ((n / 4) % 4) + r.val = a.val * 2048 + s.val)
    (hJ : J = 1024 * (n % 4)) :
    (accAt m c n hn : Vec Ideal S1024x1024 .f32) (ix2 r col)
      = (if n % 4 = 0 then (k0_pay2 (F := Ideal) : Vec Ideal S1024x1024 .f32)
          else accAt m c (n - 1) (Nat.lt_of_le_of_lt (Nat.sub_le _ _) hn)) (ix2 r col)
        + ∑ k : Fin 1024, rowTerm m c a s N ⟨J + k.val, by omega⟩ := by
  have hn' : n < 176 := lt_of_lt_of_eq hn N176
  have hcol : 1024 * (n / 16) + col.val < 11008 := by have := N.isLt; omega
  rw [show accAt m c n hn = k0_pay3 (wTile m c ⟨n, hn⟩) (iblk m c 0 ⟨n, hn⟩)
      (if n % 4 = 0 then k0_pay2 (F := Ideal) else accAt m c (n - 1) (Nat.lt_of_le_of_lt (Nat.sub_le _ _) hn))
      from accAt_eq m c ⟨n, hn⟩]
  rw [Pay.pay3_apply]
  congr 1
  refine Finset.sum_congr rfl (fun k _ => ?_)
  rw [iblk0_apply, wTile_apply m c ⟨n, hn⟩ k col hcol, HostVal.x2_apply]
  unfold rowTerm
  refine term_of_coords _ _ _ _ _ _ _ _ _ _ _ _ _ ?_ ?_ ?_ ?_ ?_
  all_goals (dsimp only; omega)

/-- The accumulator after the point (n, m, 3) at (r, col): the sum over all 4096 input features of the activation at the
    global row 1024 m + r = 2048 a + s times the dequantized weight at the global column 1024 n + col. -/
theorem acc_last (c : Dev nD) (t : Fin cfg0.N) (h3 : t.val % 4 = 3) (r col : Fin 1024) (a : Fin 2) (s : Fin 2048)
    (N : Fin 11008) (hN : N.val = 1024 * (t.val / 16) + col.val)
    (hrow : 1024 * ((t.val / 4) % 4) + r.val = a.val * 2048 + s.val) :
    (accAt m c t.val t.isLt : Vec Ideal S1024x1024 .f32) (ix2 r col) = ∑ kk : Fin 4096, rowTerm m c a s N kk := by
  have ht : t.val < 176 := lt_of_lt_of_eq t.isLt N176
  have h1 : t.val - 1 < cfg0.N := Nat.lt_of_le_of_lt (Nat.sub_le _ _) t.isLt
  have h2 : t.val - 1 - 1 < cfg0.N := Nat.lt_of_le_of_lt (Nat.sub_le _ _) h1
  have h0 : t.val - 1 - 1 - 1 < cfg0.N := Nat.lt_of_le_of_lt (Nat.sub_le _ _) h2
  have e3 : ¬ t.val % 4 = 0 := by omega
  have e2 : ¬ (t.val - 1) % 4 = 0 := by omega
  have e1 : ¬ (t.val - 1 - 1) % 4 = 0 := by omega
  have e0 : (t.val - 1 - 1 - 1) % 4 = 0 := by omega
  rw [acc_step m c t.val t.isLt r col a s N 3072 (by omega) (by omega) (by omega), if_neg e3,
    acc_step m c (t.val - 1) h1 r col a s N 2048 (by omega) (by omega) (by omega), if_neg e2,
    acc_step m c (t.val - 1 - 1) h2 r col a s N 1024 (by omega) (by omega) (by omega), if_neg e1,
    acc_step m c (t.val - 1 - 1 - 1) h0 r col a s N 0 (by omega) (by omega) (by omega), if_pos e0,
    Pay.pay2_apply]
  have z : ∑ k : Fin 1024, rowTerm m c a s N ⟨0 + k.val, by omega⟩ = ∑ k : Fin 1024, rowTerm m c a s N ⟨k.val, by omega⟩ :=
    Finset.sum_congr rfl (fun k _ => congrArg (rowTerm m c a s N) (Fin.ext (Nat.zero_add _)))
  rw [z]
  exact Pay.sum_blocks (rowTerm m c a s N)

/-- THE VALUE OF THE OUTPUT ARRAY: at row 2048 a + s and column n < 11008 the kernel's output array holds the result
    function of the program's five argument arrays at (a, s, n): the sum over the 4096 input features of the activation
    times the dequantized weight, plus the bias of the column. -/
theorem out_value (c : Dev nD) (a : Fin 2) (s : Fin 2048) (n : Fin 11008) :
    ((dats m 0 c).arrAt 5 cfg0.N : S4096x11264.Idx → EReal)
        (ix2 (⟨a.val * 2048 + s.val, by omega⟩ : Fin 4096) (⟨n.val, by omega⟩ : Fin 11264))
      = Cert.Spec.Gat (m ((c : Thread nD τ).loc main_arg0)) (m ((c : Thread nD τ).loc main_arg1))
          (m ((c : Thread nD τ).loc main_arg2)) (m ((c : Thread nD τ).loc main_arg3)) (m ((c : Thread nD τ).loc main_arg4)) a s n := by
  have hR : a.val * 2048 + s.val < 4096 := by omega
  have hN : n.val < 11264 := by omega
  have hv : (outPt (⟨a.val * 2048 + s.val, hR⟩ : Fin 4096) (⟨n.val, hN⟩ : Fin 11264)).val
      = 16 * (n.val / 1024) + 4 * ((a.val * 2048 + s.val) / 1024) + 3 := rfl
  have hacc := acc_last m c (outPt (⟨a.val * 2048 + s.val, hR⟩ : Fin 4096) (⟨n.val, hN⟩ : Fin 11264)) (by omega)
    (⟨(a.val * 2048 + s.val) % 1024, by omega⟩ : Fin 1024) (⟨n.val % 1024, by omega⟩ : Fin 1024) a s n
    (by dsimp only; omega) (by dsimp only; omega)
  rw [out_final]
  unfold outAt
  rw [Pay.pay4_apply, iblk4_apply, HostVal.bias_apply m c]
  rotate_left
  · dsimp only; omega
  unfold Cert.Spec.Gat
  refine congrArg₂ (· + ·) ?_ ?_
  · exact hacc
  · exact bias_of_coords _ _ _ (by dsimp only; omega)

end Cert.KernelIdeal.Hand

end
-- ==== Proof.KIFinal.lean ====
/-
  The idealized kernel's run with its result named: the program's result array holds `Cert.Spec.G` of the five argument
  arrays. The result is the pipeline's output array, cut back to 11008 columns and regrouped to [2, 2048, 11008] by the
  two host operations after the region; the output array's entries are the accumulated products plus the bias.
-/
import proofs.«410261_j36936718745876_3_alg».proof.Proof.KIOblig
import proofs.«410261_j36936718745876_3_alg».proof.Proof.KIValue
import proofs.«410261_j36936718745876_3_alg».proof.Proof.KIHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- What the lines after the region leave in the result buffer. -/
theorem result_eq (c : Dev nD) :
    (Pipeline.afterTail₀ cfgs (dats m) 0 (V0 m) [hostOps1] c main_v23 : S2x2048x11008.Idx → EReal)
      = Cert.Spec.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext j
  obtain ⟨a, s, n, rfl⟩ : ∃ (a : Fin 2) (s : Fin 2048) (n : Fin 11008), j = ix3 a s n := ⟨j 0, j 1, j 2, eq_ix3 j⟩
  rw [Cert.Spec.G_ix3]
  exact (Cert.KernelIdeal.HostVal.tail_apply m (dats m) c a s n).trans (out_value m c a s n)

/-- Every weakly fair execution of the idealized kernel's @main terminates with the result at `Cert.Spec.G` of the
    arguments and the arguments unchanged. -/
theorem run_value : θ_run (defs (F := Ideal)) (onTc (τ := τ) (main (F := Ideal))) ⟨m, fun _ => 0, ρ⟩ (fun r => ∀ c : Dev nD,
      r.2.mem ((c.tc : Thread nD τ).loc main_v23) = Cert.Spec.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v23 (Pipeline.mem_restRefs_of main_v23 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main (F := Ideal) m ρ)

end Cert.KernelIdeal.Hand

end
-- ==== Proof.RefRun.lean ====
/-
  The reference program's @main as the list of its 72 host operations, in order, the two outlined functions
  unfolded at their call sites: @floor_divide's sixteen operations over the buffers of its one call, and within
  them @_where's select. Every weakly fair execution of @main terminates with each buffer at the fold of the
  operations' results over the launch contents.
-/
import proofs.«410261_j36936718745876_3_alg».proof.ReferenceIdeal
import proofs.«410261_j36936718745876_3_alg».proof.Proof.Gen.ReferenceIdeal
import Idealize.ShloMosaic.Lib.StableHlo.Run
import Idealize.ShloMosaic.Lib.Pipeline.Regions

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- @main's 72 operations, in order: twenty-nine of its own (the shift amounts, the two unpackings, the row
    counter and the group size), @floor_divide's seventeen (its sixteen and @_where's select, which writes the
    call's result), then twenty-six of its own (the two wrapped index vectors, the two row gathers, the
    dequantized weight, the product, the bias and the final reshape). -/
abbrev ops : List (HloOp τ sig (Elt F)) :=
  [ nullary main_v0 (iotaInDim S8 32 0),
    nullary main_c (constantI S_ 32 4#32),
    unary main_c main_v1 (broadcastInDim S8 ![] bcast_S_S8 : (⟨S_, .i32⟩ : BufTy).Contents (Elt F) → (⟨S8, .i32⟩ : BufTy).Contents (Elt F)),
    binary main_v1 main_v0 main_v2 (muli : (⟨S8, .i32⟩ : BufTy).Contents (Elt F) → (⟨S8, .i32⟩ : BufTy).Contents (Elt F) → (⟨S8, .i32⟩ : BufTy).Contents (Elt F)),
    nullary main_c_0 (constantI S_ 32 0#32),
    unary main_c_0 main_v3 (broadcastInDim S8 ![] bcast_S_S8 : (⟨S_, .i32⟩ : BufTy).Contents (Elt F) → (⟨S8, .i32⟩ : BufTy).Contents (Elt F)),
    binary main_v3 main_v2 main_v4 (addi : (⟨S8, .i32⟩ : BufTy).Contents (Elt F) → (⟨S8, .i32⟩ : BufTy).Contents (Elt F) → (⟨S8, .i32⟩ : BufTy).Contents (Elt F)),
    unary main_arg1 main_v5 (broadcastInDim S512x1x11008 ![0, 2] bcast_S512x11008_S512x1x11008_0_2 : (⟨S512x11008, .i32⟩ : BufTy).Contents (Elt F) → (⟨S512x1x11008, .i32⟩ : BufTy).Contents (Elt F)),
    unary main_v4 main_v6 (broadcastInDim S1x8x1 ![1] bcast_S8_S1x8x1_1 : (⟨S8, .i32⟩ : BufTy).Contents (Elt F) → (⟨S1x8x1, .i32⟩ : BufTy).Contents (Elt F)),
    unary main_v5 main_v7 (broadcastInDim S512x8x11008 ![0, 1, 2] bcast_S512x1x11008_S512x8x11008_0_1_2 : (⟨S512x1x11008, .i32⟩ : BufTy).Contents (Elt F) → (⟨S512x8x11008, .i32⟩ : BufTy).Contents (Elt F)),
    unary main_v6 main_v8 (broadcastInDim S512x8x11008 ![0, 1, 2] bcast_S1x8x1_S512x8x11008_0_1_2 : (⟨S1x8x1, .i32⟩ : BufTy).Contents (Elt F) → (⟨S512x8x11008, .i32⟩ : BufTy).Contents (Elt F)),
    binary main_v7 main_v8 main_v9 (Host.shrsi : (⟨S512x8x11008, .i32⟩ : BufTy).Contents (Elt F) → (⟨S512x8x11008, .i32⟩ : BufTy).Contents (Elt F) → (⟨S512x8x11008, .i32⟩ : BufTy).Contents (Elt F)),
    nullary main_c_1 (constantI S_ 32 15#32),
    unary main_c_1 main_v10 (broadcastInDim S512x8x11008 ![] bcast_S_S512x8x11008 : (⟨S_, .i32⟩ : BufTy).Contents (Elt F) → (⟨S512x8x11008, .i32⟩ : BufTy).Contents (Elt F)),
    binary main_v9 main_v10 main_v11 (andi : (⟨S512x8x11008, .i32⟩ : BufTy).Contents (Elt F) → (⟨S512x8x11008, .i32⟩ : BufTy).Contents (Elt F) → (⟨S512x8x11008, .i32⟩ : BufTy).Contents (Elt F)),
    reshape main_v11 main_v12 rfl shapeCasts_S512x8x11008_S4096x11008,
    unary main_v12 main_v13 (sitofp .f32 : (⟨S4096x11008, .i32⟩ : BufTy).Contents (Elt F) → (⟨S4096x11008, .f32⟩ : BufTy).Contents (Elt F)),
    unary main_arg2 main_v14 (broadcastInDim S32x1376x1 ![0, 1] bcast_S32x1376_S32x1376x1_0_1 : (⟨S32x1376, .i32⟩ : BufTy).Contents (Elt F) → (⟨S32x1376x1, .i32⟩ : BufTy).Contents (Elt F)),
    unary main_v4 main_v15 (broadcastInDim S1x1x8 ![2] bcast_S8_S1x1x8_2 : (⟨S8, .i32⟩ : BufTy).Contents (Elt F) → (⟨S1x1x8, .i32⟩ : BufTy).Contents (Elt F)),
    unary main_v14 main_v16 (broadcastInDim S32x1376x8 ![0, 1, 2] bcast_S32x1376x1_S32x1376x8_0_1_2 : (⟨S32x1376x1, .i32⟩ : BufTy).Contents (Elt F) → (⟨S32x1376x8, .i32⟩ : BufTy).Contents (Elt F)),
    unary main_v15 main_v17 (broadcastInDim S32x1376x8 ![0, 1, 2] bcast_S1x1x8_S32x1376x8_0_1_2 : (⟨S1x1x8, .i32⟩ : BufTy).Contents (Elt F) → (⟨S32x1376x8, .i32⟩ : BufTy).Contents (Elt F)),
    binary main_v16 main_v17 main_v18 (Host.shrsi : (⟨S32x1376x8, .i32⟩ : BufTy).Contents (Elt F) → (⟨S32x1376x8, .i32⟩ : BufTy).Contents (Elt F) → (⟨S32x1376x8, .i32⟩ : BufTy).Contents (Elt F)),
    nullary main_c_2 (constantI S_ 32 15#32),
    unary main_c_2 main_v19 (broadcastInDim S32x1376x8 ![] bcast_S_S32x1376x8 : (⟨S_, .i32⟩ : BufTy).Contents (Elt F) → (⟨S32x1376x8, .i32⟩ : BufTy).Contents (Elt F)),
    binary main_v18 main_v19 main_v20 (andi : (⟨S32x1376x8, .i32⟩ : BufTy).Contents (Elt F) → (⟨S32x1376x8, .i32⟩ : BufTy).Contents (Elt F) → (⟨S32x1376x8, .i32⟩ : BufTy).Contents (Elt F)),
    reshape main_v20 main_v21 rfl shapeCasts_S32x1376x8_S32x11008,
    unary main_v21 main_v22 (sitofp .f32 : (⟨S32x11008, .i32⟩ : BufTy).Contents (Elt F) → (⟨S32x11008, .f32⟩ : BufTy).Contents (Elt F)),
    nullary main_v23 (iotaInDim S4096 32 0),
    nullary main_c_3 (constantI S_ 32 128#32),
    TRef.unary (.of main_c_3) main_call0.v0 id,
    TRef.unary main_call0.v0 main_call0.v1 (broadcastInDim S4096 ![] bcast_S_S4096),
    TRef.binary (.of main_v23) main_call0.v1 main_call0.v2 Host.divsi,
    TRef.unary (.of main_v23) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (.of main_v23) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select,
    nullary main_c_4 (constantI S_ 32 0#32),
    unary main_c_4 main_v25 (broadcastInDim S4096 ![] bcast_S_S4096 : (⟨S_, .i32⟩ : BufTy).Contents (Elt F) → (⟨S4096, .i32⟩ : BufTy).Contents (Elt F)),
    binary main_v24 main_v25 main_v26 (cmpi .slt : (⟨S4096, .i32⟩ : BufTy).Contents (Elt F) → (⟨S4096, .i32⟩ : BufTy).Contents (Elt F) → (⟨S4096, .i1⟩ : BufTy).Contents (Elt F)),
    nullary main_c_5 (constantI S_ 32 32#32),
    unary main_c_5 main_v27 (broadcastInDim S4096 ![] bcast_S_S4096 : (⟨S_, .i32⟩ : BufTy).Contents (Elt F) → (⟨S4096, .i32⟩ : BufTy).Contents (Elt F)),
    binary main_v24 main_v27 main_v28 (addi : (⟨S4096, .i32⟩ : BufTy).Contents (Elt F) → (⟨S4096, .i32⟩ : BufTy).Contents (Elt F) → (⟨S4096, .i32⟩ : BufTy).Contents (Elt F)),
    ternary main_v26 main_v28 main_v24 main_v29 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v29 main_v30 (broadcastInDim S4096x1 ![0] bcast_S4096_S4096x1_0 : (⟨S4096, .i32⟩ : BufTy).Contents (Elt F) → (⟨S4096x1, .i32⟩ : BufTy).Contents (Elt F)),
    binary main_v22 main_v30 main_v31 ((fun x i => Host.gather gather_S32x11008_S4096x1_S4096x11008_1_0_n_n_0_1_111008 x i) : (⟨S32x11008, .f32⟩ : BufTy).Contents (Elt F) → (⟨S4096x1, .i32⟩ : BufTy).Contents (Elt F) → (⟨S4096x11008, .f32⟩ : BufTy).Contents (Elt F)),
    binary main_v13 main_v31 main_v32 (subf : (⟨S4096x11008, .f32⟩ : BufTy).Contents (Elt F) → (⟨S4096x11008, .f32⟩ : BufTy).Contents (Elt F) → (⟨S4096x11008, .f32⟩ : BufTy).Contents (Elt F)),
    nullary main_c_6 (constantI S_ 32 0#32),
    unary main_c_6 main_v33 (broadcastInDim S4096 ![] bcast_S_S4096 : (⟨S_, .i32⟩ : BufTy).Contents (Elt F) → (⟨S4096, .i32⟩ : BufTy).Contents (Elt F)),
    binary main_v24 main_v33 main_v34 (cmpi .slt : (⟨S4096, .i32⟩ : BufTy).Contents (Elt F) → (⟨S4096, .i32⟩ : BufTy).Contents (Elt F) → (⟨S4096, .i1⟩ : BufTy).Contents (Elt F)),
    nullary main_c_7 (constantI S_ 32 32#32),
    unary main_c_7 main_v35 (broadcastInDim S4096 ![] bcast_S_S4096 : (⟨S_, .i32⟩ : BufTy).Contents (Elt F) → (⟨S4096, .i32⟩ : BufTy).Contents (Elt F)),
    binary main_v24 main_v35 main_v36 (addi : (⟨S4096, .i32⟩ : BufTy).Contents (Elt F) → (⟨S4096, .i32⟩ : BufTy).Contents (Elt F) → (⟨S4096, .i32⟩ : BufTy).Contents (Elt F)),
    ternary main_v34 main_v36 main_v24 main_v37 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v37 main_v38 (broadcastInDim S4096x1 ![0] bcast_S4096_S4096x1_0 : (⟨S4096, .i32⟩ : BufTy).Contents (Elt F) → (⟨S4096x1, .i32⟩ : BufTy).Contents (Elt F)),
    binary main_arg3 main_v38 main_v39 ((fun x i => Host.gather gather_S32x11008_S4096x1_S4096x11008_1_0_n_n_0_1_111008 x i) : (⟨S32x11008, .f32⟩ : BufTy).Contents (Elt F) → (⟨S4096x1, .i32⟩ : BufTy).Contents (Elt F) → (⟨S4096x11008, .f32⟩ : BufTy).Contents (Elt F)),
    binary main_v32 main_v39 main_v40 (mulf : (⟨S4096x11008, .f32⟩ : BufTy).Contents (Elt F) → (⟨S4096x11008, .f32⟩ : BufTy).Contents (Elt F) → (⟨S4096x11008, .f32⟩ : BufTy).Contents (Elt F)),
    reshape main_arg0 main_v41 rfl shapeCasts_S2x2048x4096_S4096x4096,
    binary main_v41 main_v40 main_v42 ((fun l r => Host.dotGeneral dot_S4096x4096_S4096x11008_S4096x11008_1_0_0_1_n_n none l r) : (⟨S4096x4096, .f32⟩ : BufTy).Contents (Elt F) → (⟨S4096x11008, .f32⟩ : BufTy).Contents (Elt F) → (⟨S4096x11008, .f32⟩ : BufTy).Contents (Elt F)),
    unary main_arg4 main_v43 (broadcastInDim S1x11008 ![1] bcast_S11008_S1x11008_1 : (⟨S11008, .f32⟩ : BufTy).Contents (Elt F) → (⟨S1x11008, .f32⟩ : BufTy).Contents (Elt F)),
    unary main_v43 main_v44 (broadcastInDim S4096x11008 ![0, 1] bcast_S1x11008_S4096x11008_0_1 : (⟨S1x11008, .f32⟩ : BufTy).Contents (Elt F) → (⟨S4096x11008, .f32⟩ : BufTy).Contents (Elt F)),
    binary main_v42 main_v44 main_v45 (addf : (⟨S4096x11008, .f32⟩ : BufTy).Contents (Elt F) → (⟨S4096x11008, .f32⟩ : BufTy).Contents (Elt F) → (⟨S4096x11008, .f32⟩ : BufTy).Contents (Elt F)),
    reshape main_v45 main_v46 rfl shapeCasts_S4096x11008_S2x2048x11008 ]

/-- @main is that straight line: with the two functions' definitions unfolded at their calls, both sides are one
    chain of host steps, equal by unfolding. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., reshape_bufs_sub .., unary_bufs_sub .., unary_bufs_sub .., unary_bufs_sub .., unary_bufs_sub .., unary_bufs_sub .., binary_bufs_sub .., nullary_bufs_sub .., unary_bufs_sub .., binary_bufs_sub .., reshape_bufs_sub .., unary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., binary_bufs_sub .., unary_bufs_sub .., unary_bufs_sub .., binary_bufs_sub .., reshape_bufs_sub ..⟩

/-- For any float values, from any memory with zero counters: every weakly fair execution of @main terminates,
    and every final state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.RefValueA.lean ====
/-
  The reference's composed term, named piece by piece, and what it is at the ideal values.

  The shift amounts are 0, 4, …, 28; the packed words, copied along a new axis of eight, are shifted right by them
  and masked to four bits, and the reshape to 4096 rows puts nibble (k mod 8) of word (k / 8) in row k (for the
  zero points: nibble (n mod 8) of word (n / 8) in column n). The row counter floor-divided by 128 is the group of
  a row; the two row gathers read the zero points' and the scales' row of that group. The product with the
  dequantized weight is a sum over the 4096 input features, the bias is added along the rows, and the final reshape
  puts row a · 2048 + s at (a, s).
-/
import proofs.«410261_j36936718745876_3_alg».proof.ReferenceIdeal
import proofs.«410261_j36936718745876_3_alg».proof.Proof.Spec
import proofs.«410261_j36936718745876_3_alg».proof.Proof.LibIndex
import Idealize.ShloMosaic.PureOps.Ideal.Laws
import Idealize.ShloMosaic.Lib.ValueIdx
import Idealize.ShloMosaic.Lib.IdealHost
import Idealize.ShloMosaic.Lib.Pipeline.Value
import Idealize.ShloMosaic.Lib.Decide

noncomputable section

open scoped BigOperators

namespace Cert.ReferenceIdeal.Hand

open Cert.ReferenceIdeal Idealize.ShloMosaic Idealize.ShloMosaic.ValueIdx

variable {F : FTy → Type} [FloatOps F] [Facts]
open Facts₀ Facts

/-! ## The composed term -/

/-- The shift amounts: zero plus four times the counter 0 … 7. -/
def shifts : IVec S8 32 :=
  addi (broadcastInDim S8 ![] bcast_S_S8 (constantI S_ 32 0#32))
    (muli (broadcastInDim S8 ![] bcast_S_S8 (constantI S_ 32 4#32)) (iotaInDim S8 32 0))

/-- The packed weights' eight nibbles per word, on a new middle axis. -/
def wNib (qw : IVec S512x11008 32) : IVec S512x8x11008 32 :=
  andi
    (Host.shrsi
      (broadcastInDim S512x8x11008 ![0, 1, 2] bcast_S512x1x11008_S512x8x11008_0_1_2
        (broadcastInDim S512x1x11008 ![0, 2] bcast_S512x11008_S512x1x11008_0_2 qw))
      (broadcastInDim S512x8x11008 ![0, 1, 2] bcast_S1x8x1_S512x8x11008_0_1_2
        (broadcastInDim S1x8x1 ![1] bcast_S8_S1x8x1_1 shifts)))
    (broadcastInDim S512x8x11008 ![] bcast_S_S512x8x11008 (constantI S_ 32 15#32))

/-- The quantized weights as floats, one row per input feature. -/
def wq (qw : IVec S512x11008 32) : FVec F S4096x11008 .f32 :=
  sitofp .f32 (shapeCast S4096x11008 (wNib qw) shapeCasts_S512x8x11008_S4096x11008)

/-- The packed zero points' eight nibbles per word, on a new last axis. -/
def zNib (zq : IVec S32x1376 32) : IVec S32x1376x8 32 :=
  andi
    (Host.shrsi
      (broadcastInDim S32x1376x8 ![0, 1, 2] bcast_S32x1376x1_S32x1376x8_0_1_2
        (broadcastInDim S32x1376x1 ![0, 1] bcast_S32x1376_S32x1376x1_0_1 zq))
      (broadcastInDim S32x1376x8 ![0, 1, 2] bcast_S1x1x8_S32x1376x8_0_1_2
        (broadcastInDim S1x1x8 ![2] bcast_S8_S1x1x8_2 shifts)))
    (broadcastInDim S32x1376x8 ![] bcast_S_S32x1376x8 (constantI S_ 32 15#32))

/-- The zero points as floats, one column per output feature. -/
def zf (zq : IVec S32x1376 32) : FVec F S32x11008 .f32 :=
  sitofp .f32 (shapeCast S32x11008 (zNib zq) shapeCasts_S32x1376x8_S32x11008)

/-- The row counter 0 … 4095. -/
def rowCtr : IVec S4096 32 := iotaInDim S4096 32 0
/-- The group size, a scalar. -/
def gsz : IVec S_ 32 := id (constantI S_ 32 128#32)
/-- The quotient rounded toward zero. -/
def gquot : IVec S4096 32 := Host.divsi rowCtr (broadcastInDim S4096 ![] bcast_S_S4096 gsz)

/-- The row counter floor-divided by the group size: the quotient rounded toward zero, less one where the signs
    differ and the remainder is not zero. -/
def gdiv : IVec S4096 32 :=
  select
    (andi
      (cmpi .ne (signi rowCtr) (broadcastInDim S4096 ![] bcast_S_S4096 (signi gsz)))
      (cmpi .ne (Host.remsi rowCtr (broadcastInDim S4096 ![] bcast_S_S4096 gsz))
        (broadcastInDim S4096 ![] bcast_S_S4096 (constantI S_ 32 0#32))))
    (subi gquot (broadcastInDim S4096 ![] bcast_S_S4096 (constantI S_ 32 1#32)))
    gquot

/-- The group index as an index into 32 rows: a negative one counted from the end. -/
def gwrap : IVec S4096 32 :=
  select (cmpi .slt gdiv (broadcastInDim S4096 ![] bcast_S_S4096 (constantI S_ 32 0#32)))
    (addi gdiv (broadcastInDim S4096 ![] bcast_S_S4096 (constantI S_ 32 32#32)))
    gdiv

/-- The group indices as a column of start indices. -/
def gcol : IVec S4096x1 32 := broadcastInDim S4096x1 ![0] bcast_S4096_S4096x1_0 gwrap

/-- The dequantized weight: (q − zero of the row's group) · scale of the row's group. -/
def deqW (qw : IVec S512x11008 32) (zq : IVec S32x1376 32) (sc : FVec F S32x11008 .f32) : FVec F S4096x11008 .f32 :=
  mulf
    (subf (wq qw) (Host.gather gather_S32x11008_S4096x1_S4096x11008_1_0_n_n_0_1_111008 (zf zq) gcol))
    (Host.gather gather_S32x11008_S4096x1_S4096x11008_1_0_n_n_0_1_111008 sc gcol)

/-- The reference's result: the input as 4096 rows times the dequantized weight, plus the bias on every row, as
    two batches of 2048 rows. -/
def refOut (x : FVec F S2x2048x4096 .f32) (qw : IVec S512x11008 32) (zq : IVec S32x1376 32) (sc : FVec F S32x11008 .f32)
    (b : FVec F S11008 .f32) : FVec F S2x2048x11008 .f32 :=
  shapeCast S2x2048x11008
    (addf
      (Host.dotGeneral dot_S4096x4096_S4096x11008_S4096x11008_1_0_0_1_n_n none
        (shapeCast S4096x4096 x shapeCasts_S2x2048x4096_S4096x4096) (deqW qw zq sc))
      (broadcastInDim S4096x11008 ![0, 1] bcast_S1x11008_S4096x11008_0_1
        (broadcastInDim S1x11008 ![1] bcast_S11008_S1x11008_1 b)))
    shapeCasts_S4096x11008_S2x2048x11008

/-! ## The integer parts, element by element -/

/-- Shift amount `t` is `4 t`. -/
theorem shifts_apply (t : Fin 8) : shifts (ix1 t) = BitVec.ofNat 32 (4 * t.val) := by
  have h : shifts (ix1 t) = 0#32 + 4#32 * BitVec.ofNat 32 t.val := rfl
  rw [h]
  clear h
  revert t
  decide

/-- The group index of row `k`, as a word: the scalar operations of the floor division and of the wrap at `k`. -/
def gS (k : Nat) : BitVec 32 :=
  let n := BitVec.ofNat 32 k
  let q := IntOp.divsi .host n 128#32
  let sgn (x : BitVec 32) : BitVec 32 := if x = 0 then 0 else if x.msb then -1 else 1
  let g := Scalar.select (IntOp.andi (IntOp.cmpi .ne (sgn n) (sgn 128#32)) (IntOp.cmpi .ne (IntOp.remsi .host n 128#32) 0#32))
    (IntOp.subi q 1#32) q
  Scalar.select (IntOp.cmpi .slt g 0#32) (IntOp.addi g 32#32) g

theorem gcol_apply (k : Fin 4096) : gcol (ix2 k (0 : Fin 1)) = gS k.val := rfl

/-- The start index of row `k`, read signed and clamped into the 32 rows, is `k / 128`. -/
theorem gS_row : ∀ k : Fin 4096, min (gS k.val).toInt.toNat (32 - 1) = k.val / 128 := by
  decide +kernel

/-! ## The unpackings -/

/-- A host arithmetic shift by `4 t` bits, `t < 8`, is the plain arithmetic shift: the amount is below the width. -/
theorem shrsi_host_nib (v : BitVec 32) (t : Fin 8) :
    IntOp.shrsi .host v (BitVec.ofNat 32 (4 * t.val)) = v.sshiftRight' (BitVec.ofNat 32 (4 * t.val)) := by
  unfold IntOp.shrsi
  have ht : (BitVec.ofNat 32 (4 * t.val)).toNat < 32 := by
    have := t.isLt
    rw [BitVec.toNat_ofNat]
    omega
  rw [if_pos ht]

/-- Nibble `t` of weight word `(w, n)`. -/
theorem wNib_apply (qw : IVec S512x11008 32) (w : Fin 512) (t : Fin 8) (n : Fin 11008) :
    wNib qw (ix3 w t n) = Cert.Spec.nib (qw (ix2 w n)) t.val := by
  have hA : broadcastInDim S512x8x11008 ![0, 1, 2] bcast_S512x1x11008_S512x8x11008_0_1_2
      (broadcastInDim S512x1x11008 ![0, 2] bcast_S512x11008_S512x1x11008_0_2 qw) (ix3 w t n) = qw (ix2 w n) := by
    rw [broadcastInDim_apply _ _ _ _ (ix3 w (0 : Fin 1) n) (by intro a; fin_cases a <;> rfl),
      broadcastInDim_apply _ _ _ _ (ix2 w n) (by intro a; fin_cases a <;> rfl)]
  have hB : broadcastInDim S512x8x11008 ![0, 1, 2] bcast_S1x8x1_S512x8x11008_0_1_2
      (broadcastInDim S1x8x1 ![1] bcast_S8_S1x8x1_1 shifts) (ix3 w t n) = shifts (ix1 t) := by
    rw [broadcastInDim_apply _ _ _ _ (ix3 (0 : Fin 1) t (0 : Fin 1)) (by intro a; fin_cases a <;> rfl),
      broadcastInDim_apply _ _ _ _ (ix1 t) (by intro a; fin_cases a <;> rfl)]
  show IntOp.andi (IntOp.shrsi .host _ _) 15#32 = _
  rw [hA, hB, shifts_apply, shrsi_host_nib]
  rfl

/-- Nibble `t` of zero-point word `(g, c)`. -/
theorem zNib_apply (zq : IVec S32x1376 32) (g : Fin 32) (c : Fin 1376) (t : Fin 8) :
    zNib zq (ix3 g c t) = Cert.Spec.nib (zq (ix2 g c)) t.val := by
  have hA : broadcastInDim S32x1376x8 ![0, 1, 2] bcast_S32x1376x1_S32x1376x8_0_1_2
      (broadcastInDim S32x1376x1 ![0, 1] bcast_S32x1376_S32x1376x1_0_1 zq) (ix3 g c t) = zq (ix2 g c) := by
    rw [broadcastInDim_apply _ _ _ _ (ix3 g c (0 : Fin 1)) (by intro a; fin_cases a <;> rfl),
      broadcastInDim_apply _ _ _ _ (ix2 g c) (by intro a; fin_cases a <;> rfl)]
  have hB : broadcastInDim S32x1376x8 ![0, 1, 2] bcast_S1x1x8_S32x1376x8_0_1_2
      (broadcastInDim S1x1x8 ![2] bcast_S8_S1x1x8_2 shifts) (ix3 g c t) = shifts (ix1 t) := by
    rw [broadcastInDim_apply _ _ _ _ (ix3 (0 : Fin 1) (0 : Fin 1) t) (by intro a; fin_cases a <;> rfl),
      broadcastInDim_apply _ _ _ _ (ix1 t) (by intro a; fin_cases a <;> rfl)]
  show IntOp.andi (IntOp.shrsi .host _ _) 15#32 = _
  rw [hA, hB, shifts_apply, shrsi_host_nib]
  rfl

/-- The quantized weight at row `k`, column `n`, at the ideal values: nibble `k mod 8` of word `k / 8`, as a real. -/
theorem wq_apply (qw : IVec S512x11008 32) (k : Fin 4096) (n : Fin 11008) :
    (wq qw : FVec Ideal S4096x11008 .f32) (ix2 k n) = Cert.Spec.qAt qw k n := by
  have hk := k.isLt
  have hn := n.isLt
  show (((shapeCast S4096x11008 (wNib qw) shapeCasts_S512x8x11008_S4096x11008 (ix2 k n)).toInt : ℝ) : EReal) = _
  rw [shapeCast_apply _ _ (ix2 k n) (ix3 (⟨k.val / 8, by omega⟩ : Fin 512) (⟨k.val % 8, by omega⟩ : Fin 8) n)
    (by rw [Shape.rowMajor_val_two, Shape.rowMajor_val_three]
        show ((k.val / 8) * 8 + k.val % 8) * 11008 + n.val = k.val * 11008 + n.val
        omega),
    wNib_apply]
  rfl

/-- The zero point at group `g`, column `n`, at the ideal values: nibble `n mod 8` of word `n / 8`, as a real. -/
theorem zf_apply (zq : IVec S32x1376 32) (g : Fin 32) (n : Fin 11008) :
    (zf zq : FVec Ideal S32x11008 .f32) (ix2 g n)
      = (((Cert.Spec.nib (zq (ix2 g (⟨n.val / 8, by omega⟩ : Fin 1376))) (n.val % 8)).toInt : ℝ) : EReal) := by
  have hg := g.isLt
  have hn := n.isLt
  show (((shapeCast S32x11008 (zNib zq) shapeCasts_S32x1376x8_S32x11008 (ix2 g n)).toInt : ℝ) : EReal) = _
  rw [shapeCast_apply _ _ (ix2 g n) (ix3 g (⟨n.val / 8, by omega⟩ : Fin 1376) (⟨n.val % 8, by omega⟩ : Fin 8))
    (by rw [Shape.rowMajor_val_two, Shape.rowMajor_val_three]
        show (g.val * 1376 + n.val / 8) * 8 + n.val % 8 = g.val * 11008 + n.val
        omega),
    zNib_apply]

/-! ## The row gathers -/

/-- A gather of rows at the group indices reads, at row `k`, the operand's row `k / 128`. -/
theorem gather_gcol_apply {α : Type} (x : S32x11008.Idx → α) (k : Fin 4096) (n : Fin 11008) :
    Host.gather gather_S32x11008_S4096x1_S4096x11008_1_0_n_n_0_1_111008 x gcol (ix2 k n)
      = x (ix2 (⟨k.val / 128, by omega⟩ : Fin 32) n) := by
  rw [Cert.LibIndex.gather_row_apply_of (N := 32) (C := 11008) (R := 4096) (by decide)
    gather_S32x11008_S4096x1_S4096x11008_1_0_n_n_0_1_111008 rfl rfl rfl rfl rfl rfl rfl x gcol k n]
  congr 2
  exact Fin.ext ((congrArg (fun v : BitVec 32 => min v.toInt.toNat (32 - 1)) (gcol_apply k)).trans (gS_row k))

/-! ## The dequantized weight, the product, the bias -/

/-- The dequantized weight at row `k`, column `n`. -/
theorem deqW_apply (qw : IVec S512x11008 32) (zq : IVec S32x1376 32) (sc : FVec Ideal S32x11008 .f32)
    (k : Fin 4096) (n : Fin 11008) : deqW qw zq sc (ix2 k n) = Cert.Spec.deq qw zq sc k n := by
  unfold deqW
  rw [mulf_apply, subf_apply, wq_apply, gather_gcol_apply, gather_gcol_apply, zf_apply]
  rfl

/-- The product at row `r`, column `n`: the sum over the 4096 input features. -/
theorem dot_apply (L : FVec Ideal S4096x4096 .f32) (R : FVec Ideal S4096x11008 .f32) (r : Fin 4096) (n : Fin 11008) :
    Host.dotGeneral dot_S4096x4096_S4096x11008_S4096x11008_1_0_0_1_n_n none L R (ix2 r n) = ∑ k : Fin 4096, L (ix2 r k) * R (ix2 k n) := by
  show FloatOps.dotGeneral dot_S4096x4096_S4096x11008_S4096x11008_1_0_0_1_n_n none .single L R (ix2 r n) = _
  rw [Ideal.dotGeneral_apply, ← Equiv.sum_comp (contrEquiv1 dot_S4096x4096_S4096x11008_S4096x11008_1_0_0_1_n_n 4096 rfl rfl).symm]
  refine Finset.sum_congr rfl fun k _ => ?_
  have hl : (dot_S4096x4096_S4096x11008_S4096x11008_1_0_0_1_n_n).lhsIdx (ix2 r n) ((contrEquiv1 dot_S4096x4096_S4096x11008_S4096x11008_1_0_0_1_n_n 4096 rfl rfl).symm k) = ix2 r k := by
    funext a
    refine Fin.ext ?_
    match a with
    | ⟨0, _⟩ => rfl
    | ⟨1, _⟩ => rfl
  have hr : (dot_S4096x4096_S4096x11008_S4096x11008_1_0_0_1_n_n).rhsIdx (ix2 r n) ((contrEquiv1 dot_S4096x4096_S4096x11008_S4096x11008_1_0_0_1_n_n 4096 rfl rfl).symm k) = ix2 k n := by
    funext a
    refine Fin.ext ?_
    match a with
    | ⟨0, _⟩ => rfl
    | ⟨1, _⟩ => rfl
  rw [hl, hr]

/-- The bias on every row. -/
theorem bias_apply {α : Type} (b : S11008.Idx → α) (r : Fin 4096) (n : Fin 11008) :
    broadcastInDim S4096x11008 ![0, 1] bcast_S1x11008_S4096x11008_0_1
      (broadcastInDim S1x11008 ![1] bcast_S11008_S1x11008_1 b) (ix2 r n) = b (ix1 n) := by
  rw [broadcastInDim_apply _ _ _ _ (ix2 (0 : Fin 1) n) (by intro a; fin_cases a <;> rfl),
    broadcastInDim_apply _ _ _ _ (ix1 n) (by intro a; fin_cases a <;> rfl)]

/-! ## The whole result -/

/-- At the ideal values the reference's composed term is the specified function of its five arguments. -/
theorem refOut_eq (x : FVec Ideal S2x2048x4096 .f32) (qw : IVec S512x11008 32) (zq : IVec S32x1376 32)
    (sc : FVec Ideal S32x11008 .f32) (b : FVec Ideal S11008 .f32) :
    refOut x qw zq sc b = Cert.Spec.G x qw zq sc b := by
  funext j
  obtain ⟨a, s, n, rfl⟩ : ∃ (a : Fin 2) (s : Fin 2048) (n : Fin 11008), j = ix3 a s n := ⟨_, _, _, eq_ix3 j⟩
  have ha := a.isLt
  have hs := s.isLt
  have hn := n.isLt
  rw [Cert.Spec.G_ix3]
  unfold refOut Cert.Spec.Gat
  rw [shapeCast_apply _ _ (ix3 a s n) (ix2 (⟨a.val * 2048 + s.val, by omega⟩ : Fin 4096) n)
    (by rw [Shape.rowMajor_val_two, Shape.rowMajor_val_three]
        show (a.val * 2048 + s.val) * 11008 + n.val = (a.val * 2048 + s.val) * 11008 + n.val
        rfl),
    addf_apply, dot_apply, bias_apply]
  congr 1
  refine Finset.sum_congr rfl fun k _ => ?_
  have hk := k.isLt
  rw [shapeCast_apply _ _ (ix2 (⟨a.val * 2048 + s.val, by omega⟩ : Fin 4096) k) (ix3 a s k)
    (by rw [Shape.rowMajor_val_two, Shape.rowMajor_val_three]
        show (a.val * 2048 + s.val) * 4096 + k.val = (a.val * 2048 + s.val) * 4096 + k.val
        rfl),
    deqW_apply]

end Cert.ReferenceIdeal.Hand

end
-- ==== Proof.RefValue.lean ====
/-
  The reference's run read as the specified function: after the 72 operations the result buffer holds the
  composed term of the five arguments' launch contents, which at the ideal values is the specified function of them;
  no operation writes an argument.
-/
import proofs.«410261_j36936718745876_3_alg».proof.Proof.RefRun
import proofs.«410261_j36936718745876_3_alg».proof.Proof.RefValueA

noncomputable section

open Idealize.ShloMosaic Idealize.ShloMosaic.TcCoe Idealize.SL.Sem Idealize.ShloMosaic.StableHlo

namespace Cert.ReferenceIdeal.Hand

open Cert.ReferenceIdeal

variable {F : FTy → Type} [FloatOps F] [Facts]
open Facts₀ Facts

-- the composed term is deep: the group index occurs three times under each wrapped index vector
set_option maxRecDepth 8192 in
set_option maxHeartbeats 1000000 in
/-- The fold of the operations at the result buffer is the composed term of the arguments: each operation's result
    at its own buffer is its function's value, at any other buffer what was there, and the transports of the
    callee's typed references are the identity at these references. -/
theorem out_eq (V : Valuation τ sig (Elt F)) :
    after ops V (main_v46 : DevRef τ sig)
      = refOut (V (main_arg0 : DevRef τ sig)) (V (main_arg1 : DevRef τ sig)) (V (main_arg2 : DevRef τ sig))
          (V (main_arg3 : DevRef τ sig)) (V (main_arg4 : DevRef τ sig)) := by
  after_results_simp
  rfl

set_option maxRecDepth 8192 in
theorem arg0_eq (V : Valuation τ sig (Elt F)) :
    after ops V (main_arg0 : DevRef τ sig) = V (main_arg0 : DevRef τ sig) := by
  after_results_simp
set_option maxRecDepth 8192 in
theorem arg1_eq (V : Valuation τ sig (Elt F)) :
    after ops V (main_arg1 : DevRef τ sig) = V (main_arg1 : DevRef τ sig) := by
  after_results_simp
set_option maxRecDepth 8192 in
theorem arg2_eq (V : Valuation τ sig (Elt F)) :
    after ops V (main_arg2 : DevRef τ sig) = V (main_arg2 : DevRef τ sig) := by
  after_results_simp
set_option maxRecDepth 8192 in
theorem arg3_eq (V : Valuation τ sig (Elt F)) :
    after ops V (main_arg3 : DevRef τ sig) = V (main_arg3 : DevRef τ sig) := by
  after_results_simp
set_option maxRecDepth 8192 in
theorem arg4_eq (V : Valuation τ sig (Elt F)) :
    after ops V (main_arg4 : DevRef τ sig) = V (main_arg4 : DevRef τ sig) := by
  after_results_simp

end Cert.ReferenceIdeal.Hand

/-- At the ideal values, from any memory with zero counters: every weakly fair execution of @main terminates with
    the result buffer at the specified function of the five arguments' launch contents, and the arguments
    unchanged. -/
theorem Cert.ReferenceIdeal.Hand.run_value [Cert.ReferenceIdeal.Facts] (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v46)
        = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono
    (fun _ h c => ⟨(h c Cert.ReferenceIdeal.main_v46).trans
        ((Cert.ReferenceIdeal.Hand.out_eq _).trans (Cert.ReferenceIdeal.Hand.refOut_eq _ _ _ _ _)),
      (h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _)⟩)
    (Cert.ReferenceIdeal.Hand.run_main m ρ)

end
-- ==== Proof.lean ====
/-
  The certificate's claim: a GPTQ-style int4 dequantize-and-multiply kernel against its jnp reference.

  Both programs compute, at (a, s, n), the sum over the 4096 input features k of x (a, s, k) times the dequantized weight
  (q (k, n) − zero (k / 128, n)) · scale (k / 128, n), plus the bias at n (`Cert.Spec.G`). The kernel walks a grid of
  11 · 4 · 4 points (column tile n, row tile m, feature tile k): at m = 0 it dequantizes the weight tile (n, k) into a cache
  it reads back at m > 0, it accumulates the four feature tiles' products into a scratch accumulator, and at k = 3 it writes
  the accumulator plus the bias to the output block. Over the extended reals a sum of four partial sums of 1024 terms is
  the sum of the 4096 terms, so the two results agree entry by entry; no finiteness is needed. The three frames are the
  pipeline's run (both instances of the kernel) and the reference's host run; the ideal pass rewrote nothing, so the
  idealization claim is trivial.
-/
import proofs.«410261_j36936718745876_3_alg».proof.Defs
import proofs.«410261_j36936718745876_3_alg».proof.Proof.Gen.Kernel
import proofs.«410261_j36936718745876_3_alg».proof.Proof.Gen.KernelIdeal
import proofs.«410261_j36936718745876_3_alg».proof.Proof.Gen.ReferenceIdeal
import proofs.«410261_j36936718745876_3_alg».proof.Proof.Gen.Pre_finite_inputs
import proofs.«410261_j36936718745876_3_alg».proof.Proof.KOblig
import proofs.«410261_j36936718745876_3_alg».proof.Proof.KIFinal
import proofs.«410261_j36936718745876_3_alg».proof.Proof.RefValue

noncomputable section

namespace Cert.Proof

open Idealize.ShloMosaic Idealize.SL.Sem

/-- The word-level kernel runs and leaves its arguments unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- So does the idealized reference: its run with the result dropped. -/
theorem frame_ri : Cert.frame_ReferenceIdeal := fun m ρ _ =>
  (θ_run (Cert.ReferenceIdeal.defs (F := Ideal)) _ _).mono (fun _ h c => (h c).2) (Cert.ReferenceIdeal.Hand.run_value m ρ)

/-- From memories agreeing on the arguments both idealized programs end with the result at `Cert.Spec.G` of the arguments. -/
theorem algebraic : Cert.algebraic_KernelIdeal_ReferenceIdeal := by
  intro m ρ m' ρ' _ hagree
  refine ⟨_, Cert.KernelIdeal.Hand.run_value m ρ, ?_⟩
  refine (θ_run (Cert.ReferenceIdeal.defs (F := Ideal)) _ _).mono (fun _ h c => ⟨(h c).1.trans ?_, (h c).2⟩)
    (Cert.ReferenceIdeal.Hand.run_value m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
